-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1 : Shape := ⟨1, ![1]⟩

abbrev nBuf : Space → Nat
  | .hbm => 30
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S1x8192, .f32⟩
  | .hbm, ⟨12, _⟩ => ⟨S8192x512, .bf16⟩
  | .hbm, ⟨13, _⟩ => ⟨S8192x512, .bf16⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S8192x512, .f32⟩
  | .local _ .vmem, ⟨3, _⟩ => ⟨S512x1, .f32⟩
  | .local _ .vmem, ⟨4, _⟩ => ⟨S512x1, .f32⟩
  | .local _ .vmem, ⟨5, _⟩ => ⟨S1x8192, .f32⟩
  | .local _ .vmem, ⟨6, _⟩ => ⟨S1x1, .f32⟩
  | .local _ .vmem, ⟨7, _⟩ => ⟨S1x1, .f32⟩
  | .local _ .vmem, ⟨8, _⟩ => ⟨S512x512, .f32⟩
  | .local _ .vmem, ⟨9, _⟩ => ⟨S512x512, .f32⟩
  | .local _ .vmem, ⟨10, _⟩ => ⟨S8192x512, .f32⟩
  | .local _ .vmem, ⟨11, _⟩ => ⟨S512x1, .f32⟩
  | .local _ .vmem, ⟨12, _⟩ => ⟨S512x1, .f32⟩
  | .local _ .vmem, ⟨13, _⟩ => ⟨S1x8192, .f32⟩
  | .local _ .vmem, ⟨14, _⟩ => ⟨S1x1, .f32⟩
  | .local _ .vmem, ⟨15, _⟩ => ⟨S1x1, .f32⟩
  | .local _ .vmem, ⟨16, _⟩ => ⟨S512x512, .bf16⟩
  | .local _ .vmem, ⟨17, _⟩ => ⟨S512x512, .bf16⟩
  | .local _ .vmem, ⟨18, _⟩ => ⟨S8192x512, .bf16⟩
  | .local _ .vmem, ⟨19, _⟩ => ⟨S512x1, .f32⟩
  | .local _ .vmem, ⟨20, _⟩ => ⟨S512x1, .f32⟩
  | .local _ .vmem, ⟨21, _⟩ => ⟨S1x8192, .f32⟩
  | .local _ .vmem, ⟨22, _⟩ => ⟨S1x1, .f32⟩
  | .local _ .vmem, ⟨23, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_4 : BitVec 32 := 0#32
  let c16_i32 : BitVec 32 := 16#32
  let v7 : BitVec 32 := Scalar.addi c0_i32_4 c16_i32
  let c1_i32 : BitVec 32 := 1#32
  ⟨c0_i32_4, v7, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c512_i32 : BitVec 32 := 512#32
  let v16 : BitVec 32 := Scalar.muli arg7 c512_i32
  v16
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c512_i32 : BitVec 32 := 512#32
  let v16 : BitVec 32 := Scalar.muli arg7 c512_i32
  let v17 : BitVec 32 := v16
  let v18 : Index := Scalar.indexCast v17
  let c0_14 : Index := 0#32
  ![v18.toNat, 0]
def k0_off2 (k0_t1 : Fin k0_t1_loop.trips) : Fin 2 → Nat :=
  let c0_15 : Index := 0#32
  let c0_i32_4 : BitVec 32 := 0#32
  let c1_i32 : BitVec 32 := 1#32
  let arg7 : BitVec 32 := Scf.iv c0_i32_4 c1_i32 k0_t1
  let c512_i32 : BitVec 32 := 512#32
  let v16 : BitVec 32 := Scalar.muli arg7 c512_i32
  let v17 : BitVec 32 := v16
  let v20 : Index := Scalar.indexCast v17
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

@[reducible] def k1_t1_loop : Scf.Loop 32 :=
  let c0_i32_4 : BitVec 32 := 0#32
  let c16_i32 : BitVec 32 := 16#32
  let v7 : BitVec 32 := Scalar.addi c0_i32_4 c16_i32
  let c1_i32 : BitVec 32 := 1#32
  ⟨c0_i32_4, v7, c1_i32⟩
def k1_mult1 (k1_t1 : Fin k1_t1_loop.trips) : BitVec 32 :=
  let c0_i32_4 : BitVec 32 := 0#32
  let c1_i32 : BitVec 32 := 1#32
  let arg7 : BitVec 32 := Scf.iv c0_i32_4 c1_i32 k1_t1
  let c512_i32 : BitVec 32 := 512#32
  let v16 : BitVec 32 := Scalar.muli arg7 c512_i32
  v16
def k1_off1 (k1_t1 : Fin k1_t1_loop.trips) : Fin 2 → Nat :=
  let c0_i32_4 : BitVec 32 := 0#32
  let c1_i32 : BitVec 32 := 1#32
  let arg7 : BitVec 32 := Scf.iv c0_i32_4 c1_i32 k1_t1
  let c512_i32 : BitVec 32 := 512#32
  let v16 : BitVec 32 := Scalar.muli arg7 c512_i32
  let v17 : BitVec 32 := v16
  let v18 : Index := Scalar.indexCast v17
  let c0_14 : Index := 0#32
  ![v18.toNat, 0]
def k1_off2 (k1_t1 : Fin k1_t1_loop.trips) : Fin 2 → Nat :=
  let c0_15 : Index := 0#32
  let c0_i32_4 : BitVec 32 := 0#32
  let c1_i32 : BitVec 32 := 1#32
  let arg7 : BitVec 32 := Scf.iv c0_i32_4 c1_i32 k1_t1
  let c512_i32 : BitVec 32 := 512#32
  let v16 : BitVec 32 := Scalar.muli arg7 c512_i32
  let v17 : BitVec 32 := v16
  let v20 : Index := Scalar.indexCast v17
  ![0, v20.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![16], ![false]⟩

@[reducible] def k2_t1_loop : Scf.Loop 32 :=
  let c0_i32_4 : BitVec 32 := 0#32
  let c16_i32 : BitVec 32 := 16#32
  let v8 : BitVec 32 := Scalar.addi c0_i32_4 c16_i32
  let c1_i32 : BitVec 32 := 1#32
  ⟨c0_i32_4, v8, c1_i32⟩
def k2_mult1 (k2_t1 : Fin k2_t1_loop.trips) : BitVec 32 :=
  let c0_i32_4 : BitVec 32 := 0#32
  let c1_i32 : BitVec 32 := 1#32
  let arg7 : BitVec 32 := Scf.iv c0_i32_4 c1_i32 k2_t1
  let c512_i32 : BitVec 32 := 512#32
  let v17 : BitVec 32 := Scalar.muli arg7 c512_i32
  v17
def k2_off1 (k2_t1 : Fin k2_t1_loop.trips) : Fin 2 → Nat :=
  let c0_i32_4 : BitVec 32 := 0#32
  let c1_i32 : BitVec 32 := 1#32
  let arg7 : BitVec 32 := Scf.iv c0_i32_4 c1_i32 k2_t1
  let c512_i32 : BitVec 32 := 512#32
  let v17 : BitVec 32 := Scalar.muli arg7 c512_i32
  let v18 : BitVec 32 := v17
  let v19 : Index := Scalar.indexCast v18
  let c0_14 : Index := 0#32
  ![v19.toNat, 0]
def k2_off2 (k2_t1 : Fin k2_t1_loop.trips) : Fin 2 → Nat :=
  let c0_15 : Index := 0#32
  let c0_i32_4 : BitVec 32 := 0#32
  let c1_i32 : BitVec 32 := 1#32
  let arg7 : BitVec 32 := Scf.iv c0_i32_4 c1_i32 k2_t1
  let c512_i32 : BitVec 32 := 512#32
  let v17 : BitVec 32 := Scalar.muli arg7 c512_i32
  let v18 : BitVec 32 := v17
  let v22 : Index := Scalar.indexCast v18
  ![0, v22.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  shapeCasts_S512x512_S512x512 : S512x512.ShapeCasts S512x512
  dot_S512x512_S512x512_S512x512_1_1_0_0_n_n_wf : DotDims.WF S512x512 S512x512 S512x512 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x512.size a ≤ S8192x512.size a
  k0_off2_inb : ∀ k0_t1 : Fin k0_t1_loop.trips, ∀ a, (k0_off2 k0_t1) a + S1x512.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .f32 = 32 ∨ (Rect.block (s := S8192x512) S8192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x512.size a ≤ S8192x512.size a
  k1_off2_inb : ∀ k1_t1 : Fin k1_t1_loop.trips, ∀ a, (k1_off2 k1_t1) a + S1x512.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .f32 = 32 ∨ (Rect.block (s := S8192x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .f32 = 32 ∨ (Rect.block (s := S8192x512) S8192x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  k2_t1_ok : k2_t1_loop.OK
  k2_mult1_dvd : ∀ k2_t1 : Fin k2_t1_loop.trips, 512 ∣ (k2_mult1 k2_t1).toNat
  k2_off1_inb : ∀ k2_t1 : Fin k2_t1_loop.trips, ∀ a, (k2_off1 k2_t1) a + S512x512.size a ≤ S8192x512.size a
  k2_off2_inb : ∀ k2_t1 : Fin k2_t1_loop.trips, ∀ a, (k2_off2 k2_t1) a + S1x512.size a ≤ S1x8192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x512.size a
  hwx2_0 : ∀ i : grid2.Coords, EltTy.bits .bf16 = 32 ∨ (Rect.block (s := S8192x512) S512x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .bf16 = 32 ∨ (Rect.block (s := S8192x512) S8192x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8192.size a ≤ S1x8192.size a
  hwx2_3 : ∀ i : grid2.Coords, EltTy.bits .f32 = 32 ∨ (Rect.block (s := S1x8192) S1x8192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v8) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x8192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 87
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S512x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x512, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S512x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x512, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S1x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S512x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_8 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_10 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_11 : Ref sig .tc := ⟨.hbm, 71, rfl⟩
abbrev main_v57 : Ref sig .tc := ⟨.hbm, 72, rfl⟩
abbrev main_cst_12 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_v61 : Ref sig .tc := ⟨.hbm, 79, rfl⟩
abbrev main_cst_15 : Ref sig .tc := ⟨.hbm, 80, rfl⟩
abbrev main_v62 : Ref sig .tc := ⟨.hbm, 81, rfl⟩
abbrev main_cst_16 : Ref sig .tc := ⟨.hbm, 82, rfl⟩
abbrev main_v63 : Ref sig .tc := ⟨.hbm, 83, rfl⟩
abbrev main_cst_17 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Body0.lean ====
/-
  Region 0 (the source-source term): the kernel body at one grid point.

  At a grid point the body holds a 512-row tile of the left operand `x1`, the whole right operand `x2`, the tile's
  squared row norms `x3` (a column) and all squared row norms of the right operand `x4` (a row). A counted loop
  walks the right operand in sixteen chunks of 512 rows; each trip adds to a carried (1,1) value the sum over the
  512 x 512 pairs (row of the tile, row of the chunk) of exp((|x|² + |y|² - 2 x·y) · (-1/2)). The (1,1) scratch
  accumulates the tiles' values across grid points: it is reset to zero at the first point, and at every point it
  ends at "what it held, plus this tile's value"; the (1,1) output block is a copy of it.
  Here: the tile's value and the new scratch contents as named functions of the body's loads, the first-point
  condition in closed form, and the body's triple in each of the two cases.
-/
import proofs.«129238_j8907762171929_1_alg».proof.Proof.Gen.Kernel.Loops
import proofs.«129238_j8907762171929_1_alg».proof.Proof.Gen.Kernel.Launch
import proofs.«129238_j8907762171929_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first-point condition -/

/-- The body's one conditional: the grid coordinate is zero. -/
abbrev first0 (i : grid0.Coords) : Prop :=
  (Scalar.cmpi .ne (Scalar.extui (Scalar.cmpi .eq (BitVec.ofNat 32 (i 0).val) 0#32)) 0#32) = 1#1

/-- It holds at point 0 and nowhere else: decided over the sixteen points. -/
theorem first0_iff : ∀ t : Fin cfg0.N, first0 (grid0.coords t) ↔ t.val = 0 :=
  (by decide +kernel : ∀ t : Fin grid0.N, first0 (grid0.coords t) ↔ t.val = 0)

/-! ## What the body computes -/

/-- The offsets of a whole-buffer rectangle of rank two are all zero. -/
theorem zero2_0 : (![0, 0] : Fin 2 → ℕ) = fun _ => 0 := by
  funext a; fin_cases a <;> rfl

/-- The tile's value: the carried (1,1) value after the sixteen trips, started at zero, over the tile `x1`, its
    norms `x3`, the whole right operand `x2` and its norms `x4`. -/
def tile0 (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) : FVec F S1x1 .f32 :=
  st_k0_t1 (F := F) Variants.none c none i arg1 harg1 arg2 harg2 arg3 harg3 arg4 harg4 arg5 harg5 arg6 harg6 x1 x3 (harg2.unread x2) (harg4.unread x4)
    (k0_pay2 (F := F)) (Scf.trips k0_t1_loop.lb k0_t1_loop.ub k0_t1_loop.st)

/-- The scratch after the point: what it held (`xs`) plus the tile's value. -/
def acc0 (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) (xs : Vec F S1x1 .f32) : Vec F S1x1 .f32 :=
  k0_pay4 (tile0 c i arg1 harg1 arg2 harg2 arg3 harg3 arg4 harg4 arg5 harg5 arg6 harg6 x1 x2 x3 x4) xs

/-- A single whole-buffer store covers the (1,1) buffer. -/
theorem cover11_0 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

/-! ## The body's triple -/

set_option maxHeartbeats 4000000 in
/-- NOT the first point: the scratch is found at `xs`; the body leaves the inputs as they were and both the scratch and
    the output block at `acc0 … xs`. -/
theorem sound_kernel0_next (c : Dev nD) (E : Set ℕ) (i : grid0.Coords) (hc : ¬ first0 i) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) (xs : Vec F S1x1 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc0 c i arg1 harg1 arg2 harg2 arg3 harg3 arg4 harg4 arg5 harg5 arg6 harg6 x1 x2 x3 x4 xs)
            ∗ owns (c : Thread nD τ) arg6 fullShare (acc0 c i arg1 harg1 arg2 harg2 arg3 harg3 arg4 harg4 arg5 harg5 arg6 harg6 x1 x2 x3 x4 xs)) -∗ K ⟨⟩))
      ⊢ wp frame (wpE (defs₀ (F := F)) Variants.none c none) E (cc0__mmd_sum_kernel i arg1 harg1 arg2 harg2 arg3 harg3 arg4 harg4 arg5 harg5 arg6 harg6) K := by
  simp only [cc0__mmd_sum_kernel_eq_skeleton]; unfold cc0__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_0 _), View.canon_unit_zero zero2_0, View.readCov_unit_zero _ zero2_0]
    simp only [View.readAt_eq_ld, harg1.read_unread, harg3.read_unread, harg6.read_unread,
      View.ld_unit_zero (S := S512x512) zero2_0, View.ld_unit_zero (S := S512x1) zero2_0, View.ld_unit_zero (S := S1x1) zero2_0]
    rfl
  · iexists _; isplitr
    swap; · iexact H6
    ipureintro
    rw [View.read_writes_eq_canon _ _ _ (cover11_0 _), View.canon_unit_zero zero2_0]
    simp only [View.readAt_eq_ld, harg1.read_unread, harg3.read_unread, harg6.read_unread,
      View.ld_unit_zero (S := S512x512) zero2_0, View.ld_unit_zero (S := S512x1) zero2_0, View.ld_unit_zero (S := S1x1) zero2_0]
    rfl

set_option maxHeartbeats 4000000 in
/-- THE FIRST POINT: the scratch is found at anything, is reset to zero (`k0_pay1`), and the body leaves the inputs as
    they were and both the scratch and the output block at `acc0 … k0_pay1`. -/
theorem sound_kernel0_first (c : Dev nD) (E : Set ℕ) (i : grid0.Coords) (hc : first0 i) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc0 c i arg1 harg1 arg2 harg2 arg3 harg3 arg4 harg4 arg5 harg5 arg6 harg6 x1 x2 x3 x4 (k0_pay1 (F := F)))
            ∗ owns (c : Thread nD τ) arg6 fullShare (acc0 c i arg1 harg1 arg2 harg2 arg3 harg3 arg4 harg4 arg5 harg5 arg6 harg6 x1 x2 x3 x4 (k0_pay1 (F := F)))) -∗ K ⟨⟩))
      ⊢ wp frame (wpE (defs₀ (F := F)) Variants.none c none) E (cc0__mmd_sum_kernel i arg1 harg1 arg2 harg2 arg3 harg3 arg4 harg4 arg5 harg5 arg6 harg6) K := by
  simp only [cc0__mmd_sum_kernel_eq_skeleton]; unfold cc0__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, Hk⟩
  obtain rfl := harg1.eq_unread hf1; obtain rfl := harg2.eq_unread hf2; obtain rfl := harg3.eq_unread hf3
  obtain rfl := harg4.eq_unread hf4
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_0 _), View.canon_unit_zero zero2_0, View.readCov_cons_toLoadRect]
    simp only [View.readCov_cons_toLoadRect, View.readAt_eq_ld, harg1.read_unread, harg3.read_unread,
      View.ld_unit_zero (S := S512x512) zero2_0, View.ld_unit_zero (S := S512x1) zero2_0, View.ld_unit_zero (S := S1x1) zero2_0]
    rfl
  · iexists _; isplitr
    swap; · iexact H6
    ipureintro
    rw [View.read_writes_eq_canon _ _ _ (fun y => ⟨_, List.Mem.head _, View.mem_set_unit_zero zero2_0 inb_S1x1_S1x1_0_0 y⟩),
      View.canon_cons_unit_zero zero2_0]
    simp only [View.readCov_cons_toLoadRect, View.readAt_eq_ld, harg1.read_unread, harg3.read_unread,
      View.ld_unit_zero (S := S512x512) zero2_0, View.ld_unit_zero (S := S512x1) zero2_0, View.ld_unit_zero (S := S1x1) zero2_0]
    rfl

end Cert.Kernel.Hand

end
-- ==== Proof.K.Region0.lean ====
/-
  Region 0 (the source-source term): the pipeline's proof data.

  Windows 0 and 2 bring a fresh 512-row tile of the left operand and of its squared norms at every grid point; windows 1
  and 3 bring the whole right operand and its norms once, at the first point, and keep them; window 4 is the (1,1)
  result, written back after the last point only. The kernel's (1,1) scratch is carried from point to point inside the
  region invariant: after point n it holds the sum of the tiles' values at points 0..n (`scAt0`), and the result's staging
  buffer holds the same. Stated at a parameter `V`, the buffer contents when the region is entered.
-/
import proofs.«129238_j8907762171929_1_alg».proof.Proof.K.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging memref at point `t`, spelt as the pipeline passes it to the body, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The kernel's scratch: a whole scoped buffer of its own, passed beside the windows. -/
abbrev scM0 : Memref sig .tc .vmem S1x1 .f32 := Memref.whole cc0_scratch0

/-! ## The scratch point by point -/

/-- What the scratch (and the result's staging buffer) holds after the body at position `n`: at the first point the
    tile's value over the reset scratch, afterwards the tile's value over what the point before left. -/
def scAt0 (c : Dev nD) : (n : ℕ) → n < cfg0.N → Vec F S1x1 .f32
  | 0, hn => acc0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _)
      (iblk0 V c 0 ⟨0, hn⟩) (iblk0 V c 1 ⟨0, hn⟩) (iblk0 V c 2 ⟨0, hn⟩) (iblk0 V c 3 ⟨0, hn⟩) (k0_pay1 (F := F))
  | n + 1, hn => acc0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _)
      (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn))

/-- At the first point. -/
theorem scAt0_first (c : Dev nD) (t : Fin cfg0.N) (h0 : t.val = 0) :
    scAt0 V c t.val t.isLt = acc0 c (grid0.coords t) (ms0_0 t) (hs0_0 t) (ms0_1 t) (hs0_1 t) (ms0_2 t) (hs0_2 t) (ms0_3 t) (hs0_3 t) (ms0_4 t) (hs0_4 t) scM0 (Memref.isWhole_whole _)
      (iblk0 V c 0 t) (iblk0 V c 1 t) (iblk0 V c 2 t) (iblk0 V c 3 t) (k0_pay1 (F := F)) := by
  obtain ⟨n, hn⟩ := t
  cases n with
  | zero => rfl
  | succ n => exact absurd h0 (Nat.succ_ne_zero n)

/-- At a later point: over what the point before left. -/
theorem scAt0_next (c : Dev nD) (t : Fin cfg0.N) (h0 : t.val ≠ 0) :
    scAt0 V c t.val t.isLt = acc0 c (grid0.coords t) (ms0_0 t) (hs0_0 t) (ms0_1 t) (hs0_1 t) (ms0_2 t) (hs0_2 t) (ms0_3 t) (hs0_3 t) (ms0_4 t) (hs0_4 t) scM0 (Memref.isWhole_whole _)
      (iblk0 V c 0 t) (iblk0 V c 1 t) (iblk0 V c 2 t) (iblk0 V c 3 t) (scAt0 V c (t.val - 1) (Nat.lt_of_le_of_lt (Nat.sub_le _ _) t.isLt)) := by
  obtain ⟨n, hn⟩ := t
  cases n with
  | zero => exact absurd rfl h0
  | succ n => rfl

/-! ## The region invariant -/

/-- The core's scoped buffers that are neither a staging buffer of this region nor its scratch, each whole at some
    contents: they ride through the region untouched. -/
def rest0 (c : Dev nD) : sProp 𝕄 :=
  bigSep (((Finset.univ.filter fun b : Ref sig .tc => b.isScoped) \ Finset.univ.image (Pipeline.stageRef spec0)) \ {cc0_scratch0})
    fun b => iprop(∃ f : Buf (Elt F) ((c.tc : Thread nD τ).loc b), ((c.tc : Thread nD τ).loc b) ↦{fullShare} f)

/-- The class invariant with the scratch split off as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  -- the scratch is a scoped buffer and no staging buffer of this region: it is one factor of the product
  have hsub : ({cc0_scratch0} : Finset (Ref sig .tc))
      ⊆ (Finset.univ.filter fun b : Ref sig .tc => b.isScoped) \ Finset.univ.image (Pipeline.stageRef spec0) := by decide
  unfold Pipeline.ΦA Pipeline.scopedRest rest0
  rw [bigSep_sdiff_split hsub, bigSep_singleton]
  -- a whole buffer owned as a memref is its points-to
  simp only [scM0, owns_whole]
  rfl

/-- The invariant before position `n`: before the first point the class's (the scratch at anything); afterwards the
    scratch at what the point before left in it, the other scoped buffers at anything, the generator register at some
    state. -/
def PhiS0 (c : Dev nD) : (n : ℕ) → n ≤ cfg0.N → sProp 𝕄
  | 0, _ => Pipeline.ΦA spec0 c
  | n + 1, hn => iprop(iprop(owns (c : Thread nD τ) scM0 fullShare (scAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (scAt0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (scAt0 V c (n - 1) (by omega)) ∗ rest0 (F := F) c) ∗ (∃ r, prngReg c r)) := by
  cases n with
  | zero => exact absurd rfl hz
  | succ n => rfl

/-! ## The proof data -/

/-- The proof data of pipeline 0 on core `c`: the arrays as the region finds them (`V`); after the body at point `t`
    each input's buffer at its block and the result's at the scratch's contents; the invariant `PhiS0`; nothing owed.
    Windows 0 and 1 read ONE array (the same argument as left and as right operand): each holds half of its share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => scAt0 V c t.val t.isLt
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = scAt0 V c t.val t.isLt := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, PhiS0_castSucc V c t]
  by_cases h0 : t.val = 0
  · -- the first point: the scratch is found at anything and reset by the body
    rw [PhiS0_zero V c _ _ h0, PhiA0_eq, scAt0_first V c t h0]
    iintro ⟨⟨⟨⟨%ds, HS⟩, HR⟩, Hg⟩, Ho, ⟨%d0, H0⟩, ⟨%d1, H1⟩, ⟨%d2, H2⟩, ⟨%d3, H3⟩, ⟨%d4, H4⟩⟩
    iapply (sound_kernel0_first c Set.univ (grid0.coords t) ((first0_iff t).mpr h0) _ _ _ _ _ _ _ _ _ _ _ _
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4
  · -- a later point: the scratch is found at what the point before left
    rw [PhiS0_pos V c _ _ h0, scAt0_next V c t h0]
    iintro ⟨⟨⟨HS, HR⟩, Hg⟩, Ho, ⟨%d0, H0⟩, ⟨%d1, H1⟩, ⟨%d2, H2⟩, ⟨%d3, H3⟩, ⟨%d4, H4⟩⟩
    iapply (sound_kernel0_next c Set.univ (grid0.coords t) (fun h => h0 ((first0_iff t).mp h)) _ _ _ _ _ _ _ _ _ _ _ _
      (iblk0 V c 0 t) (iblk0 V c 1 t) (iblk0 V c 2 t) (iblk0 V c 3 t) (scAt0 V c (t.val - 1) _) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c cfg0.N (Nat.le_refl _) (by rw [show cfg0.N = 16 from N_0]; decide), PhiA0_eq]
  iintro ⟨⟨HS, HR⟩, Hg⟩
  isplitl [HS HR]
  · isplitl [HS]
    · iexists _; iexact HS
    · iexact HR
  · iexact Hg

end Cert.Kernel.Hand

end
-- ==== Proof.K.Body1.lean ====
/-
  Region 1 (the target-target term): the kernel body at one grid point.

  At a grid point the body holds a 512-row tile of the left operand `x1`, the whole right operand `x2`, the tile's
  squared row norms `x3` (a column) and all squared row norms of the right operand `x4` (a row). A counted loop
  walks the right operand in sixteen chunks of 512 rows; each trip adds to a carried (1,1) value the sum over the
  512 x 512 pairs (row of the tile, row of the chunk) of exp((|x|² + |y|² - 2 x·y) · (-1/2)). The (1,1) scratch
  accumulates the tiles' values across grid points: it is reset to zero at the first point, and at every point it
  ends at "what it held, plus this tile's value"; the (1,1) output block is a copy of it.
  Here: the tile's value and the new scratch contents as named functions of the body's loads, the first-point
  condition in closed form, and the body's triple in each of the two cases.
-/
import proofs.«129238_j8907762171929_1_alg».proof.Proof.Gen.Kernel.Loops
import proofs.«129238_j8907762171929_1_alg».proof.Proof.Gen.Kernel.Launch
import proofs.«129238_j8907762171929_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first-point condition -/

/-- The body's one conditional: the grid coordinate is zero. -/
abbrev first1 (i : grid1.Coords) : Prop :=
  (Scalar.cmpi .ne (Scalar.extui (Scalar.cmpi .eq (BitVec.ofNat 32 (i 0).val) 0#32)) 0#32) = 1#1

/-- It holds at point 0 and nowhere else: decided over the sixteen points. -/
theorem first1_iff : ∀ t : Fin cfg1.N, first1 (grid1.coords t) ↔ t.val = 0 :=
  (by decide +kernel : ∀ t : Fin grid1.N, first1 (grid1.coords t) ↔ t.val = 0)

/-! ## What the body computes -/

/-- The offsets of a whole-buffer rectangle of rank two are all zero. -/
theorem zero2_1 : (![0, 0] : Fin 2 → ℕ) = fun _ => 0 := by
  funext a; fin_cases a <;> rfl

/-- The tile's value: the carried (1,1) value after the sixteen trips, started at zero, over the tile `x1`, its
    norms `x3`, the whole right operand `x2` and its norms `x4`. -/
def tile1 (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) : FVec F S1x1 .f32 :=
  st_k1_t1 (F := F) Variants.none c none i arg1 harg1 arg2 harg2 arg3 harg3 arg4 harg4 arg5 harg5 arg6 harg6 x1 x3 (harg2.unread x2) (harg4.unread x4)
    (k1_pay2 (F := F)) (Scf.trips k1_t1_loop.lb k1_t1_loop.ub k1_t1_loop.st)

/-- The scratch after the point: what it held (`xs`) plus the tile's value. -/
def acc1 (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) (xs : Vec F S1x1 .f32) : Vec F S1x1 .f32 :=
  k1_pay4 (tile1 c i arg1 harg1 arg2 harg2 arg3 harg3 arg4 harg4 arg5 harg5 arg6 harg6 x1 x2 x3 x4) xs

/-- A single whole-buffer store covers the (1,1) buffer. -/
theorem cover11_1 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

/-! ## The body's triple -/

set_option maxHeartbeats 4000000 in
/-- NOT the first point: the scratch is found at `xs`; the body leaves the inputs as they were and both the scratch and
    the output block at `acc1 … xs`. -/
theorem sound_kernel1_next (c : Dev nD) (E : Set ℕ) (i : grid1.Coords) (hc : ¬ first1 i) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) (xs : Vec F S1x1 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc1 c i arg1 harg1 arg2 harg2 arg3 harg3 arg4 harg4 arg5 harg5 arg6 harg6 x1 x2 x3 x4 xs)
            ∗ owns (c : Thread nD τ) arg6 fullShare (acc1 c i arg1 harg1 arg2 harg2 arg3 harg3 arg4 harg4 arg5 harg5 arg6 harg6 x1 x2 x3 x4 xs)) -∗ K ⟨⟩))
      ⊢ wp frame (wpE (defs₀ (F := F)) Variants.none c none) E (cc1__mmd_sum_kernel i arg1 harg1 arg2 harg2 arg3 harg3 arg4 harg4 arg5 harg5 arg6 harg6) K := by
  simp only [cc1__mmd_sum_kernel_eq_skeleton]; unfold cc1__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_1 _), View.canon_unit_zero zero2_1, View.readCov_unit_zero _ zero2_1]
    simp only [View.readAt_eq_ld, harg1.read_unread, harg3.read_unread, harg6.read_unread,
      View.ld_unit_zero (S := S512x512) zero2_1, View.ld_unit_zero (S := S512x1) zero2_1, View.ld_unit_zero (S := S1x1) zero2_1]
    rfl
  · iexists _; isplitr
    swap; · iexact H6
    ipureintro
    rw [View.read_writes_eq_canon _ _ _ (cover11_1 _), View.canon_unit_zero zero2_1]
    simp only [View.readAt_eq_ld, harg1.read_unread, harg3.read_unread, harg6.read_unread,
      View.ld_unit_zero (S := S512x512) zero2_1, View.ld_unit_zero (S := S512x1) zero2_1, View.ld_unit_zero (S := S1x1) zero2_1]
    rfl

set_option maxHeartbeats 4000000 in
/-- THE FIRST POINT: the scratch is found at anything, is reset to zero (`k1_pay1`), and the body leaves the inputs as
    they were and both the scratch and the output block at `acc1 … k1_pay1`. -/
theorem sound_kernel1_first (c : Dev nD) (E : Set ℕ) (i : grid1.Coords) (hc : first1 i) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc1 c i arg1 harg1 arg2 harg2 arg3 harg3 arg4 harg4 arg5 harg5 arg6 harg6 x1 x2 x3 x4 (k1_pay1 (F := F)))
            ∗ owns (c : Thread nD τ) arg6 fullShare (acc1 c i arg1 harg1 arg2 harg2 arg3 harg3 arg4 harg4 arg5 harg5 arg6 harg6 x1 x2 x3 x4 (k1_pay1 (F := F)))) -∗ K ⟨⟩))
      ⊢ wp frame (wpE (defs₀ (F := F)) Variants.none c none) E (cc1__mmd_sum_kernel i arg1 harg1 arg2 harg2 arg3 harg3 arg4 harg4 arg5 harg5 arg6 harg6) K := by
  simp only [cc1__mmd_sum_kernel_eq_skeleton]; unfold cc1__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, Hk⟩
  obtain rfl := harg1.eq_unread hf1; obtain rfl := harg2.eq_unread hf2; obtain rfl := harg3.eq_unread hf3
  obtain rfl := harg4.eq_unread hf4
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_1 _), View.canon_unit_zero zero2_1, View.readCov_cons_toLoadRect]
    simp only [View.readCov_cons_toLoadRect, View.readAt_eq_ld, harg1.read_unread, harg3.read_unread,
      View.ld_unit_zero (S := S512x512) zero2_1, View.ld_unit_zero (S := S512x1) zero2_1, View.ld_unit_zero (S := S1x1) zero2_1]
    rfl
  · iexists _; isplitr
    swap; · iexact H6
    ipureintro
    rw [View.read_writes_eq_canon _ _ _ (fun y => ⟨_, List.Mem.head _, View.mem_set_unit_zero zero2_1 inb_S1x1_S1x1_0_0 y⟩),
      View.canon_cons_unit_zero zero2_1]
    simp only [View.readCov_cons_toLoadRect, View.readAt_eq_ld, harg1.read_unread, harg3.read_unread,
      View.ld_unit_zero (S := S512x512) zero2_1, View.ld_unit_zero (S := S512x1) zero2_1, View.ld_unit_zero (S := S1x1) zero2_1]
    rfl

end Cert.Kernel.Hand

end
-- ==== Proof.K.Region1.lean ====
/-
  Region 1 (the target-target term): the pipeline's proof data.

  Windows 0 and 2 bring a fresh 512-row tile of the left operand and of its squared norms at every grid point; windows 1
  and 3 bring the whole right operand and its norms once, at the first point, and keep them; window 4 is the (1,1)
  result, written back after the last point only. The kernel's (1,1) scratch is carried from point to point inside the
  region invariant: after point n it holds the sum of the tiles' values at points 0..n (`scAt1`), and the result's staging
  buffer holds the same. Stated at a parameter `V`, the buffer contents when the region is entered.
-/
import proofs.«129238_j8907762171929_1_alg».proof.Proof.K.Body1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging memref at point `t`, spelt as the pipeline passes it to the body, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The kernel's scratch: a whole scoped buffer of its own, passed beside the windows. -/
abbrev scM1 : Memref sig .tc .vmem S1x1 .f32 := Memref.whole cc1_scratch0

/-! ## The scratch point by point -/

/-- What the scratch (and the result's staging buffer) holds after the body at position `n`: at the first point the
    tile's value over the reset scratch, afterwards the tile's value over what the point before left. -/
def scAt1 (c : Dev nD) : (n : ℕ) → n < cfg1.N → Vec F S1x1 .f32
  | 0, hn => acc1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _)
      (iblk1 V c 0 ⟨0, hn⟩) (iblk1 V c 1 ⟨0, hn⟩) (iblk1 V c 2 ⟨0, hn⟩) (iblk1 V c 3 ⟨0, hn⟩) (k1_pay1 (F := F))
  | n + 1, hn => acc1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _)
      (iblk1 V c 0 ⟨n + 1, hn⟩) (iblk1 V c 1 ⟨n + 1, hn⟩) (iblk1 V c 2 ⟨n + 1, hn⟩) (iblk1 V c 3 ⟨n + 1, hn⟩) (scAt1 c n (Nat.lt_of_succ_lt hn))

/-- At the first point. -/
theorem scAt1_first (c : Dev nD) (t : Fin cfg1.N) (h0 : t.val = 0) :
    scAt1 V c t.val t.isLt = acc1 c (grid1.coords t) (ms1_0 t) (hs1_0 t) (ms1_1 t) (hs1_1 t) (ms1_2 t) (hs1_2 t) (ms1_3 t) (hs1_3 t) (ms1_4 t) (hs1_4 t) scM1 (Memref.isWhole_whole _)
      (iblk1 V c 0 t) (iblk1 V c 1 t) (iblk1 V c 2 t) (iblk1 V c 3 t) (k1_pay1 (F := F)) := by
  obtain ⟨n, hn⟩ := t
  cases n with
  | zero => rfl
  | succ n => exact absurd h0 (Nat.succ_ne_zero n)

/-- At a later point: over what the point before left. -/
theorem scAt1_next (c : Dev nD) (t : Fin cfg1.N) (h0 : t.val ≠ 0) :
    scAt1 V c t.val t.isLt = acc1 c (grid1.coords t) (ms1_0 t) (hs1_0 t) (ms1_1 t) (hs1_1 t) (ms1_2 t) (hs1_2 t) (ms1_3 t) (hs1_3 t) (ms1_4 t) (hs1_4 t) scM1 (Memref.isWhole_whole _)
      (iblk1 V c 0 t) (iblk1 V c 1 t) (iblk1 V c 2 t) (iblk1 V c 3 t) (scAt1 V c (t.val - 1) (Nat.lt_of_le_of_lt (Nat.sub_le _ _) t.isLt)) := by
  obtain ⟨n, hn⟩ := t
  cases n with
  | zero => exact absurd rfl h0
  | succ n => rfl

/-! ## The region invariant -/

/-- The core's scoped buffers that are neither a staging buffer of this region nor its scratch, each whole at some
    contents: they ride through the region untouched. -/
def rest1 (c : Dev nD) : sProp 𝕄 :=
  bigSep (((Finset.univ.filter fun b : Ref sig .tc => b.isScoped) \ Finset.univ.image (Pipeline.stageRef spec1)) \ {cc1_scratch0})
    fun b => iprop(∃ f : Buf (Elt F) ((c.tc : Thread nD τ).loc b), ((c.tc : Thread nD τ).loc b) ↦{fullShare} f)

/-- The class invariant with the scratch split off as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  -- the scratch is a scoped buffer and no staging buffer of this region: it is one factor of the product
  have hsub : ({cc1_scratch0} : Finset (Ref sig .tc))
      ⊆ (Finset.univ.filter fun b : Ref sig .tc => b.isScoped) \ Finset.univ.image (Pipeline.stageRef spec1) := by decide
  unfold Pipeline.ΦA Pipeline.scopedRest rest1
  rw [bigSep_sdiff_split hsub, bigSep_singleton]
  -- a whole buffer owned as a memref is its points-to
  simp only [scM1, owns_whole]
  rfl

/-- The invariant before position `n`: before the first point the class's (the scratch at anything); afterwards the
    scratch at what the point before left in it, the other scoped buffers at anything, the generator register at some
    state. -/
def PhiS1 (c : Dev nD) : (n : ℕ) → n ≤ cfg1.N → sProp 𝕄
  | 0, _ => Pipeline.ΦA spec1 c
  | n + 1, hn => iprop(iprop(owns (c : Thread nD τ) scM1 fullShare (scAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (scAt1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (scAt1 V c (n - 1) (by omega)) ∗ rest1 (F := F) c) ∗ (∃ r, prngReg c r)) := by
  cases n with
  | zero => exact absurd rfl hz
  | succ n => rfl

/-! ## The proof data -/

/-- The proof data of pipeline 1 on core `c`: the arrays as the region finds them (`V`); after the body at point `t`
    each input's buffer at its block and the result's at the scratch's contents; the invariant `PhiS1`; nothing owed.
    Windows 0 and 1 read ONE array (the same argument as left and as right operand): each holds half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => scAt1 V c t.val t.isLt
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = scAt1 V c t.val t.isLt := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, PhiS1_castSucc V c t]
  by_cases h0 : t.val = 0
  · -- the first point: the scratch is found at anything and reset by the body
    rw [PhiS1_zero V c _ _ h0, PhiA1_eq, scAt1_first V c t h0]
    iintro ⟨⟨⟨⟨%ds, HS⟩, HR⟩, Hg⟩, Ho, ⟨%d0, H0⟩, ⟨%d1, H1⟩, ⟨%d2, H2⟩, ⟨%d3, H3⟩, ⟨%d4, H4⟩⟩
    iapply (sound_kernel1_first c Set.univ (grid1.coords t) ((first1_iff t).mpr h0) _ _ _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4
  · -- a later point: the scratch is found at what the point before left
    rw [PhiS1_pos V c _ _ h0, scAt1_next V c t h0]
    iintro ⟨⟨⟨HS, HR⟩, Hg⟩, Ho, ⟨%d0, H0⟩, ⟨%d1, H1⟩, ⟨%d2, H2⟩, ⟨%d3, H3⟩, ⟨%d4, H4⟩⟩
    iapply (sound_kernel1_next c Set.univ (grid1.coords t) (fun h => h0 ((first1_iff t).mp h)) _ _ _ _ _ _ _ _ _ _ _ _
      (iblk1 V c 0 t) (iblk1 V c 1 t) (iblk1 V c 2 t) (iblk1 V c 3 t) (scAt1 V c (t.val - 1) _) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c cfg1.N (Nat.le_refl _) (by rw [show cfg1.N = 16 from N_1]; decide), PhiA1_eq]
  iintro ⟨⟨HS, HR⟩, Hg⟩
  isplitl [HS HR]
  · isplitl [HS]
    · iexists _; iexact HS
    · iexact HR
  · iexact Hg

end Cert.Kernel.Hand

end
-- ==== Proof.K.Body2.lean ====
/-
  Region 2 (the source-target term): the kernel body at one grid point.

  At a grid point the body holds a 512-row tile of the left operand `x1`, the whole right operand `x2`, the tile's
  squared row norms `x3` (a column) and all squared row norms of the right operand `x4` (a row). A counted loop
  walks the right operand in sixteen chunks of 512 rows; each trip adds to a carried (1,1) value the sum over the
  512 x 512 pairs (row of the tile, row of the chunk) of exp((|x|² + |y|² - 2 x·y) · (-1/2)). The (1,1) scratch
  accumulates the tiles' values across grid points: it is reset to zero at the first point, and at every point it
  ends at "what it held, plus this tile's value"; the (1,1) output block is a copy of it.
  Here: the tile's value and the new scratch contents as named functions of the body's loads, the first-point
  condition in closed form, and the body's triple in each of the two cases.
-/
import proofs.«129238_j8907762171929_1_alg».proof.Proof.Gen.Kernel.Loops
import proofs.«129238_j8907762171929_1_alg».proof.Proof.Gen.Kernel.Launch
import proofs.«129238_j8907762171929_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first-point condition -/

/-- The body's one conditional: the grid coordinate is zero. -/
abbrev first2 (i : grid2.Coords) : Prop :=
  (Scalar.cmpi .ne (Scalar.extui (Scalar.cmpi .eq (BitVec.ofNat 32 (i 0).val) 0#32)) 0#32) = 1#1

/-- It holds at point 0 and nowhere else: decided over the sixteen points. -/
theorem first2_iff : ∀ t : Fin cfg2.N, first2 (grid2.coords t) ↔ t.val = 0 :=
  (by decide +kernel : ∀ t : Fin grid2.N, first2 (grid2.coords t) ↔ t.val = 0)

/-! ## What the body computes -/

/-- The offsets of a whole-buffer rectangle of rank two are all zero. -/
theorem zero2_2 : (![0, 0] : Fin 2 → ℕ) = fun _ => 0 := by
  funext a; fin_cases a <;> rfl

/-- The tile's value: the carried (1,1) value after the sixteen trips, started at zero, over the tile `x1`, its
    norms `x3`, the whole right operand `x2` and its norms `x4`. -/
def tile2 (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .bf16) (x2 : Vec F S8192x512 .bf16) (x3 : Vec F S512x1 .f32) (x4 : Vec F S1x8192 .f32) : FVec F S1x1 .f32 :=
  st_k2_t1 (F := F) Variants.none c none i arg1 harg1 arg2 harg2 arg3 harg3 arg4 harg4 arg5 harg5 arg6 harg6 x1 x3 (harg2.unread x2) (harg4.unread x4)
    (k2_pay2 (F := F)) (Scf.trips k2_t1_loop.lb k2_t1_loop.ub k2_t1_loop.st)

/-- The scratch after the point: what it held (`xs`) plus the tile's value. -/
def acc2 (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .bf16) (x2 : Vec F S8192x512 .bf16) (x3 : Vec F S512x1 .f32) (x4 : Vec F S1x8192 .f32) (xs : Vec F S1x1 .f32) : Vec F S1x1 .f32 :=
  k2_pay4 (tile2 c i arg1 harg1 arg2 harg2 arg3 harg3 arg4 harg4 arg5 harg5 arg6 harg6 x1 x2 x3 x4) xs

/-- A single whole-buffer store covers the (1,1) buffer. -/
theorem cover11_2 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

/-! ## The body's triple -/

set_option maxHeartbeats 4000000 in
/-- NOT the first point: the scratch is found at `xs`; the body leaves the inputs as they were and both the scratch and
    the output block at `acc2 … xs`. -/
theorem sound_kernel2_next (c : Dev nD) (E : Set ℕ) (i : grid2.Coords) (hc : ¬ first2 i) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .bf16) (x2 : Vec F S8192x512 .bf16) (x3 : Vec F S512x1 .f32) (x4 : Vec F S1x8192 .f32) (xs : Vec F S1x1 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc2 c i arg1 harg1 arg2 harg2 arg3 harg3 arg4 harg4 arg5 harg5 arg6 harg6 x1 x2 x3 x4 xs)
            ∗ owns (c : Thread nD τ) arg6 fullShare (acc2 c i arg1 harg1 arg2 harg2 arg3 harg3 arg4 harg4 arg5 harg5 arg6 harg6 x1 x2 x3 x4 xs)) -∗ K ⟨⟩))
      ⊢ wp frame (wpE (defs₀ (F := F)) Variants.none c none) E (cc2__mmd_sum_kernel i arg1 harg1 arg2 harg2 arg3 harg3 arg4 harg4 arg5 harg5 arg6 harg6) K := by
  simp only [cc2__mmd_sum_kernel_eq_skeleton]; unfold cc2__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_2 _), View.canon_unit_zero zero2_2, View.readCov_unit_zero _ zero2_2]
    simp only [View.readAt_eq_ld, harg1.read_unread, harg3.read_unread, harg6.read_unread,
      View.ld_unit_zero (S := S512x512) zero2_2, View.ld_unit_zero (S := S512x1) zero2_2, View.ld_unit_zero (S := S1x1) zero2_2]
    rfl
  · iexists _; isplitr
    swap; · iexact H6
    ipureintro
    rw [View.read_writes_eq_canon _ _ _ (cover11_2 _), View.canon_unit_zero zero2_2]
    simp only [View.readAt_eq_ld, harg1.read_unread, harg3.read_unread, harg6.read_unread,
      View.ld_unit_zero (S := S512x512) zero2_2, View.ld_unit_zero (S := S512x1) zero2_2, View.ld_unit_zero (S := S1x1) zero2_2]
    rfl

set_option maxHeartbeats 4000000 in
/-- THE FIRST POINT: the scratch is found at anything, is reset to zero (`k2_pay1`), and the body leaves the inputs as
    they were and both the scratch and the output block at `acc2 … k2_pay1`. -/
theorem sound_kernel2_first (c : Dev nD) (E : Set ℕ) (i : grid2.Coords) (hc : first2 i) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .bf16) (x2 : Vec F S8192x512 .bf16) (x3 : Vec F S512x1 .f32) (x4 : Vec F S1x8192 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc2 c i arg1 harg1 arg2 harg2 arg3 harg3 arg4 harg4 arg5 harg5 arg6 harg6 x1 x2 x3 x4 (k2_pay1 (F := F)))
            ∗ owns (c : Thread nD τ) arg6 fullShare (acc2 c i arg1 harg1 arg2 harg2 arg3 harg3 arg4 harg4 arg5 harg5 arg6 harg6 x1 x2 x3 x4 (k2_pay1 (F := F)))) -∗ K ⟨⟩))
      ⊢ wp frame (wpE (defs₀ (F := F)) Variants.none c none) E (cc2__mmd_sum_kernel i arg1 harg1 arg2 harg2 arg3 harg3 arg4 harg4 arg5 harg5 arg6 harg6) K := by
  simp only [cc2__mmd_sum_kernel_eq_skeleton]; unfold cc2__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, Hk⟩
  obtain rfl := harg1.eq_unread hf1; obtain rfl := harg2.eq_unread hf2; obtain rfl := harg3.eq_unread hf3
  obtain rfl := harg4.eq_unread hf4
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_2 _), View.canon_unit_zero zero2_2, View.readCov_cons_toLoadRect]
    simp only [View.readCov_cons_toLoadRect, View.readAt_eq_ld, harg1.read_unread, harg3.read_unread,
      View.ld_unit_zero (S := S512x512) zero2_2, View.ld_unit_zero (S := S512x1) zero2_2, View.ld_unit_zero (S := S1x1) zero2_2]
    rfl
  · iexists _; isplitr
    swap; · iexact H6
    ipureintro
    rw [View.read_writes_eq_canon _ _ _ (fun y => ⟨_, List.Mem.head _, View.mem_set_unit_zero zero2_2 inb_S1x1_S1x1_0_0 y⟩),
      View.canon_cons_unit_zero zero2_2]
    simp only [View.readCov_cons_toLoadRect, View.readAt_eq_ld, harg1.read_unread, harg3.read_unread,
      View.ld_unit_zero (S := S512x512) zero2_2, View.ld_unit_zero (S := S512x1) zero2_2, View.ld_unit_zero (S := S1x1) zero2_2]
    rfl

end Cert.Kernel.Hand

end
-- ==== Proof.K.Region2.lean ====
/-
  Region 2 (the source-target term): the pipeline's proof data.

  Windows 0 and 2 bring a fresh 512-row tile of the left operand and of its squared norms at every grid point; windows 1
  and 3 bring the whole right operand and its norms once, at the first point, and keep them; window 4 is the (1,1)
  result, written back after the last point only. The kernel's (1,1) scratch is carried from point to point inside the
  region invariant: after point n it holds the sum of the tiles' values at points 0..n (`scAt2`), and the result's staging
  buffer holds the same. Stated at a parameter `V`, the buffer contents when the region is entered.
-/
import proofs.«129238_j8907762171929_1_alg».proof.Proof.K.Body2
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each window's current staging memref at point `t`, spelt as the pipeline passes it to the body, and its wholeness. -/
abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x8192 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The kernel's scratch: a whole scoped buffer of its own, passed beside the windows. -/
abbrev scM2 : Memref sig .tc .vmem S1x1 .f32 := Memref.whole cc2_scratch0

/-! ## The scratch point by point -/

/-- What the scratch (and the result's staging buffer) holds after the body at position `n`: at the first point the
    tile's value over the reset scratch, afterwards the tile's value over what the point before left. -/
def scAt2 (c : Dev nD) : (n : ℕ) → n < cfg2.N → Vec F S1x1 .f32
  | 0, hn => acc2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _)
      (iblk2 V c 0 ⟨0, hn⟩) (iblk2 V c 1 ⟨0, hn⟩) (iblk2 V c 2 ⟨0, hn⟩) (iblk2 V c 3 ⟨0, hn⟩) (k2_pay1 (F := F))
  | n + 1, hn => acc2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _)
      (iblk2 V c 0 ⟨n + 1, hn⟩) (iblk2 V c 1 ⟨n + 1, hn⟩) (iblk2 V c 2 ⟨n + 1, hn⟩) (iblk2 V c 3 ⟨n + 1, hn⟩) (scAt2 c n (Nat.lt_of_succ_lt hn))

/-- At the first point. -/
theorem scAt2_first (c : Dev nD) (t : Fin cfg2.N) (h0 : t.val = 0) :
    scAt2 V c t.val t.isLt = acc2 c (grid2.coords t) (ms2_0 t) (hs2_0 t) (ms2_1 t) (hs2_1 t) (ms2_2 t) (hs2_2 t) (ms2_3 t) (hs2_3 t) (ms2_4 t) (hs2_4 t) scM2 (Memref.isWhole_whole _)
      (iblk2 V c 0 t) (iblk2 V c 1 t) (iblk2 V c 2 t) (iblk2 V c 3 t) (k2_pay1 (F := F)) := by
  obtain ⟨n, hn⟩ := t
  cases n with
  | zero => rfl
  | succ n => exact absurd h0 (Nat.succ_ne_zero n)

/-- At a later point: over what the point before left. -/
theorem scAt2_next (c : Dev nD) (t : Fin cfg2.N) (h0 : t.val ≠ 0) :
    scAt2 V c t.val t.isLt = acc2 c (grid2.coords t) (ms2_0 t) (hs2_0 t) (ms2_1 t) (hs2_1 t) (ms2_2 t) (hs2_2 t) (ms2_3 t) (hs2_3 t) (ms2_4 t) (hs2_4 t) scM2 (Memref.isWhole_whole _)
      (iblk2 V c 0 t) (iblk2 V c 1 t) (iblk2 V c 2 t) (iblk2 V c 3 t) (scAt2 V c (t.val - 1) (Nat.lt_of_le_of_lt (Nat.sub_le _ _) t.isLt)) := by
  obtain ⟨n, hn⟩ := t
  cases n with
  | zero => exact absurd rfl h0
  | succ n => rfl

/-! ## The region invariant -/

/-- The core's scoped buffers that are neither a staging buffer of this region nor its scratch, each whole at some
    contents: they ride through the region untouched. -/
def rest2 (c : Dev nD) : sProp 𝕄 :=
  bigSep (((Finset.univ.filter fun b : Ref sig .tc => b.isScoped) \ Finset.univ.image (Pipeline.stageRef spec2)) \ {cc2_scratch0})
    fun b => iprop(∃ f : Buf (Elt F) ((c.tc : Thread nD τ).loc b), ((c.tc : Thread nD τ).loc b) ↦{fullShare} f)

/-- The class invariant with the scratch split off as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  -- the scratch is a scoped buffer and no staging buffer of this region: it is one factor of the product
  have hsub : ({cc2_scratch0} : Finset (Ref sig .tc))
      ⊆ (Finset.univ.filter fun b : Ref sig .tc => b.isScoped) \ Finset.univ.image (Pipeline.stageRef spec2) := by decide
  unfold Pipeline.ΦA Pipeline.scopedRest rest2
  rw [bigSep_sdiff_split hsub, bigSep_singleton]
  -- a whole buffer owned as a memref is its points-to
  simp only [scM2, owns_whole]
  rfl

/-- The invariant before position `n`: before the first point the class's (the scratch at anything); afterwards the
    scratch at what the point before left in it, the other scoped buffers at anything, the generator register at some
    state. -/
def PhiS2 (c : Dev nD) : (n : ℕ) → n ≤ cfg2.N → sProp 𝕄
  | 0, _ => Pipeline.ΦA spec2 c
  | n + 1, hn => iprop(iprop(owns (c : Thread nD τ) scM2 fullShare (scAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (scAt2 V c n hn) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare (scAt2 V c (n - 1) (by omega)) ∗ rest2 (F := F) c) ∗ (∃ r, prngReg c r)) := by
  cases n with
  | zero => exact absurd rfl hz
  | succ n => rfl

/-! ## The proof data -/

/-- The proof data of pipeline 2 on core `c`: the arrays as the region finds them (`V`); after the body at point `t`
    each input's buffer at its block and the result's at the scratch's contents; the invariant `PhiS2`; nothing owed.
    The windows read five distinct arrays, each held at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => scAt2 V c t.val t.isLt
  Φ t := PhiS2 V c t.val (Nat.le_of_lt_succ t.isLt)
  q w := match w with
    | ⟨0, _⟩ => fullShare
    | ⟨1, _⟩ => fullShare
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = scAt2 V c t.val t.isLt := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, PhiS2_castSucc V c t]
  by_cases h0 : t.val = 0
  · -- the first point: the scratch is found at anything and reset by the body
    rw [PhiS2_zero V c _ _ h0, PhiA2_eq, scAt2_first V c t h0]
    iintro ⟨⟨⟨⟨%ds, HS⟩, HR⟩, Hg⟩, Ho, ⟨%d0, H0⟩, ⟨%d1, H1⟩, ⟨%d2, H2⟩, ⟨%d3, H3⟩, ⟨%d4, H4⟩⟩
    iapply (sound_kernel2_first c Set.univ (grid2.coords t) ((first2_iff t).mpr h0) _ _ _ _ _ _ _ _ _ _ _ _
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4
  · -- a later point: the scratch is found at what the point before left
    rw [PhiS2_pos V c _ _ h0, scAt2_next V c t h0]
    iintro ⟨⟨⟨HS, HR⟩, Hg⟩, Ho, ⟨%d0, H0⟩, ⟨%d1, H1⟩, ⟨%d2, H2⟩, ⟨%d3, H3⟩, ⟨%d4, H4⟩⟩
    iapply (sound_kernel2_next c Set.univ (grid2.coords t) (fun h => h0 ((first2_iff t).mp h)) _ _ _ _ _ _ _ _ _ _ _ _
      (iblk2 V c 0 t) (iblk2 V c 1 t) (iblk2 V c 2 t) (iblk2 V c 3 t) (scAt2 V c (t.val - 1) _) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c cfg2.N (Nat.le_refl _) (by rw [show cfg2.N = 16 from N_2]; decide), PhiA2_eq]
  iintro ⟨⟨HS, HR⟩, Hg⟩
  isplitl [HS HR]
  · isplitl [HS]
    · iexists _; iexact HS
    · iexact HR
  · iexact Hg

end Cert.Kernel.Hand

end
-- ==== Proof.K.Data.lean ====
/-
  The run's data: what core c's unscoped buffers hold at each boundary of @main, and every pipeline's proof data.

  @main is: host operations (the squared norms, their transposes, the bf16 copies), region 0, a reshape, region 1, a reshape,
  region 2, a reshape and the closing arithmetic. A region changes one buffer only, its (1,1) result, which ends at
  what the region's write-back leaves (`Dat.arrAt 4 N`: the scratch after the last point). So the contents are defined
  bottom-up from the launch memory: each host stretch applied to what the item before left, each region's result put in
  place. The generated conditional frame is stated over its own valuations at unknown results `outs`; the last section
  identifies them with these.
-/
import proofs.«129238_j8907762171929_1_alg».proof.Proof.K.Region0
import proofs.«129238_j8907762171929_1_alg».proof.Proof.K.Region1
import proofs.«129238_j8907762171929_1_alg».proof.Proof.K.Region2
import proofs.«129238_j8907762171929_1_alg».proof.Proof.Gen.Kernel.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents at each boundary -/

/-- After the first host stretch (region 0's entry). -/
abbrev W1 (c : Dev nD) : Valuation τ sig (Elt F) := Gen.V1 m c
/-- The same read at the TensorCore's references (what region 0's proof data take). -/
abbrev U1 (c : Dev nD) (b : Ref sig .tc) : Buf (Elt F) ((c : Thread nD τ).loc b) := W1 m c b
/-- What region 0 leaves in its result buffer. -/
def o2 (c : Dev nD) : Buf (Elt F) ((c : Thread nD τ).loc main_v10) := (dat0 (U1 m) c).arrAt 4 cfg0.N
/-- After region 0. -/
def W2 (c : Dev nD) : Valuation τ sig (Elt F) := Function.update (W1 m c) main_v10 (o2 m c)
/-- After the reshape of region 0's result (region 1's entry). -/
abbrev W3 (c : Dev nD) : Valuation τ sig (Elt F) := StableHlo.after hostOps1 (W2 m c)
abbrev U3 (c : Dev nD) (b : Ref sig .tc) : Buf (Elt F) ((c : Thread nD τ).loc b) := W3 m c b
/-- What region 1 leaves in its result buffer. -/
def o4 (c : Dev nD) : Buf (Elt F) ((c : Thread nD τ).loc main_v12) := (dat1 (U3 m) c).arrAt 4 cfg1.N
/-- After region 1. -/
def W4 (c : Dev nD) : Valuation τ sig (Elt F) := Function.update (W3 m c) main_v12 (o4 m c)
/-- After the reshape of region 1's result (region 2's entry). -/
abbrev W5 (c : Dev nD) : Valuation τ sig (Elt F) := StableHlo.after hostOps2 (W4 m c)
abbrev U5 (c : Dev nD) (b : Ref sig .tc) : Buf (Elt F) ((c : Thread nD τ).loc b) := W5 m c b
/-- What region 2 leaves in its result buffer. -/
def o6 (c : Dev nD) : Buf (Elt F) ((c : Thread nD τ).loc main_v14) := (dat2 (U5 m) c).arrAt 4 cfg2.N
/-- After region 2. -/
def W6 (c : Dev nD) : Valuation τ sig (Elt F) := Function.update (W5 m c) main_v14 (o6 m c)
/-- After the closing arithmetic: the run's last contents. -/
abbrev W7 (c : Dev nD) : Valuation τ sig (Elt F) := StableHlo.after hostOps3 (W6 m c)

/-! ## Every pipeline's proof data, each at its region's entry contents -/

/-- A literal match on the pipeline. -/
def pdats : (p : Fin 3) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c

/-! ## The generated conditional frame's valuations are these -/

/-- What the regions leave, in the form the generated conditional frame reads: after item J-1 the buffer `r` holds what
    this module's contents say (read only at (2, main_v10), (4, main_v12), (6, main_v14)). -/
def outs : Gen.Outs (F := F) := fun J r c =>
  match J with
  | 2 => W2 m c r
  | 4 => W4 m c r
  | 6 => W6 m c r
  | _ => W1 m c r

/-- Region 0's result put in place over the entry contents: the update reads back what it wrote. -/
theorem V2_eq (c : Dev nD) : Gen.V2 m (outs m) c = W2 m c := by
  show Function.update (Gen.V1 m c) main_v10 (W2 m c main_v10) = W2 m c
  unfold W2
  rw [Function.update_self]
/-- The same host stretch applied to equal contents. -/
theorem V3_eq (c : Dev nD) : Gen.V3 m (outs m) c = W3 m c := by
  show StableHlo.after hostOps1 (Gen.V2 m (outs m) c) = StableHlo.after hostOps1 (W2 m c)
  rw [V2_eq]
theorem V4_eq (c : Dev nD) : Gen.V4 m (outs m) c = W4 m c := by
  show Function.update (Gen.V3 m (outs m) c) main_v12 (W4 m c main_v12) = W4 m c
  rw [V3_eq]
  unfold W4
  rw [Function.update_self]
theorem V5_eq (c : Dev nD) : Gen.V5 m (outs m) c = W5 m c := by
  show StableHlo.after hostOps2 (Gen.V4 m (outs m) c) = StableHlo.after hostOps2 (W4 m c)
  rw [V4_eq]
theorem V6_eq (c : Dev nD) : Gen.V6 m (outs m) c = W6 m c := by
  show Function.update (Gen.V5 m (outs m) c) main_v14 (W6 m c main_v14) = W6 m c
  rw [V5_eq]
  unfold W6
  rw [Function.update_self]
theorem V7_eq (c : Dev nD) : Gen.V7 m (outs m) c = W7 m c := by
  show StableHlo.after hostOps3 (Gen.V6 m (outs m) c) = StableHlo.after hostOps3 (W6 m c)
  rw [V6_eq]

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev Rr (c : Dev nD) : sProp 𝕄 := iprop((∃ r, prngReg c r) ∗ ∃ W, owes (c : Thread nD τ) (0 : CellTallies nD τ sig Unit) W)

end Cert.Kernel.Hand

end
-- ==== Proof.K.Seg0.lean ====
/-
  Region 0 as a segment of @main.

  Entered with every unscoped buffer at the boundary's contents, the generator register at some state and nothing owed; left
  the same way with the region's (1,1) result in place. At entry the windows' arrays are taken out of the unscoped buffers:
  the left and the right operand are ONE buffer, whose full share is dealt in two halves, one to each of the two windows
  that read it; at exit the halves are joined again (both windows end holding the same, unchanged, contents), and the
  result's buffer comes back at what the write-back left.
-/
import proofs.«129238_j8907762171929_1_alg».proof.Proof.K.Data
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffers behind region 0's arrays -/

/-- Which buffer each window's array is: windows 0 and 1 read the same one. -/
theorem arrRef0_0 : Pipeline.arrRef spec0 0 = main_arg0 := rfl
theorem arrRef0_1 : Pipeline.arrRef spec0 1 = main_arg0 := rfl
theorem arrRef0_2 : Pipeline.arrRef spec0 2 = main_v2 := rfl
theorem arrRef0_3 : Pipeline.arrRef spec0 3 = main_v6 := rfl
theorem arrRef0_4 : Pipeline.arrRef spec0 4 = main_v10 := rfl

/-- The distinct buffers behind the five arrays are four. -/
theorem arrImage0 : (Finset.univ.image (Pipeline.arrRef spec0) : Finset (Ref sig .tc)) = {main_arg0, main_v2, main_v6, main_v10} := by
  decide

/-- The buffers behind the arrays, one factor each. -/
theorem arrBufs0_eq (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v2) ↦{fullShare} V main_v2)
          ∗ (((c : Thread nD τ).loc main_v6) ↦{fullShare} V main_v6) ∗ (((c : Thread nD τ).loc main_v10) ↦{fullShare} V main_v10)) := by
  unfold Pipeline.arrBufs
  rw [arrImage0, bigSep_insert (by decide), bigSep_insert (by decide), bigSep_insert (by decide), bigSep_singleton]
  rfl

/-- A core's unscoped buffers are those four and the rest. -/
theorem unscopedBufs0_split (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs 0 winFacts₀0.arr_unscoped c V

section Arrays

variable (V : (c : Dev nD) → (b : Ref sig .tc) → Buf (Elt F) ((c : Thread nD τ).loc b))

/-- The windows' arrays, one factor each, every array whole: the shared buffer's two halves, the others at the full share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v6) ↦{fullShare} G 3)
          ∗ (((c : Thread nD τ).loc main_v10) ↦{fullShare} G 4)) := by
  unfold Dat.arrays
  -- windows 0 and 1 have one array: the first rewrite turns both
  rw [bigSep_W0, (arr_whole0 0).set_eq_univ, (arr_whole0 2).set_eq_univ, (arr_whole0 3).set_eq_univ, (arr_whole0 4).set_eq_univ]
  rfl

/-- ENTRY: the shared buffer's full share is dealt in two halves to the two windows that read it. -/
theorem hsplit0 (c : Dev nD) : (Pipeline.arrBufs spec0 c (V c) : sProp 𝕄) ⊢ (dat0 V c).arrays ((dat0 V c).arrAt · 0) := by
  rw [arrBufs0_eq, arrays0_eq]
  iintro ⟨H0, H2, H3, H4⟩
  ihave H := (pointsTo_share (PosShare.mem_left_op_right fullShare)).1 $$ H0
  icases H with ⟨Ha, Hb⟩
  isplitl [Ha]; · iexact Ha
  isplitl [Hb]; · iexact Hb
  isplitl [H2]; · iexact H2
  isplitl [H3]; · iexact H3
  iexact H4

/-- EXIT: the two halves, both at the unchanged contents, are joined; the result's buffer is at what the write-back left. -/
theorem hjoin0 (c : Dev nD) (V' : (b : Ref sig .tc) → Buf (Elt F) ((c : Thread nD τ).loc b))
    (h0 : V' main_arg0 = V c main_arg0) (h2 : V' main_v2 = V c main_v2) (h3 : V' main_v6 = V c main_v6)
    (h4 : V' main_v10 = (dat0 V c).arrAt 4 cfg0.N) :
    ((dat0 V c).arrays ((dat0 V c).arrAt · cfg0.N) : sProp 𝕄) ⊢ Pipeline.arrBufs spec0 c V' := by
  rw [arrBufs0_eq, arrays0_eq, h0, h2, h3, h4, (dat0 V c).arrAt_in 0 rfl, (dat0 V c).arrAt_in 1 rfl, (dat0 V c).arrAt_in 2 rfl,
    (dat0 V c).arrAt_in 3 rfl]
  iintro ⟨Ha, Hb, H2, H3, H4⟩
  isplitl [Ha Hb]
  · iapply (pointsTo_share (PosShare.mem_left_op_right fullShare)).2
    isplitl [Ha]; · iexact Ha
    iexact Hb
  isplitl [H2]; · iexact H2
  isplitl [H3]; · iexact H3
  iexact H4

end Arrays

variable (m : (ℓ : Loc nD τ sig) → Buf (Elt F) ℓ)

/-! ## The contents the region leaves -/

/-- The region changes the result's buffer only, -/
theorem W2_of (c : Dev nD) (r : Ref sig .tc) (h : r ≠ main_v10) : W2 m c r = W1 m c r := by
  unfold W2; exact Function.update_of_ne (StableHlo.devRef_ne_of_ne h) _ _
/-- which ends at what the write-back left. -/
theorem W2_out (c : Dev nD) : W2 m c main_v10 = o2 m c := by
  unfold W2; exact Function.update_self _ _ _

/-- ENTRY over the held set. -/
theorem entry0 (c : Dev nD) :
    (StableHlo.held (c : Thread nD τ) (Pipeline.ucRefs τ sig) (W1 m c) : sProp 𝕄)
      ⊢ iprop((dat0 (U1 m) c).arrays ((dat0 (U1 m) c).arrAt · 0) ∗ Pipeline.unscopedRest spec0 c (U1 m c)) := by
  rw [← Pipeline.unscopedBufs_held, unscopedBufs0_split]
  exact sep_mono (hsplit0 (U1 m) c) .rfl

/-- EXIT over the held set. -/
theorem exit0 (c : Dev nD) :
    (iprop((dat0 (U1 m) c).arrays ((dat0 (U1 m) c).arrAt · cfg0.N) ∗ Pipeline.unscopedRest spec0 c (U1 m c)) : sProp 𝕄)
      ⊢ StableHlo.held (c : Thread nD τ) (Pipeline.ucRefs τ sig) (W2 m c) := by
  rw [← Pipeline.unscopedBufs_held, unscopedBufs0_split]
  refine BI.sep_mono (hjoin0 (U1 m) c _ (W2_of m c _ (by decide)) (W2_of m c _ (by decide)) (W2_of m c _ (by decide)) (W2_out m c)) ?_
  unfold Pipeline.unscopedRest
  refine Entails.of_eq (bigSep_congr fun b hb => ?_)
  -- a buffer that is no window's array is not the result's
  have h4 : main_v10 ∈ Finset.univ.image (Pipeline.arrRef spec0) := Finset.mem_image_of_mem (Pipeline.arrRef spec0) (Finset.mem_univ (4 : Fin 5))
  have hb' : b ≠ main_v10 := fun e => (Finset.mem_sdiff.mp hb).2 (e ▸ h4)
  exact congrArg (fun x => (((c : Thread nD τ).loc b) ↦{fullShare} x : sProp 𝕄)) (W2_of m c b hb').symm

set_option backward.isDefEq.respectTransparency.types false in
/-- REGION 0 over the thread state: entered from every unscoped buffer at `W1`, left at `W2`. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := entry0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m) c)
    unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin := exit0 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as a segment of @main.

  Entered with every unscoped buffer at the boundary's contents, the generator register at some state and nothing owed; left
  the same way with the region's (1,1) result in place. At entry the windows' arrays are taken out of the unscoped buffers:
  the left and the right operand are ONE buffer, whose full share is dealt in two halves, one to each of the two windows
  that read it; at exit the halves are joined again (both windows end holding the same, unchanged, contents), and the
  result's buffer comes back at what the write-back left.
-/
import proofs.«129238_j8907762171929_1_alg».proof.Proof.K.Data
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffers behind region 1's arrays -/

/-- Which buffer each window's array is: windows 0 and 1 read the same one. -/
theorem arrRef1_0 : Pipeline.arrRef spec1 0 = main_arg1 := rfl
theorem arrRef1_1 : Pipeline.arrRef spec1 1 = main_arg1 := rfl
theorem arrRef1_2 : Pipeline.arrRef spec1 2 = main_v5 := rfl
theorem arrRef1_3 : Pipeline.arrRef spec1 3 = main_v7 := rfl
theorem arrRef1_4 : Pipeline.arrRef spec1 4 = main_v12 := rfl

/-- The distinct buffers behind the five arrays are four. -/
theorem arrImage1 : (Finset.univ.image (Pipeline.arrRef spec1) : Finset (Ref sig .tc)) = {main_arg1, main_v5, main_v7, main_v12} := by
  decide

/-- The buffers behind the arrays, one factor each. -/
theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v5) ↦{fullShare} V main_v5)
          ∗ (((c : Thread nD τ).loc main_v7) ↦{fullShare} V main_v7) ∗ (((c : Thread nD τ).loc main_v12) ↦{fullShare} V main_v12)) := by
  unfold Pipeline.arrBufs
  rw [arrImage1, bigSep_insert (by decide), bigSep_insert (by decide), bigSep_insert (by decide), bigSep_singleton]
  rfl

/-- A core's unscoped buffers are those four and the rest. -/
theorem unscopedBufs1_split (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

section Arrays

variable (V : (c : Dev nD) → (b : Ref sig .tc) → Buf (Elt F) ((c : Thread nD τ).loc b))

/-- The windows' arrays, one factor each, every array whole: the shared buffer's two halves, the others at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare.left} G 0) ∗ (((c : Thread nD τ).loc main_arg1) ↦{fullShare.right} G 1)
          ∗ (((c : Thread nD τ).loc main_v5) ↦{fullShare} G 2) ∗ (((c : Thread nD τ).loc main_v7) ↦{fullShare} G 3)
          ∗ (((c : Thread nD τ).loc main_v12) ↦{fullShare} G 4)) := by
  unfold Dat.arrays
  -- windows 0 and 1 have one array: the first rewrite turns both
  rw [bigSep_W1, (arr_whole1 0).set_eq_univ, (arr_whole1 2).set_eq_univ, (arr_whole1 3).set_eq_univ, (arr_whole1 4).set_eq_univ]
  rfl

/-- ENTRY: the shared buffer's full share is dealt in two halves to the two windows that read it. -/
theorem hsplit1 (c : Dev nD) : (Pipeline.arrBufs spec1 c (V c) : sProp 𝕄) ⊢ (dat1 V c).arrays ((dat1 V c).arrAt · 0) := by
  rw [arrBufs1_eq, arrays1_eq]
  iintro ⟨H0, H2, H3, H4⟩
  ihave H := (pointsTo_share (PosShare.mem_left_op_right fullShare)).1 $$ H0
  icases H with ⟨Ha, Hb⟩
  isplitl [Ha]; · iexact Ha
  isplitl [Hb]; · iexact Hb
  isplitl [H2]; · iexact H2
  isplitl [H3]; · iexact H3
  iexact H4

/-- EXIT: the two halves, both at the unchanged contents, are joined; the result's buffer is at what the write-back left. -/
theorem hjoin1 (c : Dev nD) (V' : (b : Ref sig .tc) → Buf (Elt F) ((c : Thread nD τ).loc b))
    (h0 : V' main_arg1 = V c main_arg1) (h2 : V' main_v5 = V c main_v5) (h3 : V' main_v7 = V c main_v7)
    (h4 : V' main_v12 = (dat1 V c).arrAt 4 cfg1.N) :
    ((dat1 V c).arrays ((dat1 V c).arrAt · cfg1.N) : sProp 𝕄) ⊢ Pipeline.arrBufs spec1 c V' := by
  rw [arrBufs1_eq, arrays1_eq, h0, h2, h3, h4, (dat1 V c).arrAt_in 0 rfl, (dat1 V c).arrAt_in 1 rfl, (dat1 V c).arrAt_in 2 rfl,
    (dat1 V c).arrAt_in 3 rfl]
  iintro ⟨Ha, Hb, H2, H3, H4⟩
  isplitl [Ha Hb]
  · iapply (pointsTo_share (PosShare.mem_left_op_right fullShare)).2
    isplitl [Ha]; · iexact Ha
    iexact Hb
  isplitl [H2]; · iexact H2
  isplitl [H3]; · iexact H3
  iexact H4

end Arrays

variable (m : (ℓ : Loc nD τ sig) → Buf (Elt F) ℓ)

/-! ## The contents the region leaves -/

/-- The region changes the result's buffer only, -/
theorem W4_of (c : Dev nD) (r : Ref sig .tc) (h : r ≠ main_v12) : W4 m c r = W3 m c r := by
  unfold W4; exact Function.update_of_ne (StableHlo.devRef_ne_of_ne h) _ _
/-- which ends at what the write-back left. -/
theorem W4_out (c : Dev nD) : W4 m c main_v12 = o4 m c := by
  unfold W4; exact Function.update_self _ _ _

/-- ENTRY over the held set. -/
theorem entry1 (c : Dev nD) :
    (StableHlo.held (c : Thread nD τ) (Pipeline.ucRefs τ sig) (W3 m c) : sProp 𝕄)
      ⊢ iprop((dat1 (U3 m) c).arrays ((dat1 (U3 m) c).arrAt · 0) ∗ Pipeline.unscopedRest spec1 c (U3 m c)) := by
  rw [← Pipeline.unscopedBufs_held, unscopedBufs1_split]
  exact sep_mono (hsplit1 (U3 m) c) .rfl

/-- EXIT over the held set. -/
theorem exit1 (c : Dev nD) :
    (iprop((dat1 (U3 m) c).arrays ((dat1 (U3 m) c).arrAt · cfg1.N) ∗ Pipeline.unscopedRest spec1 c (U3 m c)) : sProp 𝕄)
      ⊢ StableHlo.held (c : Thread nD τ) (Pipeline.ucRefs τ sig) (W4 m c) := by
  rw [← Pipeline.unscopedBufs_held, unscopedBufs1_split]
  refine BI.sep_mono (hjoin1 (U3 m) c _ (W4_of m c _ (by decide)) (W4_of m c _ (by decide)) (W4_of m c _ (by decide)) (W4_out m c)) ?_
  unfold Pipeline.unscopedRest
  refine Entails.of_eq (bigSep_congr fun b hb => ?_)
  -- a buffer that is no window's array is not the result's
  have h4 : main_v12 ∈ Finset.univ.image (Pipeline.arrRef spec1) := Finset.mem_image_of_mem (Pipeline.arrRef spec1) (Finset.mem_univ (4 : Fin 5))
  have hb' : b ≠ main_v12 := fun e => (Finset.mem_sdiff.mp hb).2 (e ▸ h4)
  exact congrArg (fun x => (((c : Thread nD τ).loc b) ↦{fullShare} x : sProp 𝕄)) (W4_of m c b hb').symm

set_option backward.isDefEq.respectTransparency.types false in
/-- REGION 1 over the thread state: entered from every unscoped buffer at `W3`, left at `W4`. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U3 m) c)
    unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as a segment of @main.

  Entered with every unscoped buffer at the boundary's contents, the generator register at some state and nothing owed; left
  the same way with the region's (1,1) result in place. The five windows read five distinct buffers, each held whole at
  the full share: at entry they are taken out of the unscoped buffers, at exit put back — the four inputs unchanged, the
  result's buffer at what the write-back left.
-/
import proofs.«129238_j8907762171929_1_alg».proof.Proof.K.Data
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents the region leaves -/

/-- The region changes the result's buffer only, -/
theorem W6_of (c : Dev nD) (r : Ref sig .tc) (h : r ≠ main_v14) : W6 m c r = W5 m c r := by
  unfold W6; exact Function.update_of_ne (StableHlo.devRef_ne_of_ne h) _ _
/-- which ends at what the write-back left. -/
theorem W6_out (c : Dev nD) : W6 m c main_v14 = o6 m c := by
  unfold W6; exact Function.update_self _ _ _

/-- Every window's array is held at the full share. -/
theorem q2_full (V : (c : Dev nD) → (b : Ref sig .tc) → Buf (Elt F) ((c : Thread nD τ).loc b)) (c : Dev nD) :
    ∀ w : Fin cfg2.W, (dat2 V c).q w = fullShare
  | ⟨0, _⟩ => rfl
  | ⟨1, _⟩ => rfl
  | ⟨2, _⟩ => rfl
  | ⟨3, _⟩ => rfl
  | ⟨4, _⟩ => rfl
  | ⟨_ + 5, h⟩ => absurd h (Nat.not_lt.2 (Nat.le_add_left _ _))

/-- At the region's exit each of its arrays holds what the pipeline leaves: an input what it held at entry (it is never
    written), the result what the write-back left; -/
theorem hF2 (c : Dev nD) : ∀ w : Fin cfg2.W, (dat2 (U5 m) c).arrAt w cfg2.N = W6 m c (Pipeline.arrRef spec2 w)
  | ⟨0, _⟩ => ((dat2 (U5 m) c).arrAt_in 0 rfl _).trans (W6_of m c main_v8 (by decide)).symm
  | ⟨1, _⟩ => ((dat2 (U5 m) c).arrAt_in 1 rfl _).trans (W6_of m c main_v9 (by decide)).symm
  | ⟨2, _⟩ => ((dat2 (U5 m) c).arrAt_in 2 rfl _).trans (W6_of m c main_v2 (by decide)).symm
  | ⟨3, _⟩ => ((dat2 (U5 m) c).arrAt_in 3 rfl _).trans (W6_of m c main_v7 (by decide)).symm
  | ⟨4, _⟩ => (W6_out m c).symm
  | ⟨_ + 5, h⟩ => absurd h (Nat.not_lt.2 (Nat.le_add_left _ _))

/-- and every buffer that is no window's array what it held at entry. -/
theorem hrest2 (c : Dev nD) : ∀ b, b ∉ Finset.univ.image (Pipeline.arrRef spec2) → W6 m c b = W5 m c b := fun b hb => by
  have h4 : main_v14 ∈ Finset.univ.image (Pipeline.arrRef spec2) := Finset.mem_image_of_mem (Pipeline.arrRef spec2) (Finset.mem_univ (4 : Fin 5))
  exact W6_of m c b fun e => hb (e ▸ h4)

set_option backward.isDefEq.respectTransparency.types false in
/-- REGION 2 over the thread state: entered from every unscoped buffer at `W5`, left at `W6`. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) Gen.adm (pdats m) launch2.win launch2.arr_whole c
      ((pdats m 2 c).share_full (q2_full (U5 m) c)) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U5 m) c)
    unfold Pipeline.ΦA
    iintro ⟨Hp, -, Hr⟩
    isplitl [Hr]; · iexact Hr
    iexact Hp
  hout c := by
    rw [Pipeline.ownSems0_none]
    refine (hout2 (U5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full (q2_full (U5 m) c))
      (U5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/-
  The run of the idealized kernel's @main: it terminates, faults nowhere, and ends with every unscoped buffer at the last
  boundary's contents — in particular the arguments as launched (the frame) and the result at the closing arithmetic of
  the three regions' results (what the value claim reads).
-/
import proofs.«129238_j8907762171929_1_alg».proof.Proof.K.Seg0
import proofs.«129238_j8907762171929_1_alg».proof.Proof.K.Seg1
import proofs.«129238_j8907762171929_1_alg».proof.Proof.K.Seg2
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipelines' staging cells at their initial state, and nothing else. -/
abbrev u₀ : UR sig nD τ := initOf (Pipeline.cells cfgs cellOf_inj) (Pipeline.launchToks cfgs cellOf_inj)

/-- The launch element is the pipelines' own; no core gets a ghost resource. -/
theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  rw [BI.bigSep_emp_const]
  -- owning the launch element in the user algebra IS owning its embedding
  have h : (ownU u₀ : sProp 𝕄)
      ⊢ BI.own (emb₁ (initOf (Pipeline.cells cfgs cellOf_inj) (Pipeline.launchToks cfgs cellOf_inj))) := .rfl
  iintro Hu
  imodintro
  isplitl [Hu]
  · iapply h; iexact Hu
  · iempintro

/-- The rest state ends owing nothing. -/
theorem Rr_owes (c : Dev nD) :
    Rr (F := F) c ⊢ (iprop(∃ W, owes (c : Thread nD τ) (0 : CellTallies nD τ sig Unit) W) : sProp 𝕄) := by
  iintro ⟨-, HO⟩
  iexact HO

set_option backward.isDefEq.respectTransparency.types false in
/-- THE RUN, given the regions' records over any results `outs` and proof data: every weakly fair execution of @main
    terminates, and every final memory holds the result buffer at the last valuation and each argument as launched;
    stated at any consequence `Q` of those readings. -/
theorem run_cond (outs : Gen.Outs (F := F))
    (pdats : (p : Fin 3) → (c : Dev nD) → Dat τ (Elt F) Unit ℕ (UR sig nD τ) ℕ (cfgs p) c)
    (R0 : Pipeline.RegionSeg (pcfgs (F := F)) Gen.adm pdats () defs₀ 𝒱₀ L lv 0)
    (hpre0 : ∀ c : Dev nD, iprop(StableHlo.held (c : Thread nD τ) (Pipeline.ucRefs τ sig) (Gen.V1 m c) ∗ Rr c) ⊢ R0.pre c)
    (hpost0 : ∀ c : Dev nD, R0.post c ⊢ iprop(StableHlo.held (c : Thread nD τ) (Pipeline.ucRefs τ sig) (Gen.V2 m outs c) ∗ Rr c))
    (R1 : Pipeline.RegionSeg (pcfgs (F := F)) Gen.adm pdats () defs₀ 𝒱₀ L lv 1)
    (hpre1 : ∀ c : Dev nD, iprop(StableHlo.held (c : Thread nD τ) (Pipeline.ucRefs τ sig) (Gen.V3 m outs c) ∗ Rr c) ⊢ R1.pre c)
    (hpost1 : ∀ c : Dev nD, R1.post c ⊢ iprop(StableHlo.held (c : Thread nD τ) (Pipeline.ucRefs τ sig) (Gen.V4 m outs c) ∗ Rr c))
    (R2 : Pipeline.RegionSeg (pcfgs (F := F)) Gen.adm pdats () defs₀ 𝒱₀ L lv 2)
    (hpre2 : ∀ c : Dev nD, iprop(StableHlo.held (c : Thread nD τ) (Pipeline.ucRefs τ sig) (Gen.V5 m outs c) ∗ Rr c) ⊢ R2.pre c)
    (hpost2 : ∀ c : Dev nD, R2.post c ⊢ iprop(StableHlo.held (c : Thread nD τ) (Pipeline.ucRefs τ sig) (Gen.V6 m outs c) ∗ Rr c))
    {Q : PUnit × MemSt nD τ sig (Elt F) → Prop}
    (hQ : ∀ s : MemSt nD τ sig (Elt F), (∀ c : Dev nD,
        s.mem ((c.tc : Thread nD τ).loc main_v21) = Gen.V7 m outs c main_v21
        ∧ s.mem ((c.tc : Thread nD τ).loc main_arg0) = m ((c.tc : Thread nD τ).loc main_arg0)
        ∧ s.mem ((c.tc : Thread nD τ).loc main_arg1) = m ((c.tc : Thread nD τ).loc main_arg1)) → Q (⟨⟩, s)) :
    θ_run defs (onTc (τ := τ) (main (F := F))) ⟨m, fun _ => 0, ρ⟩ Q := by
  refine Pipeline.θ_run_regions_kit_dev (pcfgs (F := F)) Gen.adm pdats () cellOf_inj emb₁ defs₀ 𝒱₀ L lv m ρ main
    (Gen.segs m outs 𝒱₀ L lv (fun _ c => Rr c) () pdats R0 R1 R2)
    (fun c Q => by
      rewrite [main_chain c, Pipeline.Seg.run_eq_chain,
        show (Gen.segs m outs 𝒱₀ L lv (fun _ c => Rr c) () pdats R0 R1 R2 c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    0 (fun _ _ => rfl) (fun _ => (BI.emp : sProp 𝕄)) u₀ hu₀
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V7 m outs c))
    (hch := fun c => ⟨.rfl, hpre0 c, hpost0 c, hpre1 c, hpost1 c, hpre2 c, hpost2 c, sep_mono .rfl (Rr_owes c)⟩)
    (hinit := ?_)
    (QY := fun c s => s.mem ((c.tc : Thread nD τ).loc main_v21) = Gen.V7 m outs c main_v21
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := hQ)
  · -- the launch, core by core: the unscoped buffers are held at the launch contents, the generator register is at its
    -- launch state, nothing is owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]
    · iexact Hh
    isplitl [Hp]
    · iexists _; iexact Hp
    · iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (Gen.V7 m outs c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        (h (Proc.devRef .tc main_arg0) (Finset.mem_filter.mpr ⟨StableHlo.devRef_mem_tcRefs main_arg0, by decide⟩)).trans (Gen.V7_main_arg0 m outs c),
        (h (Proc.devRef .tc main_arg1) (Finset.mem_filter.mpr ⟨StableHlo.devRef_mem_tcRefs main_arg1, by decide⟩)).trans (Gen.V7_main_arg1 m outs c)⟩
    · iexact HSI

/-- THE FRAME: every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_cond m ρ (outs m) (pdats m)
    (reg0 m) (fun c => .rfl) (fun c => by rewrite [V2_eq]; exact .rfl)
    (reg1 m) (fun c => by rewrite [V3_eq]; exact .rfl) (fun c => by rewrite [V4_eq]; exact .rfl)
    (reg2 m) (fun c => by rewrite [V5_eq]; exact .rfl) (fun c => by rewrite [V6_eq]; exact .rfl)
    (hQ := fun s h c => (h c).2)

/-- THE RUN WITH ITS RESULT: the same, and the result buffer ends at the last boundary's contents. -/
theorem run_result : θ_run defs (onTc (τ := τ) (main (F := F))) ⟨m, fun _ => 0, ρ⟩ (fun r => ∀ c : Dev nD,
      r.2.mem ((c.tc : Thread nD τ).loc main_v21) = W7 m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m ρ (outs m) (pdats m)
    (reg0 m) (fun c => .rfl) (fun c => by rewrite [V2_eq]; exact .rfl)
    (reg1 m) (fun c => by rewrite [V3_eq]; exact .rfl) (fun c => by rewrite [V4_eq]; exact .rfl)
    (reg2 m) (fun c => by rewrite [V5_eq]; exact .rfl) (fun c => by rewrite [V6_eq]; exact .rfl)
    (hQ := fun s h c => ⟨(h c).1.trans (congrFun (V7_eq m c) _), (h c).2⟩)

end Cert.Kernel.Hand

end
-- ==== Proof.KI.Body0.lean ====
/-
  Region 0 (the source-source term): the kernel body at one grid point.

  At a grid point the body holds a 512-row tile of the left operand `x1`, the whole right operand `x2`, the tile's
  squared row norms `x3` (a column) and all squared row norms of the right operand `x4` (a row). A counted loop
  walks the right operand in sixteen chunks of 512 rows; each trip adds to a carried (1,1) value the sum over the
  512 x 512 pairs (row of the tile, row of the chunk) of exp((|x|² + |y|² - 2 x·y) · (-1/2)). The (1,1) scratch
  accumulates the tiles' values across grid points: it is reset to zero at the first point, and at every point it
  ends at "what it held, plus this tile's value"; the (1,1) output block is a copy of it.
  Here: the tile's value and the new scratch contents as named functions of the body's loads, the first-point
  condition in closed form, and the body's triple in each of the two cases.
-/
import proofs.«129238_j8907762171929_1_alg».proof.Proof.Gen.KernelIdeal.Loops
import proofs.«129238_j8907762171929_1_alg».proof.Proof.Gen.KernelIdeal.Launch
import proofs.«129238_j8907762171929_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first-point condition -/

/-- The body's one conditional: the grid coordinate is zero. -/
abbrev first0 (i : grid0.Coords) : Prop :=
  (Scalar.cmpi .ne (Scalar.extui (Scalar.cmpi .eq (BitVec.ofNat 32 (i 0).val) 0#32)) 0#32) = 1#1

/-- It holds at point 0 and nowhere else: decided over the sixteen points. -/
theorem first0_iff : ∀ t : Fin cfg0.N, first0 (grid0.coords t) ↔ t.val = 0 :=
  (by decide +kernel : ∀ t : Fin grid0.N, first0 (grid0.coords t) ↔ t.val = 0)

/-! ## What the body computes -/

/-- The offsets of a whole-buffer rectangle of rank two are all zero. -/
theorem zero2_0 : (![0, 0] : Fin 2 → ℕ) = fun _ => 0 := by
  funext a; fin_cases a <;> rfl

/-- The tile's value: the carried (1,1) value after the sixteen trips, started at zero, over the tile `x1`, its
    norms `x3`, the whole right operand `x2` and its norms `x4`. -/
def tile0 (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) : FVec F S1x1 .f32 :=
  st_k0_t1 (F := F) Variants.none c none i arg1 harg1 arg2 harg2 arg3 harg3 arg4 harg4 arg5 harg5 arg6 harg6 x1 x3 (harg2.unread x2) (harg4.unread x4)
    (k0_pay2 (F := F)) (Scf.trips k0_t1_loop.lb k0_t1_loop.ub k0_t1_loop.st)

/-- The scratch after the point: what it held (`xs`) plus the tile's value. -/
def acc0 (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) (xs : Vec F S1x1 .f32) : Vec F S1x1 .f32 :=
  k0_pay4 (tile0 c i arg1 harg1 arg2 harg2 arg3 harg3 arg4 harg4 arg5 harg5 arg6 harg6 x1 x2 x3 x4) xs

/-- A single whole-buffer store covers the (1,1) buffer. -/
theorem cover11_0 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

/-! ## The body's triple -/

set_option maxHeartbeats 4000000 in
/-- NOT the first point: the scratch is found at `xs`; the body leaves the inputs as they were and both the scratch and
    the output block at `acc0 … xs`. -/
theorem sound_kernel0_next (c : Dev nD) (E : Set ℕ) (i : grid0.Coords) (hc : ¬ first0 i) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) (xs : Vec F S1x1 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc0 c i arg1 harg1 arg2 harg2 arg3 harg3 arg4 harg4 arg5 harg5 arg6 harg6 x1 x2 x3 x4 xs)
            ∗ owns (c : Thread nD τ) arg6 fullShare (acc0 c i arg1 harg1 arg2 harg2 arg3 harg3 arg4 harg4 arg5 harg5 arg6 harg6 x1 x2 x3 x4 xs)) -∗ K ⟨⟩))
      ⊢ wp frame (wpE (defs₀ (F := F)) Variants.none c none) E (cc0__mmd_sum_kernel i arg1 harg1 arg2 harg2 arg3 harg3 arg4 harg4 arg5 harg5 arg6 harg6) K := by
  simp only [cc0__mmd_sum_kernel_eq_skeleton]; unfold cc0__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_0 _), View.canon_unit_zero zero2_0, View.readCov_unit_zero _ zero2_0]
    simp only [View.readAt_eq_ld, harg1.read_unread, harg3.read_unread, harg6.read_unread,
      View.ld_unit_zero (S := S512x512) zero2_0, View.ld_unit_zero (S := S512x1) zero2_0, View.ld_unit_zero (S := S1x1) zero2_0]
    rfl
  · iexists _; isplitr
    swap; · iexact H6
    ipureintro
    rw [View.read_writes_eq_canon _ _ _ (cover11_0 _), View.canon_unit_zero zero2_0]
    simp only [View.readAt_eq_ld, harg1.read_unread, harg3.read_unread, harg6.read_unread,
      View.ld_unit_zero (S := S512x512) zero2_0, View.ld_unit_zero (S := S512x1) zero2_0, View.ld_unit_zero (S := S1x1) zero2_0]
    rfl

set_option maxHeartbeats 4000000 in
/-- THE FIRST POINT: the scratch is found at anything, is reset to zero (`k0_pay1`), and the body leaves the inputs as
    they were and both the scratch and the output block at `acc0 … k0_pay1`. -/
theorem sound_kernel0_first (c : Dev nD) (E : Set ℕ) (i : grid0.Coords) (hc : first0 i) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc0 c i arg1 harg1 arg2 harg2 arg3 harg3 arg4 harg4 arg5 harg5 arg6 harg6 x1 x2 x3 x4 (k0_pay1 (F := F)))
            ∗ owns (c : Thread nD τ) arg6 fullShare (acc0 c i arg1 harg1 arg2 harg2 arg3 harg3 arg4 harg4 arg5 harg5 arg6 harg6 x1 x2 x3 x4 (k0_pay1 (F := F)))) -∗ K ⟨⟩))
      ⊢ wp frame (wpE (defs₀ (F := F)) Variants.none c none) E (cc0__mmd_sum_kernel i arg1 harg1 arg2 harg2 arg3 harg3 arg4 harg4 arg5 harg5 arg6 harg6) K := by
  simp only [cc0__mmd_sum_kernel_eq_skeleton]; unfold cc0__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, Hk⟩
  obtain rfl := harg1.eq_unread hf1; obtain rfl := harg2.eq_unread hf2; obtain rfl := harg3.eq_unread hf3
  obtain rfl := harg4.eq_unread hf4
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_0 _), View.canon_unit_zero zero2_0, View.readCov_cons_toLoadRect]
    simp only [View.readCov_cons_toLoadRect, View.readAt_eq_ld, harg1.read_unread, harg3.read_unread,
      View.ld_unit_zero (S := S512x512) zero2_0, View.ld_unit_zero (S := S512x1) zero2_0, View.ld_unit_zero (S := S1x1) zero2_0]
    rfl
  · iexists _; isplitr
    swap; · iexact H6
    ipureintro
    rw [View.read_writes_eq_canon _ _ _ (fun y => ⟨_, List.Mem.head _, View.mem_set_unit_zero zero2_0 inb_S1x1_S1x1_0_0 y⟩),
      View.canon_cons_unit_zero zero2_0]
    simp only [View.readCov_cons_toLoadRect, View.readAt_eq_ld, harg1.read_unread, harg3.read_unread,
      View.ld_unit_zero (S := S512x512) zero2_0, View.ld_unit_zero (S := S512x1) zero2_0, View.ld_unit_zero (S := S1x1) zero2_0]
    rfl

end Cert.KernelIdeal.Hand

end
-- ==== Proof.KI.Region0.lean ====
/-
  Region 0 (the source-source term): the pipeline's proof data.

  Windows 0 and 2 bring a fresh 512-row tile of the left operand and of its squared norms at every grid point; windows 1
  and 3 bring the whole right operand and its norms once, at the first point, and keep them; window 4 is the (1,1)
  result, written back after the last point only. The kernel's (1,1) scratch is carried from point to point inside the
  region invariant: after point n it holds the sum of the tiles' values at points 0..n (`scAt0`), and the result's staging
  buffer holds the same. Stated at a parameter `V`, the buffer contents when the region is entered.
-/
import proofs.«129238_j8907762171929_1_alg».proof.Proof.KI.Body0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging memref at point `t`, spelt as the pipeline passes it to the body, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The kernel's scratch: a whole scoped buffer of its own, passed beside the windows. -/
abbrev scM0 : Memref sig .tc .vmem S1x1 .f32 := Memref.whole cc0_scratch0

/-! ## The scratch point by point -/

/-- What the scratch (and the result's staging buffer) holds after the body at position `n`: at the first point the
    tile's value over the reset scratch, afterwards the tile's value over what the point before left. -/
def scAt0 (c : Dev nD) : (n : ℕ) → n < cfg0.N → Vec F S1x1 .f32
  | 0, hn => acc0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _)
      (iblk0 V c 0 ⟨0, hn⟩) (iblk0 V c 1 ⟨0, hn⟩) (iblk0 V c 2 ⟨0, hn⟩) (iblk0 V c 3 ⟨0, hn⟩) (k0_pay1 (F := F))
  | n + 1, hn => acc0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _)
      (iblk0 V c 0 ⟨n + 1, hn⟩) (iblk0 V c 1 ⟨n + 1, hn⟩) (iblk0 V c 2 ⟨n + 1, hn⟩) (iblk0 V c 3 ⟨n + 1, hn⟩) (scAt0 c n (Nat.lt_of_succ_lt hn))

/-- At the first point. -/
theorem scAt0_first (c : Dev nD) (t : Fin cfg0.N) (h0 : t.val = 0) :
    scAt0 V c t.val t.isLt = acc0 c (grid0.coords t) (ms0_0 t) (hs0_0 t) (ms0_1 t) (hs0_1 t) (ms0_2 t) (hs0_2 t) (ms0_3 t) (hs0_3 t) (ms0_4 t) (hs0_4 t) scM0 (Memref.isWhole_whole _)
      (iblk0 V c 0 t) (iblk0 V c 1 t) (iblk0 V c 2 t) (iblk0 V c 3 t) (k0_pay1 (F := F)) := by
  obtain ⟨n, hn⟩ := t
  cases n with
  | zero => rfl
  | succ n => exact absurd h0 (Nat.succ_ne_zero n)

/-- At a later point: over what the point before left. -/
theorem scAt0_next (c : Dev nD) (t : Fin cfg0.N) (h0 : t.val ≠ 0) :
    scAt0 V c t.val t.isLt = acc0 c (grid0.coords t) (ms0_0 t) (hs0_0 t) (ms0_1 t) (hs0_1 t) (ms0_2 t) (hs0_2 t) (ms0_3 t) (hs0_3 t) (ms0_4 t) (hs0_4 t) scM0 (Memref.isWhole_whole _)
      (iblk0 V c 0 t) (iblk0 V c 1 t) (iblk0 V c 2 t) (iblk0 V c 3 t) (scAt0 V c (t.val - 1) (Nat.lt_of_le_of_lt (Nat.sub_le _ _) t.isLt)) := by
  obtain ⟨n, hn⟩ := t
  cases n with
  | zero => exact absurd rfl h0
  | succ n => rfl

/-! ## The region invariant -/

/-- The core's scoped buffers that are neither a staging buffer of this region nor its scratch, each whole at some
    contents: they ride through the region untouched. -/
def rest0 (c : Dev nD) : sProp 𝕄 :=
  bigSep (((Finset.univ.filter fun b : Ref sig .tc => b.isScoped) \ Finset.univ.image (Pipeline.stageRef spec0)) \ {cc0_scratch0})
    fun b => iprop(∃ f : Buf (Elt F) ((c.tc : Thread nD τ).loc b), ((c.tc : Thread nD τ).loc b) ↦{fullShare} f)

/-- The class invariant with the scratch split off as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  -- the scratch is a scoped buffer and no staging buffer of this region: it is one factor of the product
  have hsub : ({cc0_scratch0} : Finset (Ref sig .tc))
      ⊆ (Finset.univ.filter fun b : Ref sig .tc => b.isScoped) \ Finset.univ.image (Pipeline.stageRef spec0) := by decide
  unfold Pipeline.ΦA Pipeline.scopedRest rest0
  rw [bigSep_sdiff_split hsub, bigSep_singleton]
  -- a whole buffer owned as a memref is its points-to
  simp only [scM0, owns_whole]
  rfl

/-- The invariant before position `n`: before the first point the class's (the scratch at anything); afterwards the
    scratch at what the point before left in it, the other scoped buffers at anything, the generator register at some
    state. -/
def PhiS0 (c : Dev nD) : (n : ℕ) → n ≤ cfg0.N → sProp 𝕄
  | 0, _ => Pipeline.ΦA spec0 c
  | n + 1, hn => iprop(iprop(owns (c : Thread nD τ) scM0 fullShare (scAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (scAt0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (scAt0 V c (n - 1) (by omega)) ∗ rest0 (F := F) c) ∗ (∃ r, prngReg c r)) := by
  cases n with
  | zero => exact absurd rfl hz
  | succ n => rfl

/-! ## The proof data -/

/-- The proof data of pipeline 0 on core `c`: the arrays as the region finds them (`V`); after the body at point `t`
    each input's buffer at its block and the result's at the scratch's contents; the invariant `PhiS0`; nothing owed.
    Windows 0 and 1 read ONE array (the same argument as left and as right operand): each holds half of its share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => scAt0 V c t.val t.isLt
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = scAt0 V c t.val t.isLt := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, PhiS0_castSucc V c t]
  by_cases h0 : t.val = 0
  · -- the first point: the scratch is found at anything and reset by the body
    rw [PhiS0_zero V c _ _ h0, PhiA0_eq, scAt0_first V c t h0]
    iintro ⟨⟨⟨⟨%ds, HS⟩, HR⟩, Hg⟩, Ho, ⟨%d0, H0⟩, ⟨%d1, H1⟩, ⟨%d2, H2⟩, ⟨%d3, H3⟩, ⟨%d4, H4⟩⟩
    iapply (sound_kernel0_first c Set.univ (grid0.coords t) ((first0_iff t).mpr h0) _ _ _ _ _ _ _ _ _ _ _ _
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4
  · -- a later point: the scratch is found at what the point before left
    rw [PhiS0_pos V c _ _ h0, scAt0_next V c t h0]
    iintro ⟨⟨⟨HS, HR⟩, Hg⟩, Ho, ⟨%d0, H0⟩, ⟨%d1, H1⟩, ⟨%d2, H2⟩, ⟨%d3, H3⟩, ⟨%d4, H4⟩⟩
    iapply (sound_kernel0_next c Set.univ (grid0.coords t) (fun h => h0 ((first0_iff t).mp h)) _ _ _ _ _ _ _ _ _ _ _ _
      (iblk0 V c 0 t) (iblk0 V c 1 t) (iblk0 V c 2 t) (iblk0 V c 3 t) (scAt0 V c (t.val - 1) _) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c cfg0.N (Nat.le_refl _) (by rw [show cfg0.N = 16 from N_0]; decide), PhiA0_eq]
  iintro ⟨⟨HS, HR⟩, Hg⟩
  isplitl [HS HR]
  · isplitl [HS]
    · iexists _; iexact HS
    · iexact HR
  · iexact Hg

end Cert.KernelIdeal.Hand

end
-- ==== Proof.KI.Body1.lean ====
/-
  Region 1 (the target-target term): the kernel body at one grid point.

  At a grid point the body holds a 512-row tile of the left operand `x1`, the whole right operand `x2`, the tile's
  squared row norms `x3` (a column) and all squared row norms of the right operand `x4` (a row). A counted loop
  walks the right operand in sixteen chunks of 512 rows; each trip adds to a carried (1,1) value the sum over the
  512 x 512 pairs (row of the tile, row of the chunk) of exp((|x|² + |y|² - 2 x·y) · (-1/2)). The (1,1) scratch
  accumulates the tiles' values across grid points: it is reset to zero at the first point, and at every point it
  ends at "what it held, plus this tile's value"; the (1,1) output block is a copy of it.
  Here: the tile's value and the new scratch contents as named functions of the body's loads, the first-point
  condition in closed form, and the body's triple in each of the two cases.
-/
import proofs.«129238_j8907762171929_1_alg».proof.Proof.Gen.KernelIdeal.Loops
import proofs.«129238_j8907762171929_1_alg».proof.Proof.Gen.KernelIdeal.Launch
import proofs.«129238_j8907762171929_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first-point condition -/

/-- The body's one conditional: the grid coordinate is zero. -/
abbrev first1 (i : grid1.Coords) : Prop :=
  (Scalar.cmpi .ne (Scalar.extui (Scalar.cmpi .eq (BitVec.ofNat 32 (i 0).val) 0#32)) 0#32) = 1#1

/-- It holds at point 0 and nowhere else: decided over the sixteen points. -/
theorem first1_iff : ∀ t : Fin cfg1.N, first1 (grid1.coords t) ↔ t.val = 0 :=
  (by decide +kernel : ∀ t : Fin grid1.N, first1 (grid1.coords t) ↔ t.val = 0)

/-! ## What the body computes -/

/-- The offsets of a whole-buffer rectangle of rank two are all zero. -/
theorem zero2_1 : (![0, 0] : Fin 2 → ℕ) = fun _ => 0 := by
  funext a; fin_cases a <;> rfl

/-- The tile's value: the carried (1,1) value after the sixteen trips, started at zero, over the tile `x1`, its
    norms `x3`, the whole right operand `x2` and its norms `x4`. -/
def tile1 (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) : FVec F S1x1 .f32 :=
  st_k1_t1 (F := F) Variants.none c none i arg1 harg1 arg2 harg2 arg3 harg3 arg4 harg4 arg5 harg5 arg6 harg6 x1 x3 (harg2.unread x2) (harg4.unread x4)
    (k1_pay2 (F := F)) (Scf.trips k1_t1_loop.lb k1_t1_loop.ub k1_t1_loop.st)

/-- The scratch after the point: what it held (`xs`) plus the tile's value. -/
def acc1 (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) (xs : Vec F S1x1 .f32) : Vec F S1x1 .f32 :=
  k1_pay4 (tile1 c i arg1 harg1 arg2 harg2 arg3 harg3 arg4 harg4 arg5 harg5 arg6 harg6 x1 x2 x3 x4) xs

/-- A single whole-buffer store covers the (1,1) buffer. -/
theorem cover11_1 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

/-! ## The body's triple -/

set_option maxHeartbeats 4000000 in
/-- NOT the first point: the scratch is found at `xs`; the body leaves the inputs as they were and both the scratch and
    the output block at `acc1 … xs`. -/
theorem sound_kernel1_next (c : Dev nD) (E : Set ℕ) (i : grid1.Coords) (hc : ¬ first1 i) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32) (xs : Vec F S1x1 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc1 c i arg1 harg1 arg2 harg2 arg3 harg3 arg4 harg4 arg5 harg5 arg6 harg6 x1 x2 x3 x4 xs)
            ∗ owns (c : Thread nD τ) arg6 fullShare (acc1 c i arg1 harg1 arg2 harg2 arg3 harg3 arg4 harg4 arg5 harg5 arg6 harg6 x1 x2 x3 x4 xs)) -∗ K ⟨⟩))
      ⊢ wp frame (wpE (defs₀ (F := F)) Variants.none c none) E (cc1__mmd_sum_kernel i arg1 harg1 arg2 harg2 arg3 harg3 arg4 harg4 arg5 harg5 arg6 harg6) K := by
  simp only [cc1__mmd_sum_kernel_eq_skeleton]; unfold cc1__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_1 _), View.canon_unit_zero zero2_1, View.readCov_unit_zero _ zero2_1]
    simp only [View.readAt_eq_ld, harg1.read_unread, harg3.read_unread, harg6.read_unread,
      View.ld_unit_zero (S := S512x512) zero2_1, View.ld_unit_zero (S := S512x1) zero2_1, View.ld_unit_zero (S := S1x1) zero2_1]
    rfl
  · iexists _; isplitr
    swap; · iexact H6
    ipureintro
    rw [View.read_writes_eq_canon _ _ _ (cover11_1 _), View.canon_unit_zero zero2_1]
    simp only [View.readAt_eq_ld, harg1.read_unread, harg3.read_unread, harg6.read_unread,
      View.ld_unit_zero (S := S512x512) zero2_1, View.ld_unit_zero (S := S512x1) zero2_1, View.ld_unit_zero (S := S1x1) zero2_1]
    rfl

set_option maxHeartbeats 4000000 in
/-- THE FIRST POINT: the scratch is found at anything, is reset to zero (`k1_pay1`), and the body leaves the inputs as
    they were and both the scratch and the output block at `acc1 … k1_pay1`. -/
theorem sound_kernel1_first (c : Dev nD) (E : Set ℕ) (i : grid1.Coords) (hc : first1 i) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .f32) (x2 : Vec F S8192x512 .f32) (x3 : Vec F S512x1 .f32) (x4 : Vec F S1x8192 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc1 c i arg1 harg1 arg2 harg2 arg3 harg3 arg4 harg4 arg5 harg5 arg6 harg6 x1 x2 x3 x4 (k1_pay1 (F := F)))
            ∗ owns (c : Thread nD τ) arg6 fullShare (acc1 c i arg1 harg1 arg2 harg2 arg3 harg3 arg4 harg4 arg5 harg5 arg6 harg6 x1 x2 x3 x4 (k1_pay1 (F := F)))) -∗ K ⟨⟩))
      ⊢ wp frame (wpE (defs₀ (F := F)) Variants.none c none) E (cc1__mmd_sum_kernel i arg1 harg1 arg2 harg2 arg3 harg3 arg4 harg4 arg5 harg5 arg6 harg6) K := by
  simp only [cc1__mmd_sum_kernel_eq_skeleton]; unfold cc1__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, Hk⟩
  obtain rfl := harg1.eq_unread hf1; obtain rfl := harg2.eq_unread hf2; obtain rfl := harg3.eq_unread hf3
  obtain rfl := harg4.eq_unread hf4
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_1 _), View.canon_unit_zero zero2_1, View.readCov_cons_toLoadRect]
    simp only [View.readCov_cons_toLoadRect, View.readAt_eq_ld, harg1.read_unread, harg3.read_unread,
      View.ld_unit_zero (S := S512x512) zero2_1, View.ld_unit_zero (S := S512x1) zero2_1, View.ld_unit_zero (S := S1x1) zero2_1]
    rfl
  · iexists _; isplitr
    swap; · iexact H6
    ipureintro
    rw [View.read_writes_eq_canon _ _ _ (fun y => ⟨_, List.Mem.head _, View.mem_set_unit_zero zero2_1 inb_S1x1_S1x1_0_0 y⟩),
      View.canon_cons_unit_zero zero2_1]
    simp only [View.readCov_cons_toLoadRect, View.readAt_eq_ld, harg1.read_unread, harg3.read_unread,
      View.ld_unit_zero (S := S512x512) zero2_1, View.ld_unit_zero (S := S512x1) zero2_1, View.ld_unit_zero (S := S1x1) zero2_1]
    rfl

end Cert.KernelIdeal.Hand

end
-- ==== Proof.KI.Region1.lean ====
/-
  Region 1 (the target-target term): the pipeline's proof data.

  Windows 0 and 2 bring a fresh 512-row tile of the left operand and of its squared norms at every grid point; windows 1
  and 3 bring the whole right operand and its norms once, at the first point, and keep them; window 4 is the (1,1)
  result, written back after the last point only. The kernel's (1,1) scratch is carried from point to point inside the
  region invariant: after point n it holds the sum of the tiles' values at points 0..n (`scAt1`), and the result's staging
  buffer holds the same. Stated at a parameter `V`, the buffer contents when the region is entered.
-/
import proofs.«129238_j8907762171929_1_alg».proof.Proof.KI.Body1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging memref at point `t`, spelt as the pipeline passes it to the body, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The kernel's scratch: a whole scoped buffer of its own, passed beside the windows. -/
abbrev scM1 : Memref sig .tc .vmem S1x1 .f32 := Memref.whole cc1_scratch0

/-! ## The scratch point by point -/

/-- What the scratch (and the result's staging buffer) holds after the body at position `n`: at the first point the
    tile's value over the reset scratch, afterwards the tile's value over what the point before left. -/
def scAt1 (c : Dev nD) : (n : ℕ) → n < cfg1.N → Vec F S1x1 .f32
  | 0, hn => acc1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _)
      (iblk1 V c 0 ⟨0, hn⟩) (iblk1 V c 1 ⟨0, hn⟩) (iblk1 V c 2 ⟨0, hn⟩) (iblk1 V c 3 ⟨0, hn⟩) (k1_pay1 (F := F))
  | n + 1, hn => acc1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _)
      (iblk1 V c 0 ⟨n + 1, hn⟩) (iblk1 V c 1 ⟨n + 1, hn⟩) (iblk1 V c 2 ⟨n + 1, hn⟩) (iblk1 V c 3 ⟨n + 1, hn⟩) (scAt1 c n (Nat.lt_of_succ_lt hn))

/-- At the first point. -/
theorem scAt1_first (c : Dev nD) (t : Fin cfg1.N) (h0 : t.val = 0) :
    scAt1 V c t.val t.isLt = acc1 c (grid1.coords t) (ms1_0 t) (hs1_0 t) (ms1_1 t) (hs1_1 t) (ms1_2 t) (hs1_2 t) (ms1_3 t) (hs1_3 t) (ms1_4 t) (hs1_4 t) scM1 (Memref.isWhole_whole _)
      (iblk1 V c 0 t) (iblk1 V c 1 t) (iblk1 V c 2 t) (iblk1 V c 3 t) (k1_pay1 (F := F)) := by
  obtain ⟨n, hn⟩ := t
  cases n with
  | zero => rfl
  | succ n => exact absurd h0 (Nat.succ_ne_zero n)

/-- At a later point: over what the point before left. -/
theorem scAt1_next (c : Dev nD) (t : Fin cfg1.N) (h0 : t.val ≠ 0) :
    scAt1 V c t.val t.isLt = acc1 c (grid1.coords t) (ms1_0 t) (hs1_0 t) (ms1_1 t) (hs1_1 t) (ms1_2 t) (hs1_2 t) (ms1_3 t) (hs1_3 t) (ms1_4 t) (hs1_4 t) scM1 (Memref.isWhole_whole _)
      (iblk1 V c 0 t) (iblk1 V c 1 t) (iblk1 V c 2 t) (iblk1 V c 3 t) (scAt1 V c (t.val - 1) (Nat.lt_of_le_of_lt (Nat.sub_le _ _) t.isLt)) := by
  obtain ⟨n, hn⟩ := t
  cases n with
  | zero => exact absurd rfl h0
  | succ n => rfl

/-! ## The region invariant -/

/-- The core's scoped buffers that are neither a staging buffer of this region nor its scratch, each whole at some
    contents: they ride through the region untouched. -/
def rest1 (c : Dev nD) : sProp 𝕄 :=
  bigSep (((Finset.univ.filter fun b : Ref sig .tc => b.isScoped) \ Finset.univ.image (Pipeline.stageRef spec1)) \ {cc1_scratch0})
    fun b => iprop(∃ f : Buf (Elt F) ((c.tc : Thread nD τ).loc b), ((c.tc : Thread nD τ).loc b) ↦{fullShare} f)

/-- The class invariant with the scratch split off as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  -- the scratch is a scoped buffer and no staging buffer of this region: it is one factor of the product
  have hsub : ({cc1_scratch0} : Finset (Ref sig .tc))
      ⊆ (Finset.univ.filter fun b : Ref sig .tc => b.isScoped) \ Finset.univ.image (Pipeline.stageRef spec1) := by decide
  unfold Pipeline.ΦA Pipeline.scopedRest rest1
  rw [bigSep_sdiff_split hsub, bigSep_singleton]
  -- a whole buffer owned as a memref is its points-to
  simp only [scM1, owns_whole]
  rfl

/-- The invariant before position `n`: before the first point the class's (the scratch at anything); afterwards the
    scratch at what the point before left in it, the other scoped buffers at anything, the generator register at some
    state. -/
def PhiS1 (c : Dev nD) : (n : ℕ) → n ≤ cfg1.N → sProp 𝕄
  | 0, _ => Pipeline.ΦA spec1 c
  | n + 1, hn => iprop(iprop(owns (c : Thread nD τ) scM1 fullShare (scAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (scAt1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (scAt1 V c (n - 1) (by omega)) ∗ rest1 (F := F) c) ∗ (∃ r, prngReg c r)) := by
  cases n with
  | zero => exact absurd rfl hz
  | succ n => rfl

/-! ## The proof data -/

/-- The proof data of pipeline 1 on core `c`: the arrays as the region finds them (`V`); after the body at point `t`
    each input's buffer at its block and the result's at the scratch's contents; the invariant `PhiS1`; nothing owed.
    Windows 0 and 1 read ONE array (the same argument as left and as right operand): each holds half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => scAt1 V c t.val t.isLt
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = scAt1 V c t.val t.isLt := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, PhiS1_castSucc V c t]
  by_cases h0 : t.val = 0
  · -- the first point: the scratch is found at anything and reset by the body
    rw [PhiS1_zero V c _ _ h0, PhiA1_eq, scAt1_first V c t h0]
    iintro ⟨⟨⟨⟨%ds, HS⟩, HR⟩, Hg⟩, Ho, ⟨%d0, H0⟩, ⟨%d1, H1⟩, ⟨%d2, H2⟩, ⟨%d3, H3⟩, ⟨%d4, H4⟩⟩
    iapply (sound_kernel1_first c Set.univ (grid1.coords t) ((first1_iff t).mpr h0) _ _ _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4
  · -- a later point: the scratch is found at what the point before left
    rw [PhiS1_pos V c _ _ h0, scAt1_next V c t h0]
    iintro ⟨⟨⟨HS, HR⟩, Hg⟩, Ho, ⟨%d0, H0⟩, ⟨%d1, H1⟩, ⟨%d2, H2⟩, ⟨%d3, H3⟩, ⟨%d4, H4⟩⟩
    iapply (sound_kernel1_next c Set.univ (grid1.coords t) (fun h => h0 ((first1_iff t).mp h)) _ _ _ _ _ _ _ _ _ _ _ _
      (iblk1 V c 0 t) (iblk1 V c 1 t) (iblk1 V c 2 t) (iblk1 V c 3 t) (scAt1 V c (t.val - 1) _) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c cfg1.N (Nat.le_refl _) (by rw [show cfg1.N = 16 from N_1]; decide), PhiA1_eq]
  iintro ⟨⟨HS, HR⟩, Hg⟩
  isplitl [HS HR]
  · isplitl [HS]
    · iexists _; iexact HS
    · iexact HR
  · iexact Hg

end Cert.KernelIdeal.Hand

end
-- ==== Proof.KI.Body2.lean ====
/-
  Region 2 (the source-target term): the kernel body at one grid point.

  At a grid point the body holds a 512-row tile of the left operand `x1`, the whole right operand `x2`, the tile's
  squared row norms `x3` (a column) and all squared row norms of the right operand `x4` (a row). A counted loop
  walks the right operand in sixteen chunks of 512 rows; each trip adds to a carried (1,1) value the sum over the
  512 x 512 pairs (row of the tile, row of the chunk) of exp((|x|² + |y|² - 2 x·y) · (-1/2)). The (1,1) scratch
  accumulates the tiles' values across grid points: it is reset to zero at the first point, and at every point it
  ends at "what it held, plus this tile's value"; the (1,1) output block is a copy of it.
  Here: the tile's value and the new scratch contents as named functions of the body's loads, the first-point
  condition in closed form, and the body's triple in each of the two cases.
-/
import proofs.«129238_j8907762171929_1_alg».proof.Proof.Gen.KernelIdeal.Loops
import proofs.«129238_j8907762171929_1_alg».proof.Proof.Gen.KernelIdeal.Launch
import proofs.«129238_j8907762171929_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first-point condition -/

/-- The body's one conditional: the grid coordinate is zero. -/
abbrev first2 (i : grid2.Coords) : Prop :=
  (Scalar.cmpi .ne (Scalar.extui (Scalar.cmpi .eq (BitVec.ofNat 32 (i 0).val) 0#32)) 0#32) = 1#1

/-- It holds at point 0 and nowhere else: decided over the sixteen points. -/
theorem first2_iff : ∀ t : Fin cfg2.N, first2 (grid2.coords t) ↔ t.val = 0 :=
  (by decide +kernel : ∀ t : Fin grid2.N, first2 (grid2.coords t) ↔ t.val = 0)

/-! ## What the body computes -/

/-- The offsets of a whole-buffer rectangle of rank two are all zero. -/
theorem zero2_2 : (![0, 0] : Fin 2 → ℕ) = fun _ => 0 := by
  funext a; fin_cases a <;> rfl

/-- The tile's value: the carried (1,1) value after the sixteen trips, started at zero, over the tile `x1`, its
    norms `x3`, the whole right operand `x2` and its norms `x4`. -/
def tile2 (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .bf16) (x2 : Vec F S8192x512 .bf16) (x3 : Vec F S512x1 .f32) (x4 : Vec F S1x8192 .f32) : FVec F S1x1 .f32 :=
  st_k2_t1 (F := F) Variants.none c none i arg1 harg1 arg2 harg2 arg3 harg3 arg4 harg4 arg5 harg5 arg6 harg6 x1 x3 (harg2.unread x2) (harg4.unread x4)
    (k2_pay2 (F := F)) (Scf.trips k2_t1_loop.lb k2_t1_loop.ub k2_t1_loop.st)

/-- The scratch after the point: what it held (`xs`) plus the tile's value. -/
def acc2 (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .bf16) (x2 : Vec F S8192x512 .bf16) (x3 : Vec F S512x1 .f32) (x4 : Vec F S1x8192 .f32) (xs : Vec F S1x1 .f32) : Vec F S1x1 .f32 :=
  k2_pay4 (tile2 c i arg1 harg1 arg2 harg2 arg3 harg3 arg4 harg4 arg5 harg5 arg6 harg6 x1 x2 x3 x4) xs

/-- A single whole-buffer store covers the (1,1) buffer. -/
theorem cover11_2 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

/-! ## The body's triple -/

set_option maxHeartbeats 4000000 in
/-- NOT the first point: the scratch is found at `xs`; the body leaves the inputs as they were and both the scratch and
    the output block at `acc2 … xs`. -/
theorem sound_kernel2_next (c : Dev nD) (E : Set ℕ) (i : grid2.Coords) (hc : ¬ first2 i) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .bf16) (x2 : Vec F S8192x512 .bf16) (x3 : Vec F S512x1 .f32) (x4 : Vec F S1x8192 .f32) (xs : Vec F S1x1 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc2 c i arg1 harg1 arg2 harg2 arg3 harg3 arg4 harg4 arg5 harg5 arg6 harg6 x1 x2 x3 x4 xs)
            ∗ owns (c : Thread nD τ) arg6 fullShare (acc2 c i arg1 harg1 arg2 harg2 arg3 harg3 arg4 harg4 arg5 harg5 arg6 harg6 x1 x2 x3 x4 xs)) -∗ K ⟨⟩))
      ⊢ wp frame (wpE (defs₀ (F := F)) Variants.none c none) E (cc2__mmd_sum_kernel i arg1 harg1 arg2 harg2 arg3 harg3 arg4 harg4 arg5 harg5 arg6 harg6) K := by
  simp only [cc2__mmd_sum_kernel_eq_skeleton]; unfold cc2__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_2 _), View.canon_unit_zero zero2_2, View.readCov_unit_zero _ zero2_2]
    simp only [View.readAt_eq_ld, harg1.read_unread, harg3.read_unread, harg6.read_unread,
      View.ld_unit_zero (S := S512x512) zero2_2, View.ld_unit_zero (S := S512x1) zero2_2, View.ld_unit_zero (S := S1x1) zero2_2]
    rfl
  · iexists _; isplitr
    swap; · iexact H6
    ipureintro
    rw [View.read_writes_eq_canon _ _ _ (cover11_2 _), View.canon_unit_zero zero2_2]
    simp only [View.readAt_eq_ld, harg1.read_unread, harg3.read_unread, harg6.read_unread,
      View.ld_unit_zero (S := S512x512) zero2_2, View.ld_unit_zero (S := S512x1) zero2_2, View.ld_unit_zero (S := S1x1) zero2_2]
    rfl

set_option maxHeartbeats 4000000 in
/-- THE FIRST POINT: the scratch is found at anything, is reset to zero (`k2_pay1`), and the body leaves the inputs as
    they were and both the scratch and the output block at `acc2 … k2_pay1`. -/
theorem sound_kernel2_first (c : Dev nD) (E : Set ℕ) (i : grid2.Coords) (hc : first2 i) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec F S512x512 .bf16) (x2 : Vec F S8192x512 .bf16) (x3 : Vec F S512x1 .f32) (x4 : Vec F S1x8192 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (acc2 c i arg1 harg1 arg2 harg2 arg3 harg3 arg4 harg4 arg5 harg5 arg6 harg6 x1 x2 x3 x4 (k2_pay1 (F := F)))
            ∗ owns (c : Thread nD τ) arg6 fullShare (acc2 c i arg1 harg1 arg2 harg2 arg3 harg3 arg4 harg4 arg5 harg5 arg6 harg6 x1 x2 x3 x4 (k2_pay1 (F := F)))) -∗ K ⟨⟩))
      ⊢ wp frame (wpE (defs₀ (F := F)) Variants.none c none) E (cc2__mmd_sum_kernel i arg1 harg1 arg2 harg2 arg3 harg3 arg4 harg4 arg5 harg5 arg6 harg6) K := by
  simp only [cc2__mmd_sum_kernel_eq_skeleton]; unfold cc2__mmd_sum_kernel_skel
  unfold owns
  iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, Hk⟩
  obtain rfl := harg1.eq_unread hf1; obtain rfl := harg2.eq_unread hf2; obtain rfl := harg3.eq_unread hf3
  obtain rfl := harg4.eq_unread hf4
  sl_exec (disch := first | exact hc)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover11_2 _), View.canon_unit_zero zero2_2, View.readCov_cons_toLoadRect]
    simp only [View.readCov_cons_toLoadRect, View.readAt_eq_ld, harg1.read_unread, harg3.read_unread,
      View.ld_unit_zero (S := S512x512) zero2_2, View.ld_unit_zero (S := S512x1) zero2_2, View.ld_unit_zero (S := S1x1) zero2_2]
    rfl
  · iexists _; isplitr
    swap; · iexact H6
    ipureintro
    rw [View.read_writes_eq_canon _ _ _ (fun y => ⟨_, List.Mem.head _, View.mem_set_unit_zero zero2_2 inb_S1x1_S1x1_0_0 y⟩),
      View.canon_cons_unit_zero zero2_2]
    simp only [View.readCov_cons_toLoadRect, View.readAt_eq_ld, harg1.read_unread, harg3.read_unread,
      View.ld_unit_zero (S := S512x512) zero2_2, View.ld_unit_zero (S := S512x1) zero2_2, View.ld_unit_zero (S := S1x1) zero2_2]
    rfl

end Cert.KernelIdeal.Hand

end
-- ==== Proof.KI.Region2.lean ====
/-
  Region 2 (the source-target term): the pipeline's proof data.

  Windows 0 and 2 bring a fresh 512-row tile of the left operand and of its squared norms at every grid point; windows 1
  and 3 bring the whole right operand and its norms once, at the first point, and keep them; window 4 is the (1,1)
  result, written back after the last point only. The kernel's (1,1) scratch is carried from point to point inside the
  region invariant: after point n it holds the sum of the tiles' values at points 0..n (`scAt2`), and the result's staging
  buffer holds the same. Stated at a parameter `V`, the buffer contents when the region is entered.
-/
import proofs.«129238_j8907762171929_1_alg».proof.Proof.KI.Body2
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each window's current staging memref at point `t`, spelt as the pipeline passes it to the body, and its wholeness. -/
abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x8192 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The kernel's scratch: a whole scoped buffer of its own, passed beside the windows. -/
abbrev scM2 : Memref sig .tc .vmem S1x1 .f32 := Memref.whole cc2_scratch0

/-! ## The scratch point by point -/

/-- What the scratch (and the result's staging buffer) holds after the body at position `n`: at the first point the
    tile's value over the reset scratch, afterwards the tile's value over what the point before left. -/
def scAt2 (c : Dev nD) : (n : ℕ) → n < cfg2.N → Vec F S1x1 .f32
  | 0, hn => acc2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _)
      (iblk2 V c 0 ⟨0, hn⟩) (iblk2 V c 1 ⟨0, hn⟩) (iblk2 V c 2 ⟨0, hn⟩) (iblk2 V c 3 ⟨0, hn⟩) (k2_pay1 (F := F))
  | n + 1, hn => acc2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _)
      (iblk2 V c 0 ⟨n + 1, hn⟩) (iblk2 V c 1 ⟨n + 1, hn⟩) (iblk2 V c 2 ⟨n + 1, hn⟩) (iblk2 V c 3 ⟨n + 1, hn⟩) (scAt2 c n (Nat.lt_of_succ_lt hn))

/-- At the first point. -/
theorem scAt2_first (c : Dev nD) (t : Fin cfg2.N) (h0 : t.val = 0) :
    scAt2 V c t.val t.isLt = acc2 c (grid2.coords t) (ms2_0 t) (hs2_0 t) (ms2_1 t) (hs2_1 t) (ms2_2 t) (hs2_2 t) (ms2_3 t) (hs2_3 t) (ms2_4 t) (hs2_4 t) scM2 (Memref.isWhole_whole _)
      (iblk2 V c 0 t) (iblk2 V c 1 t) (iblk2 V c 2 t) (iblk2 V c 3 t) (k2_pay1 (F := F)) := by
  obtain ⟨n, hn⟩ := t
  cases n with
  | zero => rfl
  | succ n => exact absurd h0 (Nat.succ_ne_zero n)

/-- At a later point: over what the point before left. -/
theorem scAt2_next (c : Dev nD) (t : Fin cfg2.N) (h0 : t.val ≠ 0) :
    scAt2 V c t.val t.isLt = acc2 c (grid2.coords t) (ms2_0 t) (hs2_0 t) (ms2_1 t) (hs2_1 t) (ms2_2 t) (hs2_2 t) (ms2_3 t) (hs2_3 t) (ms2_4 t) (hs2_4 t) scM2 (Memref.isWhole_whole _)
      (iblk2 V c 0 t) (iblk2 V c 1 t) (iblk2 V c 2 t) (iblk2 V c 3 t) (scAt2 V c (t.val - 1) (Nat.lt_of_le_of_lt (Nat.sub_le _ _) t.isLt)) := by
  obtain ⟨n, hn⟩ := t
  cases n with
  | zero => exact absurd rfl h0
  | succ n => rfl

/-! ## The region invariant -/

/-- The core's scoped buffers that are neither a staging buffer of this region nor its scratch, each whole at some
    contents: they ride through the region untouched. -/
def rest2 (c : Dev nD) : sProp 𝕄 :=
  bigSep (((Finset.univ.filter fun b : Ref sig .tc => b.isScoped) \ Finset.univ.image (Pipeline.stageRef spec2)) \ {cc2_scratch0})
    fun b => iprop(∃ f : Buf (Elt F) ((c.tc : Thread nD τ).loc b), ((c.tc : Thread nD τ).loc b) ↦{fullShare} f)

/-- The class invariant with the scratch split off as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  -- the scratch is a scoped buffer and no staging buffer of this region: it is one factor of the product
  have hsub : ({cc2_scratch0} : Finset (Ref sig .tc))
      ⊆ (Finset.univ.filter fun b : Ref sig .tc => b.isScoped) \ Finset.univ.image (Pipeline.stageRef spec2) := by decide
  unfold Pipeline.ΦA Pipeline.scopedRest rest2
  rw [bigSep_sdiff_split hsub, bigSep_singleton]
  -- a whole buffer owned as a memref is its points-to
  simp only [scM2, owns_whole]
  rfl

/-- The invariant before position `n`: before the first point the class's (the scratch at anything); afterwards the
    scratch at what the point before left in it, the other scoped buffers at anything, the generator register at some
    state. -/
def PhiS2 (c : Dev nD) : (n : ℕ) → n ≤ cfg2.N → sProp 𝕄
  | 0, _ => Pipeline.ΦA spec2 c
  | n + 1, hn => iprop(iprop(owns (c : Thread nD τ) scM2 fullShare (scAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (scAt2 V c n hn) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare (scAt2 V c (n - 1) (by omega)) ∗ rest2 (F := F) c) ∗ (∃ r, prngReg c r)) := by
  cases n with
  | zero => exact absurd rfl hz
  | succ n => rfl

/-! ## The proof data -/

/-- The proof data of pipeline 2 on core `c`: the arrays as the region finds them (`V`); after the body at point `t`
    each input's buffer at its block and the result's at the scratch's contents; the invariant `PhiS2`; nothing owed.
    The windows read five distinct arrays, each held at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => scAt2 V c t.val t.isLt
  Φ t := PhiS2 V c t.val (Nat.le_of_lt_succ t.isLt)
  q w := match w with
    | ⟨0, _⟩ => fullShare
    | ⟨1, _⟩ => fullShare
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = scAt2 V c t.val t.isLt := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, PhiS2_castSucc V c t]
  by_cases h0 : t.val = 0
  · -- the first point: the scratch is found at anything and reset by the body
    rw [PhiS2_zero V c _ _ h0, PhiA2_eq, scAt2_first V c t h0]
    iintro ⟨⟨⟨⟨%ds, HS⟩, HR⟩, Hg⟩, Ho, ⟨%d0, H0⟩, ⟨%d1, H1⟩, ⟨%d2, H2⟩, ⟨%d3, H3⟩, ⟨%d4, H4⟩⟩
    iapply (sound_kernel2_first c Set.univ (grid2.coords t) ((first2_iff t).mpr h0) _ _ _ _ _ _ _ _ _ _ _ _
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4
  · -- a later point: the scratch is found at what the point before left
    rw [PhiS2_pos V c _ _ h0, scAt2_next V c t h0]
    iintro ⟨⟨⟨HS, HR⟩, Hg⟩, Ho, ⟨%d0, H0⟩, ⟨%d1, H1⟩, ⟨%d2, H2⟩, ⟨%d3, H3⟩, ⟨%d4, H4⟩⟩
    iapply (sound_kernel2_next c Set.univ (grid2.coords t) (fun h => h0 ((first2_iff t).mp h)) _ _ _ _ _ _ _ _ _ _ _ _
      (iblk2 V c 0 t) (iblk2 V c 1 t) (iblk2 V c 2 t) (iblk2 V c 3 t) (scAt2 V c (t.val - 1) _) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]
        · iexact HS
        · iexact HR
      · iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c cfg2.N (Nat.le_refl _) (by rw [show cfg2.N = 16 from N_2]; decide), PhiA2_eq]
  iintro ⟨⟨HS, HR⟩, Hg⟩
  isplitl [HS HR]
  · isplitl [HS]
    · iexists _; iexact HS
    · iexact HR
  · iexact Hg

end Cert.KernelIdeal.Hand

end
-- ==== Proof.KI.Data.lean ====
/-
  The run's data: what core c's unscoped buffers hold at each boundary of @main, and every pipeline's proof data.

  @main is: host operations (the squared norms, their transposes, the bf16 copies), region 0, a reshape, region 1, a reshape,
  region 2, a reshape and the closing arithmetic. A region changes one buffer only, its (1,1) result, which ends at
  what the region's write-back leaves (`Dat.arrAt 4 N`: the scratch after the last point). So the contents are defined
  bottom-up from the launch memory: each host stretch applied to what the item before left, each region's result put in
  place. The generated conditional frame is stated over its own valuations at unknown results `outs`; the last section
  identifies them with these.
-/
import proofs.«129238_j8907762171929_1_alg».proof.Proof.KI.Region0
import proofs.«129238_j8907762171929_1_alg».proof.Proof.KI.Region1
import proofs.«129238_j8907762171929_1_alg».proof.Proof.KI.Region2
import proofs.«129238_j8907762171929_1_alg».proof.Proof.Gen.KernelIdeal.Regions
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at each boundary -/

/-- After the first host stretch (region 0's entry). -/
abbrev W1 (c : Dev nD) : Valuation τ sig (Elt F) := Gen.V1 m c
/-- The same read at the TensorCore's references (what region 0's proof data take). -/
abbrev U1 (c : Dev nD) (b : Ref sig .tc) : Buf (Elt F) ((c : Thread nD τ).loc b) := W1 m c b
/-- What region 0 leaves in its result buffer. -/
def o2 (c : Dev nD) : Buf (Elt F) ((c : Thread nD τ).loc main_v10) := (dat0 (U1 m) c).arrAt 4 cfg0.N
/-- After region 0. -/
def W2 (c : Dev nD) : Valuation τ sig (Elt F) := Function.update (W1 m c) main_v10 (o2 m c)
/-- After the reshape of region 0's result (region 1's entry). -/
abbrev W3 (c : Dev nD) : Valuation τ sig (Elt F) := StableHlo.after hostOps1 (W2 m c)
abbrev U3 (c : Dev nD) (b : Ref sig .tc) : Buf (Elt F) ((c : Thread nD τ).loc b) := W3 m c b
/-- What region 1 leaves in its result buffer. -/
def o4 (c : Dev nD) : Buf (Elt F) ((c : Thread nD τ).loc main_v12) := (dat1 (U3 m) c).arrAt 4 cfg1.N
/-- After region 1. -/
def W4 (c : Dev nD) : Valuation τ sig (Elt F) := Function.update (W3 m c) main_v12 (o4 m c)
/-- After the reshape of region 1's result (region 2's entry). -/
abbrev W5 (c : Dev nD) : Valuation τ sig (Elt F) := StableHlo.after hostOps2 (W4 m c)
abbrev U5 (c : Dev nD) (b : Ref sig .tc) : Buf (Elt F) ((c : Thread nD τ).loc b) := W5 m c b
/-- What region 2 leaves in its result buffer. -/
def o6 (c : Dev nD) : Buf (Elt F) ((c : Thread nD τ).loc main_v14) := (dat2 (U5 m) c).arrAt 4 cfg2.N
/-- After region 2. -/
def W6 (c : Dev nD) : Valuation τ sig (Elt F) := Function.update (W5 m c) main_v14 (o6 m c)
/-- After the closing arithmetic: the run's last contents. -/
abbrev W7 (c : Dev nD) : Valuation τ sig (Elt F) := StableHlo.after hostOps3 (W6 m c)

/-! ## Every pipeline's proof data, each at its region's entry contents -/

/-- A literal match on the pipeline. -/
def pdats : (p : Fin 3) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c

/-! ## The generated conditional frame's valuations are these -/

/-- What the regions leave, in the form the generated conditional frame reads: after item J-1 the buffer `r` holds what
    this module's contents say (read only at (2, main_v10), (4, main_v12), (6, main_v14)). -/
def outs : Gen.Outs (F := F) := fun J r c =>
  match J with
  | 2 => W2 m c r
  | 4 => W4 m c r
  | 6 => W6 m c r
  | _ => W1 m c r

/-- Region 0's result put in place over the entry contents: the update reads back what it wrote. -/
theorem V2_eq (c : Dev nD) : Gen.V2 m (outs m) c = W2 m c := by
  show Function.update (Gen.V1 m c) main_v10 (W2 m c main_v10) = W2 m c
  unfold W2
  rw [Function.update_self]
/-- The same host stretch applied to equal contents. -/
theorem V3_eq (c : Dev nD) : Gen.V3 m (outs m) c = W3 m c := by
  show StableHlo.after hostOps1 (Gen.V2 m (outs m) c) = StableHlo.after hostOps1 (W2 m c)
  rw [V2_eq]
theorem V4_eq (c : Dev nD) : Gen.V4 m (outs m) c = W4 m c := by
  show Function.update (Gen.V3 m (outs m) c) main_v12 (W4 m c main_v12) = W4 m c
  rw [V3_eq]
  unfold W4
  rw [Function.update_self]
theorem V5_eq (c : Dev nD) : Gen.V5 m (outs m) c = W5 m c := by
  show StableHlo.after hostOps2 (Gen.V4 m (outs m) c) = StableHlo.after hostOps2 (W4 m c)
  rw [V4_eq]
theorem V6_eq (c : Dev nD) : Gen.V6 m (outs m) c = W6 m c := by
  show Function.update (Gen.V5 m (outs m) c) main_v14 (W6 m c main_v14) = W6 m c
  rw [V5_eq]
  unfold W6
  rw [Function.update_self]
theorem V7_eq (c : Dev nD) : Gen.V7 m (outs m) c = W7 m c := by
  show StableHlo.after hostOps3 (Gen.V6 m (outs m) c) = StableHlo.after hostOps3 (W6 m c)
  rw [V6_eq]

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev Rr (c : Dev nD) : sProp 𝕄 := iprop((∃ r, prngReg c r) ∗ ∃ W, owes (c : Thread nD τ) (0 : CellTallies nD τ sig Unit) W)

end Cert.KernelIdeal.Hand

end
-- ==== Proof.KI.Seg0.lean ====
/-
  Region 0 as a segment of @main.

  Entered with every unscoped buffer at the boundary's contents, the generator register at some state and nothing owed; left
  the same way with the region's (1,1) result in place. At entry the windows' arrays are taken out of the unscoped buffers:
  the left and the right operand are ONE buffer, whose full share is dealt in two halves, one to each of the two windows
  that read it; at exit the halves are joined again (both windows end holding the same, unchanged, contents), and the
  result's buffer comes back at what the write-back left.
-/
import proofs.«129238_j8907762171929_1_alg».proof.Proof.KI.Data
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffers behind region 0's arrays -/

/-- Which buffer each window's array is: windows 0 and 1 read the same one. -/
theorem arrRef0_0 : Pipeline.arrRef spec0 0 = main_arg0 := rfl
theorem arrRef0_1 : Pipeline.arrRef spec0 1 = main_arg0 := rfl
theorem arrRef0_2 : Pipeline.arrRef spec0 2 = main_v2 := rfl
theorem arrRef0_3 : Pipeline.arrRef spec0 3 = main_v6 := rfl
theorem arrRef0_4 : Pipeline.arrRef spec0 4 = main_v10 := rfl

/-- The distinct buffers behind the five arrays are four. -/
theorem arrImage0 : (Finset.univ.image (Pipeline.arrRef spec0) : Finset (Ref sig .tc)) = {main_arg0, main_v2, main_v6, main_v10} := by
  decide

/-- The buffers behind the arrays, one factor each. -/
theorem arrBufs0_eq (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v2) ↦{fullShare} V main_v2)
          ∗ (((c : Thread nD τ).loc main_v6) ↦{fullShare} V main_v6) ∗ (((c : Thread nD τ).loc main_v10) ↦{fullShare} V main_v10)) := by
  unfold Pipeline.arrBufs
  rw [arrImage0, bigSep_insert (by decide), bigSep_insert (by decide), bigSep_insert (by decide), bigSep_singleton]
  rfl

/-- A core's unscoped buffers are those four and the rest. -/
theorem unscopedBufs0_split (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs 0 winFacts₀0.arr_unscoped c V

section Arrays

variable (V : (c : Dev nD) → (b : Ref sig .tc) → Buf (Elt F) ((c : Thread nD τ).loc b))

/-- The windows' arrays, one factor each, every array whole: the shared buffer's two halves, the others at the full share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v6) ↦{fullShare} G 3)
          ∗ (((c : Thread nD τ).loc main_v10) ↦{fullShare} G 4)) := by
  unfold Dat.arrays
  -- windows 0 and 1 have one array: the first rewrite turns both
  rw [bigSep_W0, (arr_whole0 0).set_eq_univ, (arr_whole0 2).set_eq_univ, (arr_whole0 3).set_eq_univ, (arr_whole0 4).set_eq_univ]
  rfl

/-- ENTRY: the shared buffer's full share is dealt in two halves to the two windows that read it. -/
theorem hsplit0 (c : Dev nD) : (Pipeline.arrBufs spec0 c (V c) : sProp 𝕄) ⊢ (dat0 V c).arrays ((dat0 V c).arrAt · 0) := by
  rw [arrBufs0_eq, arrays0_eq]
  iintro ⟨H0, H2, H3, H4⟩
  ihave H := (pointsTo_share (PosShare.mem_left_op_right fullShare)).1 $$ H0
  icases H with ⟨Ha, Hb⟩
  isplitl [Ha]; · iexact Ha
  isplitl [Hb]; · iexact Hb
  isplitl [H2]; · iexact H2
  isplitl [H3]; · iexact H3
  iexact H4

/-- EXIT: the two halves, both at the unchanged contents, are joined; the result's buffer is at what the write-back left. -/
theorem hjoin0 (c : Dev nD) (V' : (b : Ref sig .tc) → Buf (Elt F) ((c : Thread nD τ).loc b))
    (h0 : V' main_arg0 = V c main_arg0) (h2 : V' main_v2 = V c main_v2) (h3 : V' main_v6 = V c main_v6)
    (h4 : V' main_v10 = (dat0 V c).arrAt 4 cfg0.N) :
    ((dat0 V c).arrays ((dat0 V c).arrAt · cfg0.N) : sProp 𝕄) ⊢ Pipeline.arrBufs spec0 c V' := by
  rw [arrBufs0_eq, arrays0_eq, h0, h2, h3, h4, (dat0 V c).arrAt_in 0 rfl, (dat0 V c).arrAt_in 1 rfl, (dat0 V c).arrAt_in 2 rfl,
    (dat0 V c).arrAt_in 3 rfl]
  iintro ⟨Ha, Hb, H2, H3, H4⟩
  isplitl [Ha Hb]
  · iapply (pointsTo_share (PosShare.mem_left_op_right fullShare)).2
    isplitl [Ha]; · iexact Ha
    iexact Hb
  isplitl [H2]; · iexact H2
  isplitl [H3]; · iexact H3
  iexact H4

end Arrays

variable (m : (ℓ : Loc nD τ sig) → Buf (Elt F) ℓ)

/-! ## The contents the region leaves -/

/-- The region changes the result's buffer only, -/
theorem W2_of (c : Dev nD) (r : Ref sig .tc) (h : r ≠ main_v10) : W2 m c r = W1 m c r := by
  unfold W2; exact Function.update_of_ne (StableHlo.devRef_ne_of_ne h) _ _
/-- which ends at what the write-back left. -/
theorem W2_out (c : Dev nD) : W2 m c main_v10 = o2 m c := by
  unfold W2; exact Function.update_self _ _ _

/-- ENTRY over the held set. -/
theorem entry0 (c : Dev nD) :
    (StableHlo.held (c : Thread nD τ) (Pipeline.ucRefs τ sig) (W1 m c) : sProp 𝕄)
      ⊢ iprop((dat0 (U1 m) c).arrays ((dat0 (U1 m) c).arrAt · 0) ∗ Pipeline.unscopedRest spec0 c (U1 m c)) := by
  rw [← Pipeline.unscopedBufs_held, unscopedBufs0_split]
  exact sep_mono (hsplit0 (U1 m) c) .rfl

/-- EXIT over the held set. -/
theorem exit0 (c : Dev nD) :
    (iprop((dat0 (U1 m) c).arrays ((dat0 (U1 m) c).arrAt · cfg0.N) ∗ Pipeline.unscopedRest spec0 c (U1 m c)) : sProp 𝕄)
      ⊢ StableHlo.held (c : Thread nD τ) (Pipeline.ucRefs τ sig) (W2 m c) := by
  rw [← Pipeline.unscopedBufs_held, unscopedBufs0_split]
  refine BI.sep_mono (hjoin0 (U1 m) c _ (W2_of m c _ (by decide)) (W2_of m c _ (by decide)) (W2_of m c _ (by decide)) (W2_out m c)) ?_
  unfold Pipeline.unscopedRest
  refine Entails.of_eq (bigSep_congr fun b hb => ?_)
  -- a buffer that is no window's array is not the result's
  have h4 : main_v10 ∈ Finset.univ.image (Pipeline.arrRef spec0) := Finset.mem_image_of_mem (Pipeline.arrRef spec0) (Finset.mem_univ (4 : Fin 5))
  have hb' : b ≠ main_v10 := fun e => (Finset.mem_sdiff.mp hb).2 (e ▸ h4)
  exact congrArg (fun x => (((c : Thread nD τ).loc b) ↦{fullShare} x : sProp 𝕄)) (W2_of m c b hb').symm

set_option backward.isDefEq.respectTransparency.types false in
/-- REGION 0 over the thread state: entered from every unscoped buffer at `W1`, left at `W2`. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := entry0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m) c)
    unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hjoin := exit0 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as a segment of @main.

  Entered with every unscoped buffer at the boundary's contents, the generator register at some state and nothing owed; left
  the same way with the region's (1,1) result in place. At entry the windows' arrays are taken out of the unscoped buffers:
  the left and the right operand are ONE buffer, whose full share is dealt in two halves, one to each of the two windows
  that read it; at exit the halves are joined again (both windows end holding the same, unchanged, contents), and the
  result's buffer comes back at what the write-back left.
-/
import proofs.«129238_j8907762171929_1_alg».proof.Proof.KI.Data
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffers behind region 1's arrays -/

/-- Which buffer each window's array is: windows 0 and 1 read the same one. -/
theorem arrRef1_0 : Pipeline.arrRef spec1 0 = main_arg1 := rfl
theorem arrRef1_1 : Pipeline.arrRef spec1 1 = main_arg1 := rfl
theorem arrRef1_2 : Pipeline.arrRef spec1 2 = main_v5 := rfl
theorem arrRef1_3 : Pipeline.arrRef spec1 3 = main_v7 := rfl
theorem arrRef1_4 : Pipeline.arrRef spec1 4 = main_v12 := rfl

/-- The distinct buffers behind the five arrays are four. -/
theorem arrImage1 : (Finset.univ.image (Pipeline.arrRef spec1) : Finset (Ref sig .tc)) = {main_arg1, main_v5, main_v7, main_v12} := by
  decide

/-- The buffers behind the arrays, one factor each. -/
theorem arrBufs1_eq (c : Dev nD) (V : (b : Ref sig .tc) → Buf (Elt F) ((c : Thread nD τ).loc b)) :
    (Pipeline.arrBufs spec1 c V : sProp 𝕄)
      = iprop((((c : Thread nD τ).loc main_arg1) ↦{fullShare} V main_arg1) ∗ (((c : Thread nD τ).loc main_v5) ↦{fullShare} V main_v5)
          ∗ (((c : Thread nD τ).loc main_v7) ↦{fullShare} V main_v7) ∗ (((c : Thread nD τ).loc main_v12) ↦{fullShare} V main_v12)) := by
  unfold Pipeline.arrBufs
  rw [arrImage1, bigSep_insert (by decide), bigSep_insert (by decide), bigSep_insert (by decide), bigSep_singleton]
  rfl

/-- A core's unscoped buffers are those four and the rest. -/
theorem unscopedBufs1_split (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

section Arrays

variable (V : (c : Dev nD) → (b : Ref sig .tc) → Buf (Elt F) ((c : Thread nD τ).loc b))

/-- The windows' arrays, one factor each, every array whole: the shared buffer's two halves, the others at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare.left} G 0) ∗ (((c : Thread nD τ).loc main_arg1) ↦{fullShare.right} G 1)
          ∗ (((c : Thread nD τ).loc main_v5) ↦{fullShare} G 2) ∗ (((c : Thread nD τ).loc main_v7) ↦{fullShare} G 3)
          ∗ (((c : Thread nD τ).loc main_v12) ↦{fullShare} G 4)) := by
  unfold Dat.arrays
  -- windows 0 and 1 have one array: the first rewrite turns both
  rw [bigSep_W1, (arr_whole1 0).set_eq_univ, (arr_whole1 2).set_eq_univ, (arr_whole1 3).set_eq_univ, (arr_whole1 4).set_eq_univ]
  rfl

/-- ENTRY: the shared buffer's full share is dealt in two halves to the two windows that read it. -/
theorem hsplit1 (c : Dev nD) : (Pipeline.arrBufs spec1 c (V c) : sProp 𝕄) ⊢ (dat1 V c).arrays ((dat1 V c).arrAt · 0) := by
  rw [arrBufs1_eq, arrays1_eq]
  iintro ⟨H0, H2, H3, H4⟩
  ihave H := (pointsTo_share (PosShare.mem_left_op_right fullShare)).1 $$ H0
  icases H with ⟨Ha, Hb⟩
  isplitl [Ha]; · iexact Ha
  isplitl [Hb]; · iexact Hb
  isplitl [H2]; · iexact H2
  isplitl [H3]; · iexact H3
  iexact H4

/-- EXIT: the two halves, both at the unchanged contents, are joined; the result's buffer is at what the write-back left. -/
theorem hjoin1 (c : Dev nD) (V' : (b : Ref sig .tc) → Buf (Elt F) ((c : Thread nD τ).loc b))
    (h0 : V' main_arg1 = V c main_arg1) (h2 : V' main_v5 = V c main_v5) (h3 : V' main_v7 = V c main_v7)
    (h4 : V' main_v12 = (dat1 V c).arrAt 4 cfg1.N) :
    ((dat1 V c).arrays ((dat1 V c).arrAt · cfg1.N) : sProp 𝕄) ⊢ Pipeline.arrBufs spec1 c V' := by
  rw [arrBufs1_eq, arrays1_eq, h0, h2, h3, h4, (dat1 V c).arrAt_in 0 rfl, (dat1 V c).arrAt_in 1 rfl, (dat1 V c).arrAt_in 2 rfl,
    (dat1 V c).arrAt_in 3 rfl]
  iintro ⟨Ha, Hb, H2, H3, H4⟩
  isplitl [Ha Hb]
  · iapply (pointsTo_share (PosShare.mem_left_op_right fullShare)).2
    isplitl [Ha]; · iexact Ha
    iexact Hb
  isplitl [H2]; · iexact H2
  isplitl [H3]; · iexact H3
  iexact H4

end Arrays

variable (m : (ℓ : Loc nD τ sig) → Buf (Elt F) ℓ)

/-! ## The contents the region leaves -/

/-- The region changes the result's buffer only, -/
theorem W4_of (c : Dev nD) (r : Ref sig .tc) (h : r ≠ main_v12) : W4 m c r = W3 m c r := by
  unfold W4; exact Function.update_of_ne (StableHlo.devRef_ne_of_ne h) _ _
/-- which ends at what the write-back left. -/
theorem W4_out (c : Dev nD) : W4 m c main_v12 = o4 m c := by
  unfold W4; exact Function.update_self _ _ _

/-- ENTRY over the held set. -/
theorem entry1 (c : Dev nD) :
    (StableHlo.held (c : Thread nD τ) (Pipeline.ucRefs τ sig) (W3 m c) : sProp 𝕄)
      ⊢ iprop((dat1 (U3 m) c).arrays ((dat1 (U3 m) c).arrAt · 0) ∗ Pipeline.unscopedRest spec1 c (U3 m c)) := by
  rw [← Pipeline.unscopedBufs_held, unscopedBufs1_split]
  exact sep_mono (hsplit1 (U3 m) c) .rfl

/-- EXIT over the held set. -/
theorem exit1 (c : Dev nD) :
    (iprop((dat1 (U3 m) c).arrays ((dat1 (U3 m) c).arrAt · cfg1.N) ∗ Pipeline.unscopedRest spec1 c (U3 m c)) : sProp 𝕄)
      ⊢ StableHlo.held (c : Thread nD τ) (Pipeline.ucRefs τ sig) (W4 m c) := by
  rw [← Pipeline.unscopedBufs_held, unscopedBufs1_split]
  refine BI.sep_mono (hjoin1 (U3 m) c _ (W4_of m c _ (by decide)) (W4_of m c _ (by decide)) (W4_of m c _ (by decide)) (W4_out m c)) ?_
  unfold Pipeline.unscopedRest
  refine Entails.of_eq (bigSep_congr fun b hb => ?_)
  -- a buffer that is no window's array is not the result's
  have h4 : main_v12 ∈ Finset.univ.image (Pipeline.arrRef spec1) := Finset.mem_image_of_mem (Pipeline.arrRef spec1) (Finset.mem_univ (4 : Fin 5))
  have hb' : b ≠ main_v12 := fun e => (Finset.mem_sdiff.mp hb).2 (e ▸ h4)
  exact congrArg (fun x => (((c : Thread nD τ).loc b) ↦{fullShare} x : sProp 𝕄)) (W4_of m c b hb').symm

set_option backward.isDefEq.respectTransparency.types false in
/-- REGION 1 over the thread state: entered from every unscoped buffer at `W3`, left at `W4`. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U3 m) c)
    unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as a segment of @main.

  Entered with every unscoped buffer at the boundary's contents, the generator register at some state and nothing owed; left
  the same way with the region's (1,1) result in place. The five windows read five distinct buffers, each held whole at
  the full share: at entry they are taken out of the unscoped buffers, at exit put back — the four inputs unchanged, the
  result's buffer at what the write-back left.
-/
import proofs.«129238_j8907762171929_1_alg».proof.Proof.KI.Data
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents the region leaves -/

/-- The region changes the result's buffer only, -/
theorem W6_of (c : Dev nD) (r : Ref sig .tc) (h : r ≠ main_v14) : W6 m c r = W5 m c r := by
  unfold W6; exact Function.update_of_ne (StableHlo.devRef_ne_of_ne h) _ _
/-- which ends at what the write-back left. -/
theorem W6_out (c : Dev nD) : W6 m c main_v14 = o6 m c := by
  unfold W6; exact Function.update_self _ _ _

/-- Every window's array is held at the full share. -/
theorem q2_full (V : (c : Dev nD) → (b : Ref sig .tc) → Buf (Elt F) ((c : Thread nD τ).loc b)) (c : Dev nD) :
    ∀ w : Fin cfg2.W, (dat2 V c).q w = fullShare
  | ⟨0, _⟩ => rfl
  | ⟨1, _⟩ => rfl
  | ⟨2, _⟩ => rfl
  | ⟨3, _⟩ => rfl
  | ⟨4, _⟩ => rfl
  | ⟨_ + 5, h⟩ => absurd h (Nat.not_lt.2 (Nat.le_add_left _ _))

/-- At the region's exit each of its arrays holds what the pipeline leaves: an input what it held at entry (it is never
    written), the result what the write-back left; -/
theorem hF2 (c : Dev nD) : ∀ w : Fin cfg2.W, (dat2 (U5 m) c).arrAt w cfg2.N = W6 m c (Pipeline.arrRef spec2 w)
  | ⟨0, _⟩ => ((dat2 (U5 m) c).arrAt_in 0 rfl _).trans (W6_of m c main_v8 (by decide)).symm
  | ⟨1, _⟩ => ((dat2 (U5 m) c).arrAt_in 1 rfl _).trans (W6_of m c main_v9 (by decide)).symm
  | ⟨2, _⟩ => ((dat2 (U5 m) c).arrAt_in 2 rfl _).trans (W6_of m c main_v2 (by decide)).symm
  | ⟨3, _⟩ => ((dat2 (U5 m) c).arrAt_in 3 rfl _).trans (W6_of m c main_v7 (by decide)).symm
  | ⟨4, _⟩ => (W6_out m c).symm
  | ⟨_ + 5, h⟩ => absurd h (Nat.not_lt.2 (Nat.le_add_left _ _))

/-- and every buffer that is no window's array what it held at entry. -/
theorem hrest2 (c : Dev nD) : ∀ b, b ∉ Finset.univ.image (Pipeline.arrRef spec2) → W6 m c b = W5 m c b := fun b hb => by
  have h4 : main_v14 ∈ Finset.univ.image (Pipeline.arrRef spec2) := Finset.mem_image_of_mem (Pipeline.arrRef spec2) (Finset.mem_univ (4 : Fin 5))
  exact W6_of m c b fun e => hb (e ▸ h4)

set_option backward.isDefEq.respectTransparency.types false in
/-- REGION 2 over the thread state: entered from every unscoped buffer at `W5`, left at `W6`. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) Gen.adm (pdats m) launch2.win launch2.arr_whole c
      ((pdats m 2 c).share_full (q2_full (U5 m) c)) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U5 m) c)
    unfold Pipeline.ΦA
    iintro ⟨Hp, -, Hr⟩
    isplitl [Hr]; · iexact Hr
    iexact Hp
  hout c := by
    rw [Pipeline.ownSems0_none]
    refine (hout2 (U5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full (q2_full (U5 m) c))
      (U5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the idealized kernel's @main: it terminates, faults nowhere, and ends with every unscoped buffer at the last
  boundary's contents — in particular the arguments as launched (the frame) and the result at the closing arithmetic of
  the three regions' results (what the value claim reads).
-/
import proofs.«129238_j8907762171929_1_alg».proof.Proof.KI.Seg0
import proofs.«129238_j8907762171929_1_alg».proof.Proof.KI.Seg1
import proofs.«129238_j8907762171929_1_alg».proof.Proof.KI.Seg2
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipelines' staging cells at their initial state, and nothing else. -/
abbrev u₀ : UR sig nD τ := initOf (Pipeline.cells cfgs cellOf_inj) (Pipeline.launchToks cfgs cellOf_inj)

/-- The launch element is the pipelines' own; no core gets a ghost resource. -/
theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  rw [BI.bigSep_emp_const]
  -- owning the launch element in the user algebra IS owning its embedding
  have h : (ownU u₀ : sProp 𝕄)
      ⊢ BI.own (emb₁ (initOf (Pipeline.cells cfgs cellOf_inj) (Pipeline.launchToks cfgs cellOf_inj))) := .rfl
  iintro Hu
  imodintro
  isplitl [Hu]
  · iapply h; iexact Hu
  · iempintro

/-- The rest state ends owing nothing. -/
theorem Rr_owes (c : Dev nD) :
    Rr (F := F) c ⊢ (iprop(∃ W, owes (c : Thread nD τ) (0 : CellTallies nD τ sig Unit) W) : sProp 𝕄) := by
  iintro ⟨-, HO⟩
  iexact HO

set_option backward.isDefEq.respectTransparency.types false in
/-- THE RUN, given the regions' records over any results `outs` and proof data: every weakly fair execution of @main
    terminates, and every final memory holds the result buffer at the last valuation and each argument as launched;
    stated at any consequence `Q` of those readings. -/
theorem run_cond (outs : Gen.Outs (F := F))
    (pdats : (p : Fin 3) → (c : Dev nD) → Dat τ (Elt F) Unit ℕ (UR sig nD τ) ℕ (cfgs p) c)
    (R0 : Pipeline.RegionSeg (pcfgs (F := F)) Gen.adm pdats () defs₀ 𝒱₀ L lv 0)
    (hpre0 : ∀ c : Dev nD, iprop(StableHlo.held (c : Thread nD τ) (Pipeline.ucRefs τ sig) (Gen.V1 m c) ∗ Rr c) ⊢ R0.pre c)
    (hpost0 : ∀ c : Dev nD, R0.post c ⊢ iprop(StableHlo.held (c : Thread nD τ) (Pipeline.ucRefs τ sig) (Gen.V2 m outs c) ∗ Rr c))
    (R1 : Pipeline.RegionSeg (pcfgs (F := F)) Gen.adm pdats () defs₀ 𝒱₀ L lv 1)
    (hpre1 : ∀ c : Dev nD, iprop(StableHlo.held (c : Thread nD τ) (Pipeline.ucRefs τ sig) (Gen.V3 m outs c) ∗ Rr c) ⊢ R1.pre c)
    (hpost1 : ∀ c : Dev nD, R1.post c ⊢ iprop(StableHlo.held (c : Thread nD τ) (Pipeline.ucRefs τ sig) (Gen.V4 m outs c) ∗ Rr c))
    (R2 : Pipeline.RegionSeg (pcfgs (F := F)) Gen.adm pdats () defs₀ 𝒱₀ L lv 2)
    (hpre2 : ∀ c : Dev nD, iprop(StableHlo.held (c : Thread nD τ) (Pipeline.ucRefs τ sig) (Gen.V5 m outs c) ∗ Rr c) ⊢ R2.pre c)
    (hpost2 : ∀ c : Dev nD, R2.post c ⊢ iprop(StableHlo.held (c : Thread nD τ) (Pipeline.ucRefs τ sig) (Gen.V6 m outs c) ∗ Rr c))
    {Q : PUnit × MemSt nD τ sig (Elt F) → Prop}
    (hQ : ∀ s : MemSt nD τ sig (Elt F), (∀ c : Dev nD,
        s.mem ((c.tc : Thread nD τ).loc main_v21) = Gen.V7 m outs c main_v21
        ∧ s.mem ((c.tc : Thread nD τ).loc main_arg0) = m ((c.tc : Thread nD τ).loc main_arg0)
        ∧ s.mem ((c.tc : Thread nD τ).loc main_arg1) = m ((c.tc : Thread nD τ).loc main_arg1)) → Q (⟨⟩, s)) :
    θ_run defs (onTc (τ := τ) (main (F := F))) ⟨m, fun _ => 0, ρ⟩ Q := by
  refine Pipeline.θ_run_regions_kit_dev (pcfgs (F := F)) Gen.adm pdats () cellOf_inj emb₁ defs₀ 𝒱₀ L lv m ρ main
    (Gen.segs m outs 𝒱₀ L lv (fun _ c => Rr c) () pdats R0 R1 R2)
    (fun c Q => by
      rewrite [main_chain c, Pipeline.Seg.run_eq_chain,
        show (Gen.segs m outs 𝒱₀ L lv (fun _ c => Rr c) () pdats R0 R1 R2 c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Pipeline.Seg.pipes_host, Pipeline.Seg.pipes_region, Pipeline.Seg.pipes_nil]; decide)
    0 (fun _ _ => rfl) (fun _ => (BI.emp : sProp 𝕄)) u₀ hu₀
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V7 m outs c))
    (hch := fun c => ⟨.rfl, hpre0 c, hpost0 c, hpre1 c, hpost1 c, hpre2 c, hpost2 c, sep_mono .rfl (Rr_owes c)⟩)
    (hinit := ?_)
    (QY := fun c s => s.mem ((c.tc : Thread nD τ).loc main_v21) = Gen.V7 m outs c main_v21
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := hQ)
  · -- the launch, core by core: the unscoped buffers are held at the launch contents, the generator register is at its
    -- launch state, nothing is owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]
    · iexact Hh
    isplitl [Hp]
    · iexists _; iexact Hp
    · iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (Gen.V7 m outs c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        (h (Proc.devRef .tc main_arg0) (Finset.mem_filter.mpr ⟨StableHlo.devRef_mem_tcRefs main_arg0, by decide⟩)).trans (Gen.V7_main_arg0 m outs c),
        (h (Proc.devRef .tc main_arg1) (Finset.mem_filter.mpr ⟨StableHlo.devRef_mem_tcRefs main_arg1, by decide⟩)).trans (Gen.V7_main_arg1 m outs c)⟩
    · iexact HSI

/-- THE FRAME: every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_cond m ρ (outs m) (pdats m)
    (reg0 m) (fun c => .rfl) (fun c => by rewrite [V2_eq]; exact .rfl)
    (reg1 m) (fun c => by rewrite [V3_eq]; exact .rfl) (fun c => by rewrite [V4_eq]; exact .rfl)
    (reg2 m) (fun c => by rewrite [V5_eq]; exact .rfl) (fun c => by rewrite [V6_eq]; exact .rfl)
    (hQ := fun s h c => (h c).2)

/-- THE RUN WITH ITS RESULT: the same, and the result buffer ends at the last boundary's contents. -/
theorem run_result : θ_run defs (onTc (τ := τ) (main (F := F))) ⟨m, fun _ => 0, ρ⟩ (fun r => ∀ c : Dev nD,
      r.2.mem ((c.tc : Thread nD τ).loc main_v21) = W7 m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m ρ (outs m) (pdats m)
    (reg0 m) (fun c => .rfl) (fun c => by rewrite [V2_eq]; exact .rfl)
    (reg1 m) (fun c => by rewrite [V3_eq]; exact .rfl) (fun c => by rewrite [V4_eq]; exact .rfl)
    (reg2 m) (fun c => by rewrite [V5_eq]; exact .rfl) (fun c => by rewrite [V6_eq]; exact .rfl)
    (hQ := fun s h c => ⟨(h c).1.trans (congrFun (V7_eq m c) _), (h c).2⟩)

end Cert.KernelIdeal.Hand

end
-- ==== Proof.Spec.lean ====
/-
  The mathematics both programs compute, on the extended reals, stated once over literal shapes.

  For [8192, 512] arrays x, y: the squared row norms |x_i|², the row products x_i·y_j, the squared distance
  d(i,j) = (|x_i|² + |y_j|²) - 2 x_i·y_j, and the Gaussian weight of a pair, which the reference spells exp((-d)/2) and
  the kernel exp(d · (-1/2)); the sum of the weights over all pairs; and the loss
  (S(s,s)/N + S(t,t)/N) - 2·(S(s,t)/N), which the kernel spells with the last term as (2·S(s,t))/N (N = 2^26 pairs).
  The kernel takes the pair sum tile by tile: 16 tiles of 512 rows, each against 16 chunks of 512 rows.
  The laws that join the two spellings need no finiteness: negation commutes with a product, a quotient by a nonzero real
  is a product with its inverse, products are associative, and finite sums may be regrouped freely.
-/
import Idealize.ShloMosaic.PureOps.Ideal
import Idealize.ShloMosaic.Lib.ValueIdx

noncomputable section

namespace Cert.Mmd

open Idealize.ShloMosaic Idealize.ShloMosaic.ValueIdx

/-- An [8192, 512] array of extended reals. -/
abbrev Mat : Type := (⟨2, ![8192, 512]⟩ : Shape).Idx → EReal

/-! ## The constants the programs spell -/

/-- `2.0`. -/
def two : EReal := Ideal.ofBits .f32 0x40000000#32
/-- `-0.5`. -/
def negHalf : EReal := Ideal.ofBits .f32 0xBF000000#32
/-- `67108864.0` = 2^26 = 8192 · 8192, the number of pairs. -/
def count : EReal := Ideal.ofBits .f32 0x4C800000#32

theorem two_eq : two = ((2 : ℝ) : EReal) := by
  unfold two; simp [Ideal.ofBits, Ideal.ieee, -EReal.coe_mul]; norm_num
theorem negHalf_eq : negHalf = ((-(1 / 2) : ℝ) : EReal) := by
  unfold negHalf; simp [Ideal.ofBits, Ideal.ieee, -EReal.coe_mul]; norm_num
theorem count_eq : count = ((67108864 : ℝ) : EReal) := by
  unfold count; simp [Ideal.ofBits, Ideal.ieee, -EReal.coe_mul]; norm_num

/-! ## The pair weights -/

/-- |x_i|². -/
def sqnorm (x : Mat) (i : Fin 8192) : EReal := ∑ d : Fin 512, x (ix2 i d) * x (ix2 i d)
/-- x_i · y_j. -/
def inner (x y : Mat) (i j : Fin 8192) : EReal := ∑ d : Fin 512, x (ix2 i d) * y (ix2 j d)
/-- The squared distance by the expansion (|x_i|² + |y_j|²) - 2 x_i·y_j. -/
def dist (x y : Mat) (i j : Fin 8192) : EReal := (sqnorm x i + sqnorm y j) - two * inner x y i j
/-- The weight as the reference spells it: exp((-d) / 2). -/
def rbf (x y : Mat) (i j : Fin 8192) : EReal := Ideal.exp (Ideal.div (-(dist x y i j)) two)
/-- The weight as the kernel spells it: exp(d · (-1/2)). -/
def rbfK (x y : Mat) (i j : Fin 8192) : EReal := Ideal.exp (dist x y i j * negHalf)

/-- The two spellings agree on every extended real. -/
theorem rbfK_eq_rbf (x y : Mat) (i j : Fin 8192) : rbfK x y i j = rbf x y i j := by
  unfold rbfK rbf
  refine congrArg Ideal.exp ?_
  rw [negHalf_eq, two_eq, Ideal.div_coe (by norm_num : (2 : ℝ) ≠ 0), EReal.coe_neg, mul_neg, neg_mul]

/-! ## The sums -/

/-- The sum of the weights over all pairs (the reference's spelling). -/
def total (x y : Mat) : EReal := ∑ i : Fin 8192, ∑ j : Fin 8192, rbf x y i j

/-- Row r of tile t. -/
def row (t : Fin 16) (r : Fin 512) : Fin 8192 := ⟨512 * t.val + r.val, by omega⟩

/-- One chunk's contribution to one tile: the 512 x 512 pairs (row of the tile, row of the chunk). -/
def chunkSum (f : Fin 8192 → Fin 8192 → EReal) (t k : Fin 16) : EReal :=
  ∑ r : Fin 512, ∑ l : Fin 512, f (row t r) (row k l)

/-- One tile's value: its sixteen chunks. -/
def tileSum (f : Fin 8192 → Fin 8192 → EReal) (t : Fin 16) : EReal := ∑ k : Fin 16, chunkSum f t k

/-- The kernel's total: the sixteen tiles. -/
def totalK (x y : Mat) : EReal := ∑ t : Fin 16, tileSum (rbfK x y) t

/-- One axis: the 16 · 512 rows taken tile by tile are all 8192 rows, each once ((t, r) ↦ 512 t + r is a bijection). -/
theorem sum_rows (g : Fin 8192 → EReal) : ∑ t : Fin 16, ∑ r : Fin 512, g (row t r) = ∑ i : Fin 8192, g i := by
  rw [← Fintype.sum_prod_type' (f := fun t r => g (row t r))]
  refine Fintype.sum_equiv (finProdFinEquiv (m := 16) (n := 512)) _ _ fun p => congrArg g (Fin.ext ?_)
  show 512 * p.1.val + p.2.val = p.2.val + 512 * p.1.val
  omega

/-- Tile by tile and chunk by chunk is the sum over all pairs. -/
theorem sum_tiles (f : Fin 8192 → Fin 8192 → EReal) : ∑ t : Fin 16, tileSum f t = ∑ i : Fin 8192, ∑ j : Fin 8192, f i j := by
  unfold tileSum chunkSum
  calc ∑ t : Fin 16, ∑ k : Fin 16, ∑ r : Fin 512, ∑ l : Fin 512, f (row t r) (row k l)
      = ∑ t : Fin 16, ∑ r : Fin 512, ∑ k : Fin 16, ∑ l : Fin 512, f (row t r) (row k l) :=
        Finset.sum_congr rfl fun t _ => Finset.sum_comm
    _ = ∑ t : Fin 16, ∑ r : Fin 512, ∑ j : Fin 8192, f (row t r) j :=
        Finset.sum_congr rfl fun t _ => Finset.sum_congr rfl fun r _ => sum_rows fun j => f (row t r) j
    _ = ∑ i : Fin 8192, ∑ j : Fin 8192, f i j := sum_rows fun i => ∑ j : Fin 8192, f i j

theorem totalK_eq_total (x y : Mat) : totalK x y = total x y := by
  unfold totalK total
  rw [sum_tiles]
  exact Finset.sum_congr rfl fun i _ => Finset.sum_congr rfl fun j _ => rbfK_eq_rbf x y i j

/-! ## The loss -/

/-- The reference's spelling. -/
def mmd (s t : Mat) : EReal :=
  (Ideal.div (total s s) count + Ideal.div (total t t) count) - two * Ideal.div (total s t) count

/-- The kernel's spelling: the cross term doubled before the quotient. -/
def mmdK (s t : Mat) : EReal :=
  (Ideal.div (totalK s s) count + Ideal.div (totalK t t) count) - Ideal.div (two * totalK s t) count

theorem mmdK_eq_mmd (s t : Mat) : mmdK s t = mmd s t := by
  unfold mmdK mmd
  rw [totalK_eq_total, totalK_eq_total, totalK_eq_total]
  refine congrArg (fun z => (Ideal.div (total s s) count + Ideal.div (total t t) count) - z) ?_
  rw [count_eq, Ideal.div_coe (by norm_num : (67108864 : ℝ) ≠ 0), Ideal.div_coe (by norm_num : (67108864 : ℝ) ≠ 0), mul_assoc]

end Cert.Mmd

end
-- ==== Proof.LibMatmulTransposedRhs.lean ====
/-
  A general lemma. The matrix product of an [M, K] array by the TRANSPOSE of an [N, K] array (both operands
  contracted on their second axis, no batch axes), accumulated into the zero array and read at the exact
  instance, is at entry (p, q) the finite sum over the contraction coordinate k of left (p, k) · right (q, k).
  It holds for all sizes and both operands' formats.
-/
import Idealize.ShloMosaic.Lib.ValueIdx
import Idealize.ShloMosaic.PureOps.Ideal.Laws

namespace Idealize.ShloMosaic.MatmulTransposedRhs

open Idealize.ShloMosaic Idealize.ShloMosaic.ValueIdx

variable {M K N : ℕ}

/-- The left operand's row coordinate is the result's row coordinate. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row coordinate is the result's column coordinate. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry (p, q) of the product by the transpose, into a zero accumulator, is ∑ k, left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant ⟨2, ![M, N]⟩ .f32 0x00000000#32) (ix2 p q)
      = ∑ k : Fin K, l (ix2 p k) * r (ix2 q k) := by
  show FloatOps.matmul (DotDims.transposedRhs M K N) prec l r (constant ⟨2, ![M, N]⟩ .f32 0x00000000#32) (ix2 p q) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

end Idealize.ShloMosaic.MatmulTransposedRhs
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.KIV.Tile0V.lean ====
/-
  Region 0 (the source-source term): the VALUE of the kernel body at one grid point, on the extended reals.

  One trip of the body's loop holds a 512-row tile x of the left operand with its squared row norms (a column), and loads
  chunk k of the right operand y (rows 512 k … 512 k + 511) with its squared row norms (a row). It forms the 512 x 512
  products x_r · y_l by a product with the transpose into a zero array, the sums of norms by broadcasting the column and
  the row, the weights exp((|x_r|² + |y_l|² - 2 x_r·y_l) · (-1/2)), sums them along the lanes and then along the rows,
  and adds the result to the carried (1,1) value. So a trip adds the chunk's 512 x 512 pair weights to what was carried;
  sixteen trips from zero give the tile's value, the sum over the sixteen chunks; the scratch ends at what it held plus
  the tile's value; and the reset value is zero.
-/
import proofs.«129238_j8907762171929_1_alg».proof.Proof.KI.Body0
import proofs.«129238_j8907762171929_1_alg».proof.Proof.Spec
import proofs.«129238_j8907762171929_1_alg».proof.Proof.LibMatmulTransposedRhs
import proofs.«129238_j8907762171929_1_alg».proof.Proof.LibColumnForms
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Cert.KernelIdeal Cert.KernelIdeal.Gen Cert.KernelIdeal.Hand Idealize.ShloMosaic Idealize.ShloMosaic.ValueIdx

/-! ## One trip's arithmetic -/

/-- One pair's weight inside a trip: entry (r, l) of the exponential of (norms' sum - 2 · products) · (-1/2). -/
theorem weight_apply (v3 : FVec Ideal S512x512 .f32) (v4 : Vec Ideal S512x1 .f32) (v19 : FVec Ideal S512x512 .f32) (v21 : Vec Ideal S1x512 .f32) (r l : Fin 512) :
    exp (mulf (subf (addf (broadcastTo S512x512 v4 broadcasts_S512x1_S512x512) (broadcastTo S512x512 v21 broadcasts_S1x512_S512x512))
        (mulf (broadcast S512x512 (Scalar.ofBits .f32 0x40000000#32)) (matmul dot_S512x512_S512x512_S512x512_1_1_0_0_n_n (some .fp32) v3 v19 (constant (F := Ideal) S512x512 .f32 0x00000000#32))))
        (broadcast S512x512 (Scalar.ofBits .f32 0xBF000000#32))) (ix2 r l)
      = Ideal.exp (((v4 (ix2 r 0) + v21 (ix2 0 l)) - Cert.Mmd.two * ∑ d : Fin 512, v3 (ix2 r d) * v19 (ix2 l d)) * Cert.Mmd.negHalf) := by
  show Ideal.exp (((broadcastTo S512x512 v4 broadcasts_S512x1_S512x512 (ix2 r l) + broadcastTo S512x512 v21 broadcasts_S1x512_S512x512 (ix2 r l))
      - Cert.Mmd.two * matmul (DotDims.transposedRhs 512 512 512) (some .fp32) v3 v19 (constant (F := Ideal) S512x512 .f32 0x00000000#32) (ix2 r l)) * Cert.Mmd.negHalf) = _
  rw [Cert.ColumnForms.broadcastTo_a1_ab_apply, broadcastTo_1b_ab_apply, MatmulTransposedRhs.matmul_zero_apply]

/-- One trip's arithmetic at the one index: what was carried, plus the 512 x 512 pair weights of (tile row, chunk row). -/
theorem pay3_value (v3 : Vec Ideal S512x512 .f32) (v4 : Vec Ideal S512x1 .f32) (acc : FVec Ideal S1x1 .f32) (v19 : Vec Ideal S512x512 .f32) (v21 : Vec Ideal S1x512 .f32) :
    k0_pay3 v3 v4 acc v19 v21 (ix2 0 0)
      = acc (ix2 0 0) + ∑ r : Fin 512, ∑ l : Fin 512,
          Ideal.exp (((v4 (ix2 r 0) + v21 (ix2 0 l)) - Cert.Mmd.two * ∑ d : Fin 512, v3 (ix2 r d) * v19 (ix2 l d)) * Cert.Mmd.negHalf) := by
  unfold k0_pay3
  simp only [shapeCast_self]
  refine (addf_apply acc _ (ix2 0 0)).trans (congrArg (fun z => acc (ix2 0 0) + z) ?_)
  refine (shapeCast_a_1a_apply _ _ (0 : Fin 1) (0 : Fin 1)).trans ?_
  refine (Ideal.multiReduction_add_single _ _ _ _ _ (ix1 (0 : Fin 1))).trans ?_
  refine Finset.sum_congr rfl fun r _ => ?_
  refine (congrArg _ (Cert.ColumnForms.lift_axis0 reduces_S512x1_S1 (0 : Fin 1) r)).trans ?_
  refine (Cert.ColumnForms.shapeCast_a_a1_apply _ _ r (0 : Fin 1)).trans ?_
  refine (Ideal.multiReduction_add_single _ _ _ _ _ (ix1 r)).trans ?_
  refine Finset.sum_congr rfl fun l _ => ?_
  refine (congrArg _ (Cert.ColumnForms.lift_axis1 reduces_S512x512_S512 r l)).trans ?_
  exact weight_apply v3 v4 v19 v21 r l

/-! ## One trip of the loop -/

/-- The loop makes sixteen trips. -/
theorem trips_eq : k0_t1_loop.trips = 16 := by decide

/-- One trip is the trip's arithmetic on what its two loads read: the trip's chunk of the right operand and of its norms. -/
theorem trip_open (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (v3 : Vec Ideal S512x512 .f32) (v4 : Vec Ideal S512x1 .f32) (X2 : BufTy.Contents (Elt Ideal) arg2.view.ty) (X4 : BufTy.Contents (Elt Ideal) arg4.view.ty)
    (k : Fin k0_t1_loop.trips) (acc : FVec Ideal S1x1 .f32) :
    tripR_k0_t1 (F := Ideal) Variants.none c none i arg1 harg1 arg2 harg2 arg3 harg3 arg4 harg4 arg5 harg5 arg6 harg6 v3 v4 X2 X4 k acc
      = k0_pay3 v3 v4 acc
          (View.ld (arg2.view.read (Elt Ideal) X2) (Rect.unit (s := S8192x512) (k0_off1 k) S512x512.size (k0_off1_inb k)))
          (View.ld (arg4.view.read (Elt Ideal) X4) (Rect.unit (s := S1x8192) (k0_off2 k) S1x512.size (k0_off2_inb k))) := by
  unfold tripR_k0_t1 trip_k0_t1
  rfl

/-- Row l of chunk k of the right operand is its row 512 k + l. -/
theorem ld_chunk (x2 : Vec Ideal S8192x512 .f32) (k : Fin k0_t1_loop.trips) (hk : k.val < 16) (l d : Fin 512) :
    View.ld x2 (Rect.unit (s := S8192x512) (k0_off1 k) S512x512.size (k0_off1_inb k)) (ix2 l d)
      = x2 (ix2 (Cert.Mmd.row ⟨k.val, hk⟩ l) d) := by
  refine congrArg x2 (funext fun a => Fin.ext ?_)
  match a with
  | ⟨0, _⟩ =>
    show (k0_off1 k) 0 + 1 * l.val = 512 * k.val + l.val
    rw [k0_off1_eq k]; show 512 * k.val + 1 * l.val = 512 * k.val + l.val; omega
  | ⟨1, _⟩ =>
    show (k0_off1 k) 1 + 1 * d.val = d.val
    rw [k0_off1_eq k]; show 0 + 1 * d.val = d.val; omega

/-- Entry l of chunk k of the right operand's norms is its entry 512 k + l. -/
theorem ld_norms (x4 : Vec Ideal S1x8192 .f32) (k : Fin k0_t1_loop.trips) (hk : k.val < 16) (l : Fin 512) :
    View.ld x4 (Rect.unit (s := S1x8192) (k0_off2 k) S1x512.size (k0_off2_inb k)) (ix2 0 l)
      = x4 (ix2 0 (Cert.Mmd.row ⟨k.val, hk⟩ l)) := by
  refine congrArg x4 (funext fun a => Fin.ext ?_)
  match a with
  | ⟨0, _⟩ =>
    show (k0_off2 k) 0 + 1 * 0 = 0
    rw [k0_off2_eq k]; rfl
  | ⟨1, _⟩ =>
    show (k0_off2 k) 1 + 1 * l.val = 512 * k.val + l.val
    rw [k0_off2_eq k]; show 512 * k.val + 1 * l.val = 512 * k.val + l.val; omega

/-- The pair weights of the tile against chunk k of the right operand. -/
def chunkW (x1 : Vec Ideal S512x512 .f32) (x2 : Vec Ideal S8192x512 .f32) (x3 : Vec Ideal S512x1 .f32) (x4 : Vec Ideal S1x8192 .f32) (k : Fin 16) : EReal :=
  ∑ r : Fin 512, ∑ l : Fin 512,
    Ideal.exp (((x3 (ix2 r 0) + x4 (ix2 0 (Cert.Mmd.row k l))) - Cert.Mmd.two * ∑ d : Fin 512, x1 (ix2 r d) * x2 (ix2 (Cert.Mmd.row k l) d)) * Cert.Mmd.negHalf)

/-- Trip k adds chunk k's pair weights to what was carried. -/
theorem trip_value (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .f32) (x2 : Vec Ideal S8192x512 .f32) (x3 : Vec Ideal S512x1 .f32) (x4 : Vec Ideal S1x8192 .f32) (k : Fin k0_t1_loop.trips) (hk : k.val < 16) (acc : FVec Ideal S1x1 .f32) :
    tripR_k0_t1 (F := Ideal) Variants.none c none i arg1 harg1 arg2 harg2 arg3 harg3 arg4 harg4 arg5 harg5 arg6 harg6 x1 x3 (harg2.unread x2) (harg4.unread x4) k acc (ix2 0 0)
      = acc (ix2 0 0) + chunkW x1 x2 x3 x4 ⟨k.val, hk⟩ := by
  rw [trip_open, harg2.read_unread, harg4.read_unread]
  refine (pay3_value _ _ _ _ _).trans (congrArg (fun z => acc (ix2 0 0) + z) ?_)
  unfold chunkW
  refine Finset.sum_congr rfl fun r _ => Finset.sum_congr rfl fun l _ => ?_
  rw [ld_norms x4 k hk l]
  simp only [ld_chunk x2 k hk]

/-! ## The sixteen trips -/

/-- The loop's initial value is zero. -/
theorem pay2_value : k0_pay2 (F := Ideal) (ix2 0 0) = 0 := by
  unfold k0_pay2
  exact Ideal.ofBits_zero_f32

/-- Before trip n the carried value is the initial one plus the pair weights of the chunks before n. -/
theorem st_value (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .f32) (x2 : Vec Ideal S8192x512 .f32) (x3 : Vec Ideal S512x1 .f32) (x4 : Vec Ideal S1x8192 .f32) (init : FVec Ideal S1x1 .f32) (n : ℕ) (hn : n ≤ 16) :
    st_k0_t1 (F := Ideal) Variants.none c none i arg1 harg1 arg2 harg2 arg3 harg3 arg4 harg4 arg5 harg5 arg6 harg6 x1 x3 (harg2.unread x2) (harg4.unread x4) init n (ix2 0 0)
      = init (ix2 0 0) + ∑ k : Fin n, chunkW x1 x2 x3 x4 ⟨k.val, lt_of_lt_of_le k.isLt hn⟩ := by
  induction n with
  | zero => rw [st_k0_t1_zero, Finset.univ_eq_empty, Finset.sum_empty, add_zero]
  | succ n ih =>
    have hlt : n < k0_t1_loop.trips := by rw [trips_eq]; omega
    have e := st_k0_t1_succ (F := Ideal) Variants.none c none i arg1 harg1 arg2 harg2 arg3 harg3 arg4 harg4 arg5 harg5 arg6 harg6 x1 x3 (harg2.unread x2) (harg4.unread x4) init ⟨n, hlt⟩
    refine (congrFun e (ix2 0 0)).trans ?_
    rw [trip_value c i arg1 harg1 arg2 harg2 arg3 harg3 arg4 harg4 arg5 harg5 arg6 harg6 x1 x2 x3 x4 ⟨n, hlt⟩ (by show n < 16; omega), ih (by omega), Fin.sum_univ_castSucc, add_assoc]
    rfl

/-- The tile's value: sixteen chunks of 512 rows of the right operand. -/
theorem tile0_value (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .f32) (x2 : Vec Ideal S8192x512 .f32) (x3 : Vec Ideal S512x1 .f32) (x4 : Vec Ideal S1x8192 .f32) :
    tile0 (F := Ideal) c i arg1 harg1 arg2 harg2 arg3 harg3 arg4 harg4 arg5 harg5 arg6 harg6 x1 x2 x3 x4 (ix2 0 0)
      = ∑ k : Fin 16, ∑ r : Fin 512, ∑ l : Fin 512,
          Ideal.exp (((x3 (ix2 r 0) + x4 (ix2 0 (Cert.Mmd.row k l))) - Cert.Mmd.two * ∑ d : Fin 512, x1 (ix2 r d) * x2 (ix2 (Cert.Mmd.row k l) d)) * Cert.Mmd.negHalf) := by
  unfold tile0
  rw [show Scf.trips k0_t1_loop.lb k0_t1_loop.ub k0_t1_loop.st = 16 from trips_eq,
    st_value c i arg1 harg1 arg2 harg2 arg3 harg3 arg4 harg4 arg5 harg5 arg6 harg6 x1 x2 x3 x4 (k0_pay2 (F := Ideal)) 16 le_rfl, pay2_value, zero_add]
  rfl

/-- The scratch after a point: what it held plus the tile's value. -/
theorem acc0_value (c : Dev nD) (i : grid0.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .f32) (x2 : Vec Ideal S8192x512 .f32) (x3 : Vec Ideal S512x1 .f32) (x4 : Vec Ideal S1x8192 .f32) (xs : Vec Ideal S1x1 .f32) :
    acc0 (F := Ideal) c i arg1 harg1 arg2 harg2 arg3 harg3 arg4 harg4 arg5 harg5 arg6 harg6 x1 x2 x3 x4 xs (ix2 0 0)
      = xs (ix2 0 0) + tile0 (F := Ideal) c i arg1 harg1 arg2 harg2 arg3 harg3 arg4 harg4 arg5 harg5 arg6 harg6 x1 x2 x3 x4 (ix2 0 0) := by
  unfold acc0 k0_pay4
  simp only [shapeCast_self]
  rfl

/-- The reset value is zero. -/
theorem pay1_value : k0_pay1 (F := Ideal) (ix2 0 0) = 0 := by
  unfold k0_pay1
  simp only [shapeCast_self]
  exact Ideal.ofBits_zero_f32

end Cert.KernelIdeal.HandV

end
-- ==== Proof.KIV.Region0V.lean ====
/-
  Region 0 (the source-source term): the value it leaves in its (1,1) result, on the extended reals.

  Each grid point's tile is 512 rows of the left operand against all 8192 rows of the right one, so the tile's value is
  the sum of the pair weights exp((|x_i|² + |y_j|² - 2 x_i·y_j) · (-1/2)) over those pairs, the norms and the rows read off
  the region's four input arrays. The scratch after point n is the sum of the tiles 0..n, and the one block written back,
  after the last point, is the scratch: the result array ends at the sum over the sixteen tiles.
-/
import proofs.«129238_j8907762171929_1_alg».proof.Proof.KI.Region0
import proofs.«129238_j8907762171929_1_alg».proof.Proof.KIV.Tile0V
import proofs.«129238_j8907762171929_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.HandV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The region's four input arrays -/

/-- The left operand (tiled), the right operand (whole), the left norms (a column), the right norms (a row). -/
abbrev lhs0 : Ref sig .tc := main_arg0
abbrev rhs0 : Ref sig .tc := main_arg0
abbrev lnorm0 : Ref sig .tc := main_v2
abbrev rnorm0 : Ref sig .tc := main_v6
/-- The (1,1) result. -/
abbrev out0 : Ref sig .tc := main_v10

/-- The weight of a pair of rows from the two operands' entries and squared norms. -/
def weight0 (ln : S8192x1.Idx → EReal) (rn : S1x8192.Idx → EReal) (x y : S8192x512.Idx → EReal) (i j : Fin 8192) : EReal :=
  Ideal.exp (((ln (ix2 i 0) + rn (ix2 0 j)) - Cert.Mmd.two * ∑ d : Fin 512, x (ix2 i d) * y (ix2 j d)) * Cert.Mmd.negHalf)

/-- The weight of the pair (row i of the left operand, row j of the right one), read off the arrays as the region finds them. -/
def pairW0 (c : Dev nD) (i j : Fin 8192) : EReal :=
  weight0 (V c lnorm0) (V c rnorm0) (V c lhs0) (V c rhs0) i j

/-- The grid has sixteen points. -/
theorem N16_0 : cfg0.N = 16 := N_0

/-- A grid point as a tile number. -/
abbrev pt0 (t : Fin cfg0.N) : Fin 16 := t.cast N16_0

/-! ## The input blocks as rows of the arrays -/

/-- The tiled windows' block index at point t is (t, 0); the whole windows' is (0, 0). -/
theorem index0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0))

/-- Window 0's block at point t is rows 512 t … 512 t + 511 of the left operand. -/
theorem iblk0_0_apply (c : Dev nD) (t : Fin cfg0.N) (r d : Fin 512) :
    (iblk0 V c 0 t : Vec Ideal S512x512 .f32) (ix2 r d) = (V c lhs0 : S8192x512.Idx → EReal) (ix2 (Cert.Mmd.row (pt0 t) r) d) := by
  unfold iblk0
  rw [View.read_apply]
  show (V c lhs0 : S8192x512.Idx → EReal) (((cfg0.win 0).blk t).view.emb (ix2 r d)) = _
  refine congrArg (V c lhs0 : S8192x512.Idx → EReal) (funext fun a => Fin.ext ?_)
  match a with
  | ⟨0, _⟩ => show win0_0.index t 0 * 512 + 1 * r.val = 512 * t.val + r.val; rw [(index0 t).1.1]; omega
  | ⟨1, _⟩ => show win0_0.index t 1 * 512 + 1 * d.val = d.val; rw [(index0 t).1.2]; omega

/-- Window 1's block at every point is the whole right operand. -/
theorem iblk0_1_apply (c : Dev nD) (t : Fin cfg0.N) (j : Fin 8192) (d : Fin 512) :
    (iblk0 V c 1 t : Vec Ideal S8192x512 .f32) (ix2 j d) = (V c rhs0 : S8192x512.Idx → EReal) (ix2 j d) := by
  unfold iblk0
  rw [View.read_apply]
  show (V c rhs0 : S8192x512.Idx → EReal) (((cfg0.win 1).blk t).view.emb (ix2 j d)) = _
  refine congrArg (V c rhs0 : S8192x512.Idx → EReal) (funext fun a => Fin.ext ?_)
  match a with
  | ⟨0, _⟩ => show win0_1.index t 0 * 8192 + 1 * j.val = j.val; rw [(index0 t).2.1.1]; omega
  | ⟨1, _⟩ => show win0_1.index t 1 * 512 + 1 * d.val = d.val; rw [(index0 t).2.1.2]; omega

/-- Window 2's block at point t is rows 512 t … 512 t + 511 of the left norms' column. -/
theorem iblk0_2_apply (c : Dev nD) (t : Fin cfg0.N) (r : Fin 512) :
    (iblk0 V c 2 t : Vec Ideal S512x1 .f32) (ix2 r 0) = (V c lnorm0 : S8192x1.Idx → EReal) (ix2 (Cert.Mmd.row (pt0 t) r) 0) := by
  unfold iblk0
  rw [View.read_apply]
  show (V c lnorm0 : S8192x1.Idx → EReal) (((cfg0.win 2).blk t).view.emb (ix2 r 0)) = _
  refine congrArg (V c lnorm0 : S8192x1.Idx → EReal) (funext fun a => Fin.ext ?_)
  match a with
  | ⟨0, _⟩ => show win0_2.index t 0 * 512 + 1 * r.val = 512 * t.val + r.val; rw [(index0 t).2.2.1.1]; omega
  | ⟨1, _⟩ => show win0_2.index t 1 * 1 + 1 * 0 = 0; rw [(index0 t).2.2.1.2]

/-- Window 3's block at every point is the whole row of right norms. -/
theorem iblk0_3_apply (c : Dev nD) (t : Fin cfg0.N) (j : Fin 8192) :
    (iblk0 V c 3 t : Vec Ideal S1x8192 .f32) (ix2 0 j) = (V c rnorm0 : S1x8192.Idx → EReal) (ix2 0 j) := by
  unfold iblk0
  rw [View.read_apply]
  show (V c rnorm0 : S1x8192.Idx → EReal) (((cfg0.win 3).blk t).view.emb (ix2 0 j)) = _
  refine congrArg (V c rnorm0 : S1x8192.Idx → EReal) (funext fun a => Fin.ext ?_)
  match a with
  | ⟨0, _⟩ => show win0_3.index t 0 * 1 + 1 * 0 = 0; rw [(index0 t).2.2.2.1]
  | ⟨1, _⟩ => show win0_3.index t 1 * 8192 + 1 * j.val = j.val; rw [(index0 t).2.2.2.2]; omega

/-! ## The tile's value and the scratch, point by point -/

/-- The tile's value at point t is the pair weights of tile t's rows against all rows, chunk by chunk. -/
theorem tile0_at (c : Dev nD) (t : Fin cfg0.N) :
    tile0 (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _)
      (iblk0 V c 0 t) (iblk0 V c 1 t) (iblk0 V c 2 t) (iblk0 V c 3 t) (ix2 0 0) = Cert.Mmd.tileSum (pairW0 V c) (pt0 t) := by
  refine (tile0_value c (grid0.coords t) (ms0_0 t) (hs0_0 t) (ms0_1 t) (hs0_1 t) (ms0_2 t) (hs0_2 t) (ms0_3 t) (hs0_3 t) (ms0_4 t) (hs0_4 t) scM0 (Memref.isWhole_whole _)
      (iblk0 V c 0 t) (iblk0 V c 1 t) (iblk0 V c 2 t) (iblk0 V c 3 t)).trans ?_
  unfold Cert.Mmd.tileSum Cert.Mmd.chunkSum pairW0 weight0
  refine Finset.sum_congr rfl fun k _ => Finset.sum_congr rfl fun r _ => Finset.sum_congr rfl fun l _ => ?_
  refine congrArg Ideal.exp (congrArg (· * Cert.Mmd.negHalf) ?_)
  refine congrArg₂ (· - ·) (congrArg₂ (· + ·) (iblk0_2_apply V c t r) (iblk0_3_apply V c t (Cert.Mmd.row k l))) ?_
  refine congrArg (Cert.Mmd.two * ·) (Finset.sum_congr rfl fun d _ => ?_)
  exact congrArg₂ (· * ·) (iblk0_0_apply V c t r d) (iblk0_1_apply V c t (Cert.Mmd.row k l) d)

/-- One point's step: what the scratch held plus tile t's pair weights. -/
theorem step0 (c : Dev nD) (t : Fin cfg0.N) (xs : Vec Ideal S1x1 .f32) :
    acc0 (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _)
      (iblk0 V c 0 t) (iblk0 V c 1 t) (iblk0 V c 2 t) (iblk0 V c 3 t) xs (ix2 0 0) = xs (ix2 0 0) + Cert.Mmd.tileSum (pairW0 V c) (pt0 t) :=
  (acc0_value c (grid0.coords t) (ms0_0 t) (hs0_0 t) (ms0_1 t) (hs0_1 t) (ms0_2 t) (hs0_2 t) (ms0_3 t) (hs0_3 t) (ms0_4 t) (hs0_4 t) scM0 (Memref.isWhole_whole _)
      (iblk0 V c 0 t) (iblk0 V c 1 t) (iblk0 V c 2 t) (iblk0 V c 3 t) xs).trans (congrArg (xs (ix2 0 0) + ·) (tile0_at V c t))

/-- After point n the scratch holds the sum of tiles 0..n. -/
theorem scAt0_value (c : Dev nD) (n : ℕ) (hn : n < cfg0.N) :
    scAt0 (F := Ideal) V c n hn (ix2 0 0)
      = ∑ t : Fin (n + 1), Cert.Mmd.tileSum (pairW0 V c) ⟨t.val, by have := t.isLt; have := N16_0; omega⟩ := by
  induction n with
  | zero =>
    rw [show scAt0 (F := Ideal) V c 0 hn = _ from scAt0_first V c ⟨0, hn⟩ rfl, step0, pay1_value, zero_add, Fin.sum_univ_one]
    rfl
  | succ n ih =>
    rw [show scAt0 (F := Ideal) V c (n + 1) hn = _ from scAt0_next V c ⟨n + 1, hn⟩ (Nat.succ_ne_zero n), step0]
    rw [show scAt0 (F := Ideal) V c (n + 1 - 1) _ (ix2 0 0) = _ from ih (Nat.lt_of_succ_lt hn), Fin.sum_univ_castSucc (n := n + 1)]
    rfl

/-! ## The result array -/

/-- The (1,1) index set has one element. -/
theorem idx11_0 (x : S1x1.Idx) : x = ix2 0 0 := by
  funext a
  match a with
  | ⟨0, _⟩ => exact Fin.ext (by have := idx2_lt0 x; show (x 0).val = 0; omega)
  | ⟨1, _⟩ => exact Fin.ext (by have := idx2_lt1 x; show (x 1).val = 0; omega)

/-- The result's block at every point starts at (0, 0) and is (1, 1): the whole array. -/
theorem block0_4 : ∀ t : Fin cfg0.N, (win0_4.index t 0 * win0_4.size 0 = 0 ∧ win0_4.xsize (grid0.coords t) 0 = 1)
    ∧ (win0_4.index t 1 * win0_4.size 1 = 0 ∧ win0_4.xsize (grid0.coords t) 1 = 1) :=
  (by decide +kernel : ∀ t : Fin grid0.N, (win0_4.index t 0 * win0_4.size 0 = 0 ∧ win0_4.xsize (grid0.coords t) 0 = 1)
    ∧ (win0_4.index t 1 * win0_4.size 1 = 0 ∧ win0_4.xsize (grid0.coords t) 1 = 1))

/-- The last point, the only one after which the result is written back. -/
abbrev last0 : Fin cfg0.N := ⟨15, by rw [N16_0]; decide⟩

/-- The result array ends at the sum of the pair weights over the sixteen tiles. -/
theorem result0_value (c : Dev nD) :
    ((dat0 (F := Ideal) V c).arrAt 4 cfg0.N : S1x1.Idx → EReal) = fun _ => ∑ t : Fin 16, Cert.Mmd.tileSum (pairW0 V c) t := by
  refine (dat0 (F := Ideal) V c).arrAt_eq_of_cover 4 (fun _ => (∑ t : Fin 16, Cert.Mmd.tileSum (pairW0 V c) t : EReal)) (fun t hf => ?_)
    (fun i => ⟨last0, (flush0_4 last0).mpr (by decide), ?_⟩)
  · -- the one write-back is after the last point, where the scratch is the sum of all sixteen tiles
    have h15 : t.val = 15 := by have := (flush0_4 t).mp hf; have := t.isLt; have := N16_0; omega
    obtain rfl : t = last0 := Fin.ext h15
    funext x
    rw [View.read_apply]
    show scAt0 (F := Ideal) V c 15 _ _ = ∑ t : Fin 16, Cert.Mmd.tileSum (pairW0 V c) t
    refine (congrArg (scAt0 (F := Ideal) V c 15 _) (idx11_0 _)).trans ?_
    exact (scAt0_value V c 15 _).trans rfl
  · -- that point's block is the whole (1,1) array
    show i ∈ ((View.whole out0).slice (win0_4.rect last0)).set
    rw [View.set_slice_whole, Rect.mem_set_unit]
    intro a
    have h0 : (i 0 : Nat) < 1 := (i 0).isLt
    have h1 : (i 1 : Nat) < 1 := (i 1).isLt
    match a with
    | ⟨0, _⟩ =>
      show win0_4.index last0 0 * win0_4.size 0 ≤ (i 0 : Nat) ∧ (i 0 : Nat) < win0_4.index last0 0 * win0_4.size 0 + win0_4.xsize (grid0.coords last0) 0
      rw [(block0_4 last0).1.1, (block0_4 last0).1.2]; omega
    | ⟨1, _⟩ =>
      show win0_4.index last0 1 * win0_4.size 1 ≤ (i 1 : Nat) ∧ (i 1 : Nat) < win0_4.index last0 1 * win0_4.size 1 + win0_4.xsize (grid0.coords last0) 1
      rw [(block0_4 last0).2.1, (block0_4 last0).2.2]; omega

end Cert.KernelIdeal.HandV

end
-- ==== Proof.KIV.Tile1V.lean ====
/-
  Region 1 (the target-target term): the VALUE of the kernel body at one grid point, on the extended reals.

  One trip of the body's loop holds a 512-row tile x of the left operand with its squared row norms (a column), and loads
  chunk k of the right operand y (rows 512 k … 512 k + 511) with its squared row norms (a row). It forms the 512 x 512
  products x_r · y_l by a product with the transpose into a zero array, the sums of norms by broadcasting the column and
  the row, the weights exp((|x_r|² + |y_l|² - 2 x_r·y_l) · (-1/2)), sums them along the lanes and then along the rows,
  and adds the result to the carried (1,1) value. So a trip adds the chunk's 512 x 512 pair weights to what was carried;
  sixteen trips from zero give the tile's value, the sum over the sixteen chunks; the scratch ends at what it held plus
  the tile's value; and the reset value is zero.
-/
import proofs.«129238_j8907762171929_1_alg».proof.Proof.KI.Body1
import proofs.«129238_j8907762171929_1_alg».proof.Proof.Spec
import proofs.«129238_j8907762171929_1_alg».proof.Proof.LibMatmulTransposedRhs
import proofs.«129238_j8907762171929_1_alg».proof.Proof.LibColumnForms
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Cert.KernelIdeal Cert.KernelIdeal.Gen Cert.KernelIdeal.Hand Idealize.ShloMosaic Idealize.ShloMosaic.ValueIdx

/-! ## One trip's arithmetic -/

/-- One pair's weight inside a trip: entry (r, l) of the exponential of (norms' sum - 2 · products) · (-1/2). -/
theorem weight_apply1 (v3 : FVec Ideal S512x512 .f32) (v4 : Vec Ideal S512x1 .f32) (v19 : FVec Ideal S512x512 .f32) (v21 : Vec Ideal S1x512 .f32) (r l : Fin 512) :
    exp (mulf (subf (addf (broadcastTo S512x512 v4 broadcasts_S512x1_S512x512) (broadcastTo S512x512 v21 broadcasts_S1x512_S512x512))
        (mulf (broadcast S512x512 (Scalar.ofBits .f32 0x40000000#32)) (matmul dot_S512x512_S512x512_S512x512_1_1_0_0_n_n (some .fp32) v3 v19 (constant (F := Ideal) S512x512 .f32 0x00000000#32))))
        (broadcast S512x512 (Scalar.ofBits .f32 0xBF000000#32))) (ix2 r l)
      = Ideal.exp (((v4 (ix2 r 0) + v21 (ix2 0 l)) - Cert.Mmd.two * ∑ d : Fin 512, v3 (ix2 r d) * v19 (ix2 l d)) * Cert.Mmd.negHalf) := by
  show Ideal.exp (((broadcastTo S512x512 v4 broadcasts_S512x1_S512x512 (ix2 r l) + broadcastTo S512x512 v21 broadcasts_S1x512_S512x512 (ix2 r l))
      - Cert.Mmd.two * matmul (DotDims.transposedRhs 512 512 512) (some .fp32) v3 v19 (constant (F := Ideal) S512x512 .f32 0x00000000#32) (ix2 r l)) * Cert.Mmd.negHalf) = _
  rw [Cert.ColumnForms.broadcastTo_a1_ab_apply, broadcastTo_1b_ab_apply, MatmulTransposedRhs.matmul_zero_apply]

/-- One trip's arithmetic at the one index: what was carried, plus the 512 x 512 pair weights of (tile row, chunk row). -/
theorem pay3_value1 (v3 : Vec Ideal S512x512 .f32) (v4 : Vec Ideal S512x1 .f32) (acc : FVec Ideal S1x1 .f32) (v19 : Vec Ideal S512x512 .f32) (v21 : Vec Ideal S1x512 .f32) :
    k1_pay3 v3 v4 acc v19 v21 (ix2 0 0)
      = acc (ix2 0 0) + ∑ r : Fin 512, ∑ l : Fin 512,
          Ideal.exp (((v4 (ix2 r 0) + v21 (ix2 0 l)) - Cert.Mmd.two * ∑ d : Fin 512, v3 (ix2 r d) * v19 (ix2 l d)) * Cert.Mmd.negHalf) := by
  unfold k1_pay3
  simp only [shapeCast_self]
  refine (addf_apply acc _ (ix2 0 0)).trans (congrArg (fun z => acc (ix2 0 0) + z) ?_)
  refine (shapeCast_a_1a_apply _ _ (0 : Fin 1) (0 : Fin 1)).trans ?_
  refine (Ideal.multiReduction_add_single _ _ _ _ _ (ix1 (0 : Fin 1))).trans ?_
  refine Finset.sum_congr rfl fun r _ => ?_
  refine (congrArg _ (Cert.ColumnForms.lift_axis0 reduces_S512x1_S1 (0 : Fin 1) r)).trans ?_
  refine (Cert.ColumnForms.shapeCast_a_a1_apply _ _ r (0 : Fin 1)).trans ?_
  refine (Ideal.multiReduction_add_single _ _ _ _ _ (ix1 r)).trans ?_
  refine Finset.sum_congr rfl fun l _ => ?_
  refine (congrArg _ (Cert.ColumnForms.lift_axis1 reduces_S512x512_S512 r l)).trans ?_
  exact weight_apply1 v3 v4 v19 v21 r l

/-! ## One trip of the loop -/

/-- The loop makes sixteen trips. -/
theorem trips_eq1 : k1_t1_loop.trips = 16 := by decide

/-- One trip is the trip's arithmetic on what its two loads read: the trip's chunk of the right operand and of its norms. -/
theorem trip_open1 (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (v3 : Vec Ideal S512x512 .f32) (v4 : Vec Ideal S512x1 .f32) (X2 : BufTy.Contents (Elt Ideal) arg2.view.ty) (X4 : BufTy.Contents (Elt Ideal) arg4.view.ty)
    (k : Fin k1_t1_loop.trips) (acc : FVec Ideal S1x1 .f32) :
    tripR_k1_t1 (F := Ideal) Variants.none c none i arg1 harg1 arg2 harg2 arg3 harg3 arg4 harg4 arg5 harg5 arg6 harg6 v3 v4 X2 X4 k acc
      = k1_pay3 v3 v4 acc
          (View.ld (arg2.view.read (Elt Ideal) X2) (Rect.unit (s := S8192x512) (k1_off1 k) S512x512.size (k1_off1_inb k)))
          (View.ld (arg4.view.read (Elt Ideal) X4) (Rect.unit (s := S1x8192) (k1_off2 k) S1x512.size (k1_off2_inb k))) := by
  unfold tripR_k1_t1 trip_k1_t1
  rfl

/-- Row l of chunk k of the right operand is its row 512 k + l. -/
theorem ld_chunk1 (x2 : Vec Ideal S8192x512 .f32) (k : Fin k1_t1_loop.trips) (hk : k.val < 16) (l d : Fin 512) :
    View.ld x2 (Rect.unit (s := S8192x512) (k1_off1 k) S512x512.size (k1_off1_inb k)) (ix2 l d)
      = x2 (ix2 (Cert.Mmd.row ⟨k.val, hk⟩ l) d) := by
  refine congrArg x2 (funext fun a => Fin.ext ?_)
  match a with
  | ⟨0, _⟩ =>
    show (k1_off1 k) 0 + 1 * l.val = 512 * k.val + l.val
    rw [k1_off1_eq k]; show 512 * k.val + 1 * l.val = 512 * k.val + l.val; omega
  | ⟨1, _⟩ =>
    show (k1_off1 k) 1 + 1 * d.val = d.val
    rw [k1_off1_eq k]; show 0 + 1 * d.val = d.val; omega

/-- Entry l of chunk k of the right operand's norms is its entry 512 k + l. -/
theorem ld_norms1 (x4 : Vec Ideal S1x8192 .f32) (k : Fin k1_t1_loop.trips) (hk : k.val < 16) (l : Fin 512) :
    View.ld x4 (Rect.unit (s := S1x8192) (k1_off2 k) S1x512.size (k1_off2_inb k)) (ix2 0 l)
      = x4 (ix2 0 (Cert.Mmd.row ⟨k.val, hk⟩ l)) := by
  refine congrArg x4 (funext fun a => Fin.ext ?_)
  match a with
  | ⟨0, _⟩ =>
    show (k1_off2 k) 0 + 1 * 0 = 0
    rw [k1_off2_eq k]; rfl
  | ⟨1, _⟩ =>
    show (k1_off2 k) 1 + 1 * l.val = 512 * k.val + l.val
    rw [k1_off2_eq k]; show 512 * k.val + 1 * l.val = 512 * k.val + l.val; omega

/-- The pair weights of the tile against chunk k of the right operand. -/
def chunkW1 (x1 : Vec Ideal S512x512 .f32) (x2 : Vec Ideal S8192x512 .f32) (x3 : Vec Ideal S512x1 .f32) (x4 : Vec Ideal S1x8192 .f32) (k : Fin 16) : EReal :=
  ∑ r : Fin 512, ∑ l : Fin 512,
    Ideal.exp (((x3 (ix2 r 0) + x4 (ix2 0 (Cert.Mmd.row k l))) - Cert.Mmd.two * ∑ d : Fin 512, x1 (ix2 r d) * x2 (ix2 (Cert.Mmd.row k l) d)) * Cert.Mmd.negHalf)

/-- Trip k adds chunk k's pair weights to what was carried. -/
theorem trip_value1 (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .f32) (x2 : Vec Ideal S8192x512 .f32) (x3 : Vec Ideal S512x1 .f32) (x4 : Vec Ideal S1x8192 .f32) (k : Fin k1_t1_loop.trips) (hk : k.val < 16) (acc : FVec Ideal S1x1 .f32) :
    tripR_k1_t1 (F := Ideal) Variants.none c none i arg1 harg1 arg2 harg2 arg3 harg3 arg4 harg4 arg5 harg5 arg6 harg6 x1 x3 (harg2.unread x2) (harg4.unread x4) k acc (ix2 0 0)
      = acc (ix2 0 0) + chunkW1 x1 x2 x3 x4 ⟨k.val, hk⟩ := by
  rw [trip_open1, harg2.read_unread, harg4.read_unread]
  refine (pay3_value1 _ _ _ _ _).trans (congrArg (fun z => acc (ix2 0 0) + z) ?_)
  unfold chunkW1
  refine Finset.sum_congr rfl fun r _ => Finset.sum_congr rfl fun l _ => ?_
  rw [ld_norms1 x4 k hk l]
  simp only [ld_chunk1 x2 k hk]

/-! ## The sixteen trips -/

/-- The loop's initial value is zero. -/
theorem pay2_value1 : k1_pay2 (F := Ideal) (ix2 0 0) = 0 := by
  unfold k1_pay2
  exact Ideal.ofBits_zero_f32

/-- Before trip n the carried value is the initial one plus the pair weights of the chunks before n. -/
theorem st_value1 (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .f32) (x2 : Vec Ideal S8192x512 .f32) (x3 : Vec Ideal S512x1 .f32) (x4 : Vec Ideal S1x8192 .f32) (init : FVec Ideal S1x1 .f32) (n : ℕ) (hn : n ≤ 16) :
    st_k1_t1 (F := Ideal) Variants.none c none i arg1 harg1 arg2 harg2 arg3 harg3 arg4 harg4 arg5 harg5 arg6 harg6 x1 x3 (harg2.unread x2) (harg4.unread x4) init n (ix2 0 0)
      = init (ix2 0 0) + ∑ k : Fin n, chunkW1 x1 x2 x3 x4 ⟨k.val, lt_of_lt_of_le k.isLt hn⟩ := by
  induction n with
  | zero => rw [st_k1_t1_zero, Finset.univ_eq_empty, Finset.sum_empty, add_zero]
  | succ n ih =>
    have hlt : n < k1_t1_loop.trips := by rw [trips_eq1]; omega
    have e := st_k1_t1_succ (F := Ideal) Variants.none c none i arg1 harg1 arg2 harg2 arg3 harg3 arg4 harg4 arg5 harg5 arg6 harg6 x1 x3 (harg2.unread x2) (harg4.unread x4) init ⟨n, hlt⟩
    refine (congrFun e (ix2 0 0)).trans ?_
    rw [trip_value1 c i arg1 harg1 arg2 harg2 arg3 harg3 arg4 harg4 arg5 harg5 arg6 harg6 x1 x2 x3 x4 ⟨n, hlt⟩ (by show n < 16; omega), ih (by omega), Fin.sum_univ_castSucc, add_assoc]
    rfl

/-- The tile's value: sixteen chunks of 512 rows of the right operand. -/
theorem tile1_value (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .f32) (x2 : Vec Ideal S8192x512 .f32) (x3 : Vec Ideal S512x1 .f32) (x4 : Vec Ideal S1x8192 .f32) :
    tile1 (F := Ideal) c i arg1 harg1 arg2 harg2 arg3 harg3 arg4 harg4 arg5 harg5 arg6 harg6 x1 x2 x3 x4 (ix2 0 0)
      = ∑ k : Fin 16, ∑ r : Fin 512, ∑ l : Fin 512,
          Ideal.exp (((x3 (ix2 r 0) + x4 (ix2 0 (Cert.Mmd.row k l))) - Cert.Mmd.two * ∑ d : Fin 512, x1 (ix2 r d) * x2 (ix2 (Cert.Mmd.row k l) d)) * Cert.Mmd.negHalf) := by
  unfold tile1
  rw [show Scf.trips k1_t1_loop.lb k1_t1_loop.ub k1_t1_loop.st = 16 from trips_eq1,
    st_value1 c i arg1 harg1 arg2 harg2 arg3 harg3 arg4 harg4 arg5 harg5 arg6 harg6 x1 x2 x3 x4 (k1_pay2 (F := Ideal)) 16 le_rfl, pay2_value1, zero_add]
  rfl

/-- The scratch after a point: what it held plus the tile's value. -/
theorem acc1_value (c : Dev nD) (i : grid1.Coords) (arg1 : Memref sig .tc .vmem S512x512 .f32) (harg1 : arg1.IsWhole) (arg2 : Memref sig .tc .vmem S8192x512 .f32) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .f32) (x2 : Vec Ideal S8192x512 .f32) (x3 : Vec Ideal S512x1 .f32) (x4 : Vec Ideal S1x8192 .f32) (xs : Vec Ideal S1x1 .f32) :
    acc1 (F := Ideal) c i arg1 harg1 arg2 harg2 arg3 harg3 arg4 harg4 arg5 harg5 arg6 harg6 x1 x2 x3 x4 xs (ix2 0 0)
      = xs (ix2 0 0) + tile1 (F := Ideal) c i arg1 harg1 arg2 harg2 arg3 harg3 arg4 harg4 arg5 harg5 arg6 harg6 x1 x2 x3 x4 (ix2 0 0) := by
  unfold acc1 k1_pay4
  simp only [shapeCast_self]
  rfl

/-- The reset value is zero. -/
theorem pay1_value1 : k1_pay1 (F := Ideal) (ix2 0 0) = 0 := by
  unfold k1_pay1
  simp only [shapeCast_self]
  exact Ideal.ofBits_zero_f32

end Cert.KernelIdeal.HandV

end
-- ==== Proof.KIV.Region1V.lean ====
/-
  Region 1 (the target-target term): the value it leaves in its (1,1) result, on the extended reals.

  Each grid point's tile is 512 rows of the left operand against all 8192 rows of the right one, so the tile's value is
  the sum of the pair weights exp((|x_i|² + |y_j|² - 2 x_i·y_j) · (-1/2)) over those pairs, the norms and the rows read off
  the region's four input arrays. The scratch after point n is the sum of the tiles 0..n, and the one block written back,
  after the last point, is the scratch: the result array ends at the sum over the sixteen tiles.
-/
import proofs.«129238_j8907762171929_1_alg».proof.Proof.KI.Region1
import proofs.«129238_j8907762171929_1_alg».proof.Proof.KIV.Tile1V
import proofs.«129238_j8907762171929_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.HandV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The region's four input arrays -/

/-- The left operand (tiled), the right operand (whole), the left norms (a column), the right norms (a row). -/
abbrev lhs1 : Ref sig .tc := main_arg1
abbrev rhs1 : Ref sig .tc := main_arg1
abbrev lnorm1 : Ref sig .tc := main_v5
abbrev rnorm1 : Ref sig .tc := main_v7
/-- The (1,1) result. -/
abbrev out1 : Ref sig .tc := main_v12

/-- The weight of a pair of rows from the two operands' entries and squared norms. -/
def weight1 (ln : S8192x1.Idx → EReal) (rn : S1x8192.Idx → EReal) (x y : S8192x512.Idx → EReal) (i j : Fin 8192) : EReal :=
  Ideal.exp (((ln (ix2 i 0) + rn (ix2 0 j)) - Cert.Mmd.two * ∑ d : Fin 512, x (ix2 i d) * y (ix2 j d)) * Cert.Mmd.negHalf)

/-- The weight of the pair (row i of the left operand, row j of the right one), read off the arrays as the region finds them. -/
def pairW1 (c : Dev nD) (i j : Fin 8192) : EReal :=
  weight1 (V c lnorm1) (V c rnorm1) (V c lhs1) (V c rhs1) i j

/-- The grid has sixteen points. -/
theorem N16_1 : cfg1.N = 16 := N_1

/-- A grid point as a tile number. -/
abbrev pt1 (t : Fin cfg1.N) : Fin 16 := t.cast N16_1

/-! ## The input blocks as rows of the arrays -/

/-- The tiled windows' block index at point t is (t, 0); the whole windows' is (0, 0). -/
theorem index1 : ∀ t : Fin cfg1.N, (win1_0.index t 0 = t.val ∧ win1_0.index t 1 = 0) ∧ (win1_1.index t 0 = 0 ∧ win1_1.index t 1 = 0)
    ∧ (win1_2.index t 0 = t.val ∧ win1_2.index t 1 = 0) ∧ (win1_3.index t 0 = 0 ∧ win1_3.index t 1 = 0) :=
  (by decide +kernel : ∀ t : Fin grid1.N, (win1_0.index t 0 = t.val ∧ win1_0.index t 1 = 0) ∧ (win1_1.index t 0 = 0 ∧ win1_1.index t 1 = 0)
    ∧ (win1_2.index t 0 = t.val ∧ win1_2.index t 1 = 0) ∧ (win1_3.index t 0 = 0 ∧ win1_3.index t 1 = 0))

/-- Window 0's block at point t is rows 512 t … 512 t + 511 of the left operand. -/
theorem iblk1_0_apply (c : Dev nD) (t : Fin cfg1.N) (r d : Fin 512) :
    (iblk1 V c 0 t : Vec Ideal S512x512 .f32) (ix2 r d) = (V c lhs1 : S8192x512.Idx → EReal) (ix2 (Cert.Mmd.row (pt1 t) r) d) := by
  unfold iblk1
  rw [View.read_apply]
  show (V c lhs1 : S8192x512.Idx → EReal) (((cfg1.win 0).blk t).view.emb (ix2 r d)) = _
  refine congrArg (V c lhs1 : S8192x512.Idx → EReal) (funext fun a => Fin.ext ?_)
  match a with
  | ⟨0, _⟩ => show win1_0.index t 0 * 512 + 1 * r.val = 512 * t.val + r.val; rw [(index1 t).1.1]; omega
  | ⟨1, _⟩ => show win1_0.index t 1 * 512 + 1 * d.val = d.val; rw [(index1 t).1.2]; omega

/-- Window 1's block at every point is the whole right operand. -/
theorem iblk1_1_apply (c : Dev nD) (t : Fin cfg1.N) (j : Fin 8192) (d : Fin 512) :
    (iblk1 V c 1 t : Vec Ideal S8192x512 .f32) (ix2 j d) = (V c rhs1 : S8192x512.Idx → EReal) (ix2 j d) := by
  unfold iblk1
  rw [View.read_apply]
  show (V c rhs1 : S8192x512.Idx → EReal) (((cfg1.win 1).blk t).view.emb (ix2 j d)) = _
  refine congrArg (V c rhs1 : S8192x512.Idx → EReal) (funext fun a => Fin.ext ?_)
  match a with
  | ⟨0, _⟩ => show win1_1.index t 0 * 8192 + 1 * j.val = j.val; rw [(index1 t).2.1.1]; omega
  | ⟨1, _⟩ => show win1_1.index t 1 * 512 + 1 * d.val = d.val; rw [(index1 t).2.1.2]; omega

/-- Window 2's block at point t is rows 512 t … 512 t + 511 of the left norms' column. -/
theorem iblk1_2_apply (c : Dev nD) (t : Fin cfg1.N) (r : Fin 512) :
    (iblk1 V c 2 t : Vec Ideal S512x1 .f32) (ix2 r 0) = (V c lnorm1 : S8192x1.Idx → EReal) (ix2 (Cert.Mmd.row (pt1 t) r) 0) := by
  unfold iblk1
  rw [View.read_apply]
  show (V c lnorm1 : S8192x1.Idx → EReal) (((cfg1.win 2).blk t).view.emb (ix2 r 0)) = _
  refine congrArg (V c lnorm1 : S8192x1.Idx → EReal) (funext fun a => Fin.ext ?_)
  match a with
  | ⟨0, _⟩ => show win1_2.index t 0 * 512 + 1 * r.val = 512 * t.val + r.val; rw [(index1 t).2.2.1.1]; omega
  | ⟨1, _⟩ => show win1_2.index t 1 * 1 + 1 * 0 = 0; rw [(index1 t).2.2.1.2]

/-- Window 3's block at every point is the whole row of right norms. -/
theorem iblk1_3_apply (c : Dev nD) (t : Fin cfg1.N) (j : Fin 8192) :
    (iblk1 V c 3 t : Vec Ideal S1x8192 .f32) (ix2 0 j) = (V c rnorm1 : S1x8192.Idx → EReal) (ix2 0 j) := by
  unfold iblk1
  rw [View.read_apply]
  show (V c rnorm1 : S1x8192.Idx → EReal) (((cfg1.win 3).blk t).view.emb (ix2 0 j)) = _
  refine congrArg (V c rnorm1 : S1x8192.Idx → EReal) (funext fun a => Fin.ext ?_)
  match a with
  | ⟨0, _⟩ => show win1_3.index t 0 * 1 + 1 * 0 = 0; rw [(index1 t).2.2.2.1]
  | ⟨1, _⟩ => show win1_3.index t 1 * 8192 + 1 * j.val = j.val; rw [(index1 t).2.2.2.2]; omega

/-! ## The tile's value and the scratch, point by point -/

/-- The tile's value at point t is the pair weights of tile t's rows against all rows, chunk by chunk. -/
theorem tile1_at (c : Dev nD) (t : Fin cfg1.N) :
    tile1 (F := Ideal) c (grid1.coords t) (ms1_0 t) (hs1_0 t) (ms1_1 t) (hs1_1 t) (ms1_2 t) (hs1_2 t) (ms1_3 t) (hs1_3 t) (ms1_4 t) (hs1_4 t) scM1 (Memref.isWhole_whole _)
      (iblk1 V c 0 t) (iblk1 V c 1 t) (iblk1 V c 2 t) (iblk1 V c 3 t) (ix2 0 0) = Cert.Mmd.tileSum (pairW1 V c) (pt1 t) := by
  refine (tile1_value c (grid1.coords t) (ms1_0 t) (hs1_0 t) (ms1_1 t) (hs1_1 t) (ms1_2 t) (hs1_2 t) (ms1_3 t) (hs1_3 t) (ms1_4 t) (hs1_4 t) scM1 (Memref.isWhole_whole _)
      (iblk1 V c 0 t) (iblk1 V c 1 t) (iblk1 V c 2 t) (iblk1 V c 3 t)).trans ?_
  unfold Cert.Mmd.tileSum Cert.Mmd.chunkSum pairW1 weight1
  refine Finset.sum_congr rfl fun k _ => Finset.sum_congr rfl fun r _ => Finset.sum_congr rfl fun l _ => ?_
  refine congrArg Ideal.exp (congrArg (· * Cert.Mmd.negHalf) ?_)
  refine congrArg₂ (· - ·) (congrArg₂ (· + ·) (iblk1_2_apply V c t r) (iblk1_3_apply V c t (Cert.Mmd.row k l))) ?_
  refine congrArg (Cert.Mmd.two * ·) (Finset.sum_congr rfl fun d _ => ?_)
  exact congrArg₂ (· * ·) (iblk1_0_apply V c t r d) (iblk1_1_apply V c t (Cert.Mmd.row k l) d)

/-- One point's step: what the scratch held plus tile t's pair weights. -/
theorem step1 (c : Dev nD) (t : Fin cfg1.N) (xs : Vec Ideal S1x1 .f32) :
    acc1 (F := Ideal) c (grid1.coords t) (ms1_0 t) (hs1_0 t) (ms1_1 t) (hs1_1 t) (ms1_2 t) (hs1_2 t) (ms1_3 t) (hs1_3 t) (ms1_4 t) (hs1_4 t) scM1 (Memref.isWhole_whole _)
      (iblk1 V c 0 t) (iblk1 V c 1 t) (iblk1 V c 2 t) (iblk1 V c 3 t) xs (ix2 0 0) = xs (ix2 0 0) + Cert.Mmd.tileSum (pairW1 V c) (pt1 t) :=
  (acc1_value c (grid1.coords t) (ms1_0 t) (hs1_0 t) (ms1_1 t) (hs1_1 t) (ms1_2 t) (hs1_2 t) (ms1_3 t) (hs1_3 t) (ms1_4 t) (hs1_4 t) scM1 (Memref.isWhole_whole _)
      (iblk1 V c 0 t) (iblk1 V c 1 t) (iblk1 V c 2 t) (iblk1 V c 3 t) xs).trans (congrArg (xs (ix2 0 0) + ·) (tile1_at V c t))

/-- After point n the scratch holds the sum of tiles 0..n. -/
theorem scAt1_value (c : Dev nD) (n : ℕ) (hn : n < cfg1.N) :
    scAt1 (F := Ideal) V c n hn (ix2 0 0)
      = ∑ t : Fin (n + 1), Cert.Mmd.tileSum (pairW1 V c) ⟨t.val, by have := t.isLt; have := N16_1; omega⟩ := by
  induction n with
  | zero =>
    rw [show scAt1 (F := Ideal) V c 0 hn = _ from scAt1_first V c ⟨0, hn⟩ rfl, step1, pay1_value1, zero_add, Fin.sum_univ_one]
    rfl
  | succ n ih =>
    rw [show scAt1 (F := Ideal) V c (n + 1) hn = _ from scAt1_next V c ⟨n + 1, hn⟩ (Nat.succ_ne_zero n), step1]
    rw [show scAt1 (F := Ideal) V c (n + 1 - 1) _ (ix2 0 0) = _ from ih (Nat.lt_of_succ_lt hn), Fin.sum_univ_castSucc (n := n + 1)]
    rfl

/-! ## The result array -/

/-- The (1,1) index set has one element. -/
theorem idx11_1 (x : S1x1.Idx) : x = ix2 0 0 := by
  funext a
  match a with
  | ⟨0, _⟩ => exact Fin.ext (by have := idx2_lt0 x; show (x 0).val = 0; omega)
  | ⟨1, _⟩ => exact Fin.ext (by have := idx2_lt1 x; show (x 1).val = 0; omega)

/-- The result's block at every point starts at (0, 0) and is (1, 1): the whole array. -/
theorem block1_4 : ∀ t : Fin cfg1.N, (win1_4.index t 0 * win1_4.size 0 = 0 ∧ win1_4.xsize (grid1.coords t) 0 = 1)
    ∧ (win1_4.index t 1 * win1_4.size 1 = 0 ∧ win1_4.xsize (grid1.coords t) 1 = 1) :=
  (by decide +kernel : ∀ t : Fin grid1.N, (win1_4.index t 0 * win1_4.size 0 = 0 ∧ win1_4.xsize (grid1.coords t) 0 = 1)
    ∧ (win1_4.index t 1 * win1_4.size 1 = 0 ∧ win1_4.xsize (grid1.coords t) 1 = 1))

/-- The last point, the only one after which the result is written back. -/
abbrev last1 : Fin cfg1.N := ⟨15, by rw [N16_1]; decide⟩

/-- The result array ends at the sum of the pair weights over the sixteen tiles. -/
theorem result1_value (c : Dev nD) :
    ((dat1 (F := Ideal) V c).arrAt 4 cfg1.N : S1x1.Idx → EReal) = fun _ => ∑ t : Fin 16, Cert.Mmd.tileSum (pairW1 V c) t := by
  refine (dat1 (F := Ideal) V c).arrAt_eq_of_cover 4 (fun _ => (∑ t : Fin 16, Cert.Mmd.tileSum (pairW1 V c) t : EReal)) (fun t hf => ?_)
    (fun i => ⟨last1, (flush1_4 last1).mpr (by decide), ?_⟩)
  · -- the one write-back is after the last point, where the scratch is the sum of all sixteen tiles
    have h15 : t.val = 15 := by have := (flush1_4 t).mp hf; have := t.isLt; have := N16_1; omega
    obtain rfl : t = last1 := Fin.ext h15
    funext x
    rw [View.read_apply]
    show scAt1 (F := Ideal) V c 15 _ _ = ∑ t : Fin 16, Cert.Mmd.tileSum (pairW1 V c) t
    refine (congrArg (scAt1 (F := Ideal) V c 15 _) (idx11_1 _)).trans ?_
    exact (scAt1_value V c 15 _).trans rfl
  · -- that point's block is the whole (1,1) array
    show i ∈ ((View.whole out1).slice (win1_4.rect last1)).set
    rw [View.set_slice_whole, Rect.mem_set_unit]
    intro a
    have h0 : (i 0 : Nat) < 1 := (i 0).isLt
    have h1 : (i 1 : Nat) < 1 := (i 1).isLt
    match a with
    | ⟨0, _⟩ =>
      show win1_4.index last1 0 * win1_4.size 0 ≤ (i 0 : Nat) ∧ (i 0 : Nat) < win1_4.index last1 0 * win1_4.size 0 + win1_4.xsize (grid1.coords last1) 0
      rw [(block1_4 last1).1.1, (block1_4 last1).1.2]; omega
    | ⟨1, _⟩ =>
      show win1_4.index last1 1 * win1_4.size 1 ≤ (i 1 : Nat) ∧ (i 1 : Nat) < win1_4.index last1 1 * win1_4.size 1 + win1_4.xsize (grid1.coords last1) 1
      rw [(block1_4 last1).2.1, (block1_4 last1).2.2]; omega

end Cert.KernelIdeal.HandV

end
-- ==== Proof.KIV.Tile2V.lean ====
/-
  Region 2 (the source-target term): the VALUE of the kernel body at one grid point, on the extended reals.

  One trip of the body's loop holds a 512-row tile x of the left operand with its squared row norms (a column), and loads
  chunk k of the right operand y (rows 512 k … 512 k + 511) with its squared row norms (a row). It forms the 512 x 512
  products x_r · y_l by a product with the transpose into a zero array, the sums of norms by broadcasting the column and
  the row, the weights exp((|x_r|² + |y_l|² - 2 x_r·y_l) · (-1/2)), sums them along the lanes and then along the rows,
  and adds the result to the carried (1,1) value. So a trip adds the chunk's 512 x 512 pair weights to what was carried;
  sixteen trips from zero give the tile's value, the sum over the sixteen chunks; the scratch ends at what it held plus
  the tile's value; and the reset value is zero.
-/
import proofs.«129238_j8907762171929_1_alg».proof.Proof.KI.Body2
import proofs.«129238_j8907762171929_1_alg».proof.Proof.Spec
import proofs.«129238_j8907762171929_1_alg».proof.Proof.LibMatmulTransposedRhs
import proofs.«129238_j8907762171929_1_alg».proof.Proof.LibColumnForms
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Cert.KernelIdeal Cert.KernelIdeal.Gen Cert.KernelIdeal.Hand Idealize.ShloMosaic Idealize.ShloMosaic.ValueIdx

/-! ## One trip's arithmetic -/

/-- One pair's weight inside a trip: entry (r, l) of the exponential of (norms' sum - 2 · products) · (-1/2). -/
theorem weight_apply2 (v3 : FVec Ideal S512x512 .bf16) (v4 : Vec Ideal S512x1 .f32) (v19 : FVec Ideal S512x512 .bf16) (v21 : Vec Ideal S1x512 .f32) (r l : Fin 512) :
    exp (mulf (subf (addf (broadcastTo S512x512 v4 broadcasts_S512x1_S512x512) (broadcastTo S512x512 v21 broadcasts_S1x512_S512x512))
        (mulf (broadcast S512x512 (Scalar.ofBits .f32 0x40000000#32)) (matmul dot_S512x512_S512x512_S512x512_1_1_0_0_n_n none v3 v19 (constant (F := Ideal) S512x512 .f32 0x00000000#32))))
        (broadcast S512x512 (Scalar.ofBits .f32 0xBF000000#32))) (ix2 r l)
      = Ideal.exp (((v4 (ix2 r 0) + v21 (ix2 0 l)) - Cert.Mmd.two * ∑ d : Fin 512, v3 (ix2 r d) * v19 (ix2 l d)) * Cert.Mmd.negHalf) := by
  show Ideal.exp (((broadcastTo S512x512 v4 broadcasts_S512x1_S512x512 (ix2 r l) + broadcastTo S512x512 v21 broadcasts_S1x512_S512x512 (ix2 r l))
      - Cert.Mmd.two * matmul (DotDims.transposedRhs 512 512 512) none v3 v19 (constant (F := Ideal) S512x512 .f32 0x00000000#32) (ix2 r l)) * Cert.Mmd.negHalf) = _
  rw [Cert.ColumnForms.broadcastTo_a1_ab_apply, broadcastTo_1b_ab_apply, MatmulTransposedRhs.matmul_zero_apply]

/-- One trip's arithmetic at the one index: what was carried, plus the 512 x 512 pair weights of (tile row, chunk row). -/
theorem pay3_value2 (v3 : Vec Ideal S512x512 .bf16) (v4 : Vec Ideal S512x1 .f32) (acc : FVec Ideal S1x1 .f32) (v19 : Vec Ideal S512x512 .bf16) (v21 : Vec Ideal S1x512 .f32) :
    k2_pay3 v3 v4 acc v19 v21 (ix2 0 0)
      = acc (ix2 0 0) + ∑ r : Fin 512, ∑ l : Fin 512,
          Ideal.exp (((v4 (ix2 r 0) + v21 (ix2 0 l)) - Cert.Mmd.two * ∑ d : Fin 512, v3 (ix2 r d) * v19 (ix2 l d)) * Cert.Mmd.negHalf) := by
  unfold k2_pay3
  simp only [shapeCast_self]
  refine (addf_apply acc _ (ix2 0 0)).trans (congrArg (fun z => acc (ix2 0 0) + z) ?_)
  refine (shapeCast_a_1a_apply _ _ (0 : Fin 1) (0 : Fin 1)).trans ?_
  refine (Ideal.multiReduction_add_single _ _ _ _ _ (ix1 (0 : Fin 1))).trans ?_
  refine Finset.sum_congr rfl fun r _ => ?_
  refine (congrArg _ (Cert.ColumnForms.lift_axis0 reduces_S512x1_S1 (0 : Fin 1) r)).trans ?_
  refine (Cert.ColumnForms.shapeCast_a_a1_apply _ _ r (0 : Fin 1)).trans ?_
  refine (Ideal.multiReduction_add_single _ _ _ _ _ (ix1 r)).trans ?_
  refine Finset.sum_congr rfl fun l _ => ?_
  refine (congrArg _ (Cert.ColumnForms.lift_axis1 reduces_S512x512_S512 r l)).trans ?_
  exact weight_apply2 v3 v4 v19 v21 r l

/-! ## One trip of the loop -/

/-- The loop makes sixteen trips. -/
theorem trips_eq2 : k2_t1_loop.trips = 16 := by decide

/-- One trip is the trip's arithmetic on what its two loads read: the trip's chunk of the right operand and of its norms. -/
theorem trip_open2 (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (v3 : Vec Ideal S512x512 .bf16) (v4 : Vec Ideal S512x1 .f32) (X2 : BufTy.Contents (Elt Ideal) arg2.view.ty) (X4 : BufTy.Contents (Elt Ideal) arg4.view.ty)
    (k : Fin k2_t1_loop.trips) (acc : FVec Ideal S1x1 .f32) :
    tripR_k2_t1 (F := Ideal) Variants.none c none i arg1 harg1 arg2 harg2 arg3 harg3 arg4 harg4 arg5 harg5 arg6 harg6 v3 v4 X2 X4 k acc
      = k2_pay3 v3 v4 acc
          (View.ld (arg2.view.read (Elt Ideal) X2) (Rect.unit (s := S8192x512) (k2_off1 k) S512x512.size (k2_off1_inb k)))
          (View.ld (arg4.view.read (Elt Ideal) X4) (Rect.unit (s := S1x8192) (k2_off2 k) S1x512.size (k2_off2_inb k))) := by
  unfold tripR_k2_t1 trip_k2_t1
  rfl

/-- Row l of chunk k of the right operand is its row 512 k + l. -/
theorem ld_chunk2 (x2 : Vec Ideal S8192x512 .bf16) (k : Fin k2_t1_loop.trips) (hk : k.val < 16) (l d : Fin 512) :
    View.ld x2 (Rect.unit (s := S8192x512) (k2_off1 k) S512x512.size (k2_off1_inb k)) (ix2 l d)
      = x2 (ix2 (Cert.Mmd.row ⟨k.val, hk⟩ l) d) := by
  refine congrArg x2 (funext fun a => Fin.ext ?_)
  match a with
  | ⟨0, _⟩ =>
    show (k2_off1 k) 0 + 1 * l.val = 512 * k.val + l.val
    rw [k2_off1_eq k]; show 512 * k.val + 1 * l.val = 512 * k.val + l.val; omega
  | ⟨1, _⟩ =>
    show (k2_off1 k) 1 + 1 * d.val = d.val
    rw [k2_off1_eq k]; show 0 + 1 * d.val = d.val; omega

/-- Entry l of chunk k of the right operand's norms is its entry 512 k + l. -/
theorem ld_norms2 (x4 : Vec Ideal S1x8192 .f32) (k : Fin k2_t1_loop.trips) (hk : k.val < 16) (l : Fin 512) :
    View.ld x4 (Rect.unit (s := S1x8192) (k2_off2 k) S1x512.size (k2_off2_inb k)) (ix2 0 l)
      = x4 (ix2 0 (Cert.Mmd.row ⟨k.val, hk⟩ l)) := by
  refine congrArg x4 (funext fun a => Fin.ext ?_)
  match a with
  | ⟨0, _⟩ =>
    show (k2_off2 k) 0 + 1 * 0 = 0
    rw [k2_off2_eq k]; rfl
  | ⟨1, _⟩ =>
    show (k2_off2 k) 1 + 1 * l.val = 512 * k.val + l.val
    rw [k2_off2_eq k]; show 512 * k.val + 1 * l.val = 512 * k.val + l.val; omega

/-- The pair weights of the tile against chunk k of the right operand. -/
def chunkW2 (x1 : Vec Ideal S512x512 .bf16) (x2 : Vec Ideal S8192x512 .bf16) (x3 : Vec Ideal S512x1 .f32) (x4 : Vec Ideal S1x8192 .f32) (k : Fin 16) : EReal :=
  ∑ r : Fin 512, ∑ l : Fin 512,
    Ideal.exp (((x3 (ix2 r 0) + x4 (ix2 0 (Cert.Mmd.row k l))) - Cert.Mmd.two * ∑ d : Fin 512, x1 (ix2 r d) * x2 (ix2 (Cert.Mmd.row k l) d)) * Cert.Mmd.negHalf)

/-- Trip k adds chunk k's pair weights to what was carried. -/
theorem trip_value2 (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .bf16) (x2 : Vec Ideal S8192x512 .bf16) (x3 : Vec Ideal S512x1 .f32) (x4 : Vec Ideal S1x8192 .f32) (k : Fin k2_t1_loop.trips) (hk : k.val < 16) (acc : FVec Ideal S1x1 .f32) :
    tripR_k2_t1 (F := Ideal) Variants.none c none i arg1 harg1 arg2 harg2 arg3 harg3 arg4 harg4 arg5 harg5 arg6 harg6 x1 x3 (harg2.unread x2) (harg4.unread x4) k acc (ix2 0 0)
      = acc (ix2 0 0) + chunkW2 x1 x2 x3 x4 ⟨k.val, hk⟩ := by
  rw [trip_open2, harg2.read_unread, harg4.read_unread]
  refine (pay3_value2 _ _ _ _ _).trans (congrArg (fun z => acc (ix2 0 0) + z) ?_)
  unfold chunkW2
  refine Finset.sum_congr rfl fun r _ => Finset.sum_congr rfl fun l _ => ?_
  rw [ld_norms2 x4 k hk l]
  simp only [ld_chunk2 x2 k hk]

/-! ## The sixteen trips -/

/-- The loop's initial value is zero. -/
theorem pay2_value2 : k2_pay2 (F := Ideal) (ix2 0 0) = 0 := by
  unfold k2_pay2
  exact Ideal.ofBits_zero_f32

/-- Before trip n the carried value is the initial one plus the pair weights of the chunks before n. -/
theorem st_value2 (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .bf16) (x2 : Vec Ideal S8192x512 .bf16) (x3 : Vec Ideal S512x1 .f32) (x4 : Vec Ideal S1x8192 .f32) (init : FVec Ideal S1x1 .f32) (n : ℕ) (hn : n ≤ 16) :
    st_k2_t1 (F := Ideal) Variants.none c none i arg1 harg1 arg2 harg2 arg3 harg3 arg4 harg4 arg5 harg5 arg6 harg6 x1 x3 (harg2.unread x2) (harg4.unread x4) init n (ix2 0 0)
      = init (ix2 0 0) + ∑ k : Fin n, chunkW2 x1 x2 x3 x4 ⟨k.val, lt_of_lt_of_le k.isLt hn⟩ := by
  induction n with
  | zero => rw [st_k2_t1_zero, Finset.univ_eq_empty, Finset.sum_empty, add_zero]
  | succ n ih =>
    have hlt : n < k2_t1_loop.trips := by rw [trips_eq2]; omega
    have e := st_k2_t1_succ (F := Ideal) Variants.none c none i arg1 harg1 arg2 harg2 arg3 harg3 arg4 harg4 arg5 harg5 arg6 harg6 x1 x3 (harg2.unread x2) (harg4.unread x4) init ⟨n, hlt⟩
    refine (congrFun e (ix2 0 0)).trans ?_
    rw [trip_value2 c i arg1 harg1 arg2 harg2 arg3 harg3 arg4 harg4 arg5 harg5 arg6 harg6 x1 x2 x3 x4 ⟨n, hlt⟩ (by show n < 16; omega), ih (by omega), Fin.sum_univ_castSucc, add_assoc]
    rfl

/-- The tile's value: sixteen chunks of 512 rows of the right operand. -/
theorem tile2_value (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .bf16) (x2 : Vec Ideal S8192x512 .bf16) (x3 : Vec Ideal S512x1 .f32) (x4 : Vec Ideal S1x8192 .f32) :
    tile2 (F := Ideal) c i arg1 harg1 arg2 harg2 arg3 harg3 arg4 harg4 arg5 harg5 arg6 harg6 x1 x2 x3 x4 (ix2 0 0)
      = ∑ k : Fin 16, ∑ r : Fin 512, ∑ l : Fin 512,
          Ideal.exp (((x3 (ix2 r 0) + x4 (ix2 0 (Cert.Mmd.row k l))) - Cert.Mmd.two * ∑ d : Fin 512, x1 (ix2 r d) * x2 (ix2 (Cert.Mmd.row k l) d)) * Cert.Mmd.negHalf) := by
  unfold tile2
  rw [show Scf.trips k2_t1_loop.lb k2_t1_loop.ub k2_t1_loop.st = 16 from trips_eq2,
    st_value2 c i arg1 harg1 arg2 harg2 arg3 harg3 arg4 harg4 arg5 harg5 arg6 harg6 x1 x2 x3 x4 (k2_pay2 (F := Ideal)) 16 le_rfl, pay2_value2, zero_add]
  rfl

/-- The scratch after a point: what it held plus the tile's value. -/
theorem acc2_value (c : Dev nD) (i : grid2.Coords) (arg1 : Memref sig .tc .vmem S512x512 .bf16) (harg1 : arg1.IsWhole) (arg2 : Memref sig .tc .vmem S8192x512 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S1x1 .f32) (harg5 : arg5.IsWhole) (arg6 : Memref sig .tc .vmem S1x1 .f32) (harg6 : arg6.IsWhole)
    (x1 : Vec Ideal S512x512 .bf16) (x2 : Vec Ideal S8192x512 .bf16) (x3 : Vec Ideal S512x1 .f32) (x4 : Vec Ideal S1x8192 .f32) (xs : Vec Ideal S1x1 .f32) :
    acc2 (F := Ideal) c i arg1 harg1 arg2 harg2 arg3 harg3 arg4 harg4 arg5 harg5 arg6 harg6 x1 x2 x3 x4 xs (ix2 0 0)
      = xs (ix2 0 0) + tile2 (F := Ideal) c i arg1 harg1 arg2 harg2 arg3 harg3 arg4 harg4 arg5 harg5 arg6 harg6 x1 x2 x3 x4 (ix2 0 0) := by
  unfold acc2 k2_pay4
  simp only [shapeCast_self]
  rfl

/-- The reset value is zero. -/
theorem pay1_value2 : k2_pay1 (F := Ideal) (ix2 0 0) = 0 := by
  unfold k2_pay1
  simp only [shapeCast_self]
  exact Ideal.ofBits_zero_f32

end Cert.KernelIdeal.HandV

end
-- ==== Proof.KIV.Region2V.lean ====
/-
  Region 2 (the source-target term): the value it leaves in its (1,1) result, on the extended reals.

  Each grid point's tile is 512 rows of the left operand against all 8192 rows of the right one, so the tile's value is
  the sum of the pair weights exp((|x_i|² + |y_j|² - 2 x_i·y_j) · (-1/2)) over those pairs, the norms and the rows read off
  the region's four input arrays. The scratch after point n is the sum of the tiles 0..n, and the one block written back,
  after the last point, is the scratch: the result array ends at the sum over the sixteen tiles.
-/
import proofs.«129238_j8907762171929_1_alg».proof.Proof.KI.Region2
import proofs.«129238_j8907762171929_1_alg».proof.Proof.KIV.Tile2V
import proofs.«129238_j8907762171929_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.HandV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The region's four input arrays -/

/-- The left operand (tiled), the right operand (whole), the left norms (a column), the right norms (a row). -/
abbrev lhs2 : Ref sig .tc := main_v8
abbrev rhs2 : Ref sig .tc := main_v9
abbrev lnorm2 : Ref sig .tc := main_v2
abbrev rnorm2 : Ref sig .tc := main_v7
/-- The (1,1) result. -/
abbrev out2 : Ref sig .tc := main_v14

/-- The weight of a pair of rows from the two operands' entries and squared norms. -/
def weight2 (ln : S8192x1.Idx → EReal) (rn : S1x8192.Idx → EReal) (x y : S8192x512.Idx → EReal) (i j : Fin 8192) : EReal :=
  Ideal.exp (((ln (ix2 i 0) + rn (ix2 0 j)) - Cert.Mmd.two * ∑ d : Fin 512, x (ix2 i d) * y (ix2 j d)) * Cert.Mmd.negHalf)

/-- The weight of the pair (row i of the left operand, row j of the right one), read off the arrays as the region finds them. -/
def pairW2 (c : Dev nD) (i j : Fin 8192) : EReal :=
  weight2 (V c lnorm2) (V c rnorm2) (V c lhs2) (V c rhs2) i j

/-- The grid has sixteen points. -/
theorem N16_2 : cfg2.N = 16 := N_2

/-- A grid point as a tile number. -/
abbrev pt2 (t : Fin cfg2.N) : Fin 16 := t.cast N16_2

/-! ## The input blocks as rows of the arrays -/

/-- The tiled windows' block index at point t is (t, 0); the whole windows' is (0, 0). -/
theorem index2 : ∀ t : Fin cfg2.N, (win2_0.index t 0 = t.val ∧ win2_0.index t 1 = 0) ∧ (win2_1.index t 0 = 0 ∧ win2_1.index t 1 = 0)
    ∧ (win2_2.index t 0 = t.val ∧ win2_2.index t 1 = 0) ∧ (win2_3.index t 0 = 0 ∧ win2_3.index t 1 = 0) :=
  (by decide +kernel : ∀ t : Fin grid2.N, (win2_0.index t 0 = t.val ∧ win2_0.index t 1 = 0) ∧ (win2_1.index t 0 = 0 ∧ win2_1.index t 1 = 0)
    ∧ (win2_2.index t 0 = t.val ∧ win2_2.index t 1 = 0) ∧ (win2_3.index t 0 = 0 ∧ win2_3.index t 1 = 0))

/-- Window 0's block at point t is rows 512 t … 512 t + 511 of the left operand. -/
theorem iblk2_0_apply (c : Dev nD) (t : Fin cfg2.N) (r d : Fin 512) :
    (iblk2 V c 0 t : Vec Ideal S512x512 .bf16) (ix2 r d) = (V c lhs2 : S8192x512.Idx → EReal) (ix2 (Cert.Mmd.row (pt2 t) r) d) := by
  unfold iblk2
  rw [View.read_apply]
  show (V c lhs2 : S8192x512.Idx → EReal) (((cfg2.win 0).blk t).view.emb (ix2 r d)) = _
  refine congrArg (V c lhs2 : S8192x512.Idx → EReal) (funext fun a => Fin.ext ?_)
  match a with
  | ⟨0, _⟩ => show win2_0.index t 0 * 512 + 1 * r.val = 512 * t.val + r.val; rw [(index2 t).1.1]; omega
  | ⟨1, _⟩ => show win2_0.index t 1 * 512 + 1 * d.val = d.val; rw [(index2 t).1.2]; omega

/-- Window 1's block at every point is the whole right operand. -/
theorem iblk2_1_apply (c : Dev nD) (t : Fin cfg2.N) (j : Fin 8192) (d : Fin 512) :
    (iblk2 V c 1 t : Vec Ideal S8192x512 .bf16) (ix2 j d) = (V c rhs2 : S8192x512.Idx → EReal) (ix2 j d) := by
  unfold iblk2
  rw [View.read_apply]
  show (V c rhs2 : S8192x512.Idx → EReal) (((cfg2.win 1).blk t).view.emb (ix2 j d)) = _
  refine congrArg (V c rhs2 : S8192x512.Idx → EReal) (funext fun a => Fin.ext ?_)
  match a with
  | ⟨0, _⟩ => show win2_1.index t 0 * 8192 + 1 * j.val = j.val; rw [(index2 t).2.1.1]; omega
  | ⟨1, _⟩ => show win2_1.index t 1 * 512 + 1 * d.val = d.val; rw [(index2 t).2.1.2]; omega

/-- Window 2's block at point t is rows 512 t … 512 t + 511 of the left norms' column. -/
theorem iblk2_2_apply (c : Dev nD) (t : Fin cfg2.N) (r : Fin 512) :
    (iblk2 V c 2 t : Vec Ideal S512x1 .f32) (ix2 r 0) = (V c lnorm2 : S8192x1.Idx → EReal) (ix2 (Cert.Mmd.row (pt2 t) r) 0) := by
  unfold iblk2
  rw [View.read_apply]
  show (V c lnorm2 : S8192x1.Idx → EReal) (((cfg2.win 2).blk t).view.emb (ix2 r 0)) = _
  refine congrArg (V c lnorm2 : S8192x1.Idx → EReal) (funext fun a => Fin.ext ?_)
  match a with
  | ⟨0, _⟩ => show win2_2.index t 0 * 512 + 1 * r.val = 512 * t.val + r.val; rw [(index2 t).2.2.1.1]; omega
  | ⟨1, _⟩ => show win2_2.index t 1 * 1 + 1 * 0 = 0; rw [(index2 t).2.2.1.2]

/-- Window 3's block at every point is the whole row of right norms. -/
theorem iblk2_3_apply (c : Dev nD) (t : Fin cfg2.N) (j : Fin 8192) :
    (iblk2 V c 3 t : Vec Ideal S1x8192 .f32) (ix2 0 j) = (V c rnorm2 : S1x8192.Idx → EReal) (ix2 0 j) := by
  unfold iblk2
  rw [View.read_apply]
  show (V c rnorm2 : S1x8192.Idx → EReal) (((cfg2.win 3).blk t).view.emb (ix2 0 j)) = _
  refine congrArg (V c rnorm2 : S1x8192.Idx → EReal) (funext fun a => Fin.ext ?_)
  match a with
  | ⟨0, _⟩ => show win2_3.index t 0 * 1 + 1 * 0 = 0; rw [(index2 t).2.2.2.1]
  | ⟨1, _⟩ => show win2_3.index t 1 * 8192 + 1 * j.val = j.val; rw [(index2 t).2.2.2.2]; omega

/-! ## The tile's value and the scratch, point by point -/

/-- The tile's value at point t is the pair weights of tile t's rows against all rows, chunk by chunk. -/
theorem tile2_at (c : Dev nD) (t : Fin cfg2.N) :
    tile2 (F := Ideal) c (grid2.coords t) (ms2_0 t) (hs2_0 t) (ms2_1 t) (hs2_1 t) (ms2_2 t) (hs2_2 t) (ms2_3 t) (hs2_3 t) (ms2_4 t) (hs2_4 t) scM2 (Memref.isWhole_whole _)
      (iblk2 V c 0 t) (iblk2 V c 1 t) (iblk2 V c 2 t) (iblk2 V c 3 t) (ix2 0 0) = Cert.Mmd.tileSum (pairW2 V c) (pt2 t) := by
  refine (tile2_value c (grid2.coords t) (ms2_0 t) (hs2_0 t) (ms2_1 t) (hs2_1 t) (ms2_2 t) (hs2_2 t) (ms2_3 t) (hs2_3 t) (ms2_4 t) (hs2_4 t) scM2 (Memref.isWhole_whole _)
      (iblk2 V c 0 t) (iblk2 V c 1 t) (iblk2 V c 2 t) (iblk2 V c 3 t)).trans ?_
  unfold Cert.Mmd.tileSum Cert.Mmd.chunkSum pairW2 weight2
  refine Finset.sum_congr rfl fun k _ => Finset.sum_congr rfl fun r _ => Finset.sum_congr rfl fun l _ => ?_
  refine congrArg Ideal.exp (congrArg (· * Cert.Mmd.negHalf) ?_)
  refine congrArg₂ (· - ·) (congrArg₂ (· + ·) (iblk2_2_apply V c t r) (iblk2_3_apply V c t (Cert.Mmd.row k l))) ?_
  refine congrArg (Cert.Mmd.two * ·) (Finset.sum_congr rfl fun d _ => ?_)
  exact congrArg₂ (· * ·) (iblk2_0_apply V c t r d) (iblk2_1_apply V c t (Cert.Mmd.row k l) d)

/-- One point's step: what the scratch held plus tile t's pair weights. -/
theorem step2 (c : Dev nD) (t : Fin cfg2.N) (xs : Vec Ideal S1x1 .f32) :
    acc2 (F := Ideal) c (grid2.coords t) (ms2_0 t) (hs2_0 t) (ms2_1 t) (hs2_1 t) (ms2_2 t) (hs2_2 t) (ms2_3 t) (hs2_3 t) (ms2_4 t) (hs2_4 t) scM2 (Memref.isWhole_whole _)
      (iblk2 V c 0 t) (iblk2 V c 1 t) (iblk2 V c 2 t) (iblk2 V c 3 t) xs (ix2 0 0) = xs (ix2 0 0) + Cert.Mmd.tileSum (pairW2 V c) (pt2 t) :=
  (acc2_value c (grid2.coords t) (ms2_0 t) (hs2_0 t) (ms2_1 t) (hs2_1 t) (ms2_2 t) (hs2_2 t) (ms2_3 t) (hs2_3 t) (ms2_4 t) (hs2_4 t) scM2 (Memref.isWhole_whole _)
      (iblk2 V c 0 t) (iblk2 V c 1 t) (iblk2 V c 2 t) (iblk2 V c 3 t) xs).trans (congrArg (xs (ix2 0 0) + ·) (tile2_at V c t))

/-- After point n the scratch holds the sum of tiles 0..n. -/
theorem scAt2_value (c : Dev nD) (n : ℕ) (hn : n < cfg2.N) :
    scAt2 (F := Ideal) V c n hn (ix2 0 0)
      = ∑ t : Fin (n + 1), Cert.Mmd.tileSum (pairW2 V c) ⟨t.val, by have := t.isLt; have := N16_2; omega⟩ := by
  induction n with
  | zero =>
    rw [show scAt2 (F := Ideal) V c 0 hn = _ from scAt2_first V c ⟨0, hn⟩ rfl, step2, pay1_value2, zero_add, Fin.sum_univ_one]
    rfl
  | succ n ih =>
    rw [show scAt2 (F := Ideal) V c (n + 1) hn = _ from scAt2_next V c ⟨n + 1, hn⟩ (Nat.succ_ne_zero n), step2]
    rw [show scAt2 (F := Ideal) V c (n + 1 - 1) _ (ix2 0 0) = _ from ih (Nat.lt_of_succ_lt hn), Fin.sum_univ_castSucc (n := n + 1)]
    rfl

/-! ## The result array -/

/-- The (1,1) index set has one element. -/
theorem idx11_2 (x : S1x1.Idx) : x = ix2 0 0 := by
  funext a
  match a with
  | ⟨0, _⟩ => exact Fin.ext (by have := idx2_lt0 x; show (x 0).val = 0; omega)
  | ⟨1, _⟩ => exact Fin.ext (by have := idx2_lt1 x; show (x 1).val = 0; omega)

/-- The result's block at every point starts at (0, 0) and is (1, 1): the whole array. -/
theorem block2_4 : ∀ t : Fin cfg2.N, (win2_4.index t 0 * win2_4.size 0 = 0 ∧ win2_4.xsize (grid2.coords t) 0 = 1)
    ∧ (win2_4.index t 1 * win2_4.size 1 = 0 ∧ win2_4.xsize (grid2.coords t) 1 = 1) :=
  (by decide +kernel : ∀ t : Fin grid2.N, (win2_4.index t 0 * win2_4.size 0 = 0 ∧ win2_4.xsize (grid2.coords t) 0 = 1)
    ∧ (win2_4.index t 1 * win2_4.size 1 = 0 ∧ win2_4.xsize (grid2.coords t) 1 = 1))

/-- The last point, the only one after which the result is written back. -/
abbrev last2 : Fin cfg2.N := ⟨15, by rw [N16_2]; decide⟩

/-- The result array ends at the sum of the pair weights over the sixteen tiles. -/
theorem result2_value (c : Dev nD) :
    ((dat2 (F := Ideal) V c).arrAt 4 cfg2.N : S1x1.Idx → EReal) = fun _ => ∑ t : Fin 16, Cert.Mmd.tileSum (pairW2 V c) t := by
  refine (dat2 (F := Ideal) V c).arrAt_eq_of_cover 4 (fun _ => (∑ t : Fin 16, Cert.Mmd.tileSum (pairW2 V c) t : EReal)) (fun t hf => ?_)
    (fun i => ⟨last2, (flush2_4 last2).mpr (by decide), ?_⟩)
  · -- the one write-back is after the last point, where the scratch is the sum of all sixteen tiles
    have h15 : t.val = 15 := by have := (flush2_4 t).mp hf; have := t.isLt; have := N16_2; omega
    obtain rfl : t = last2 := Fin.ext h15
    funext x
    rw [View.read_apply]
    show scAt2 (F := Ideal) V c 15 _ _ = ∑ t : Fin 16, Cert.Mmd.tileSum (pairW2 V c) t
    refine (congrArg (scAt2 (F := Ideal) V c 15 _) (idx11_2 _)).trans ?_
    exact (scAt2_value V c 15 _).trans rfl
  · -- that point's block is the whole (1,1) array
    show i ∈ ((View.whole out2).slice (win2_4.rect last2)).set
    rw [View.set_slice_whole, Rect.mem_set_unit]
    intro a
    have h0 : (i 0 : Nat) < 1 := (i 0).isLt
    have h1 : (i 1 : Nat) < 1 := (i 1).isLt
    match a with
    | ⟨0, _⟩ =>
      show win2_4.index last2 0 * win2_4.size 0 ≤ (i 0 : Nat) ∧ (i 0 : Nat) < win2_4.index last2 0 * win2_4.size 0 + win2_4.xsize (grid2.coords last2) 0
      rw [(block2_4 last2).1.1, (block2_4 last2).1.2]; omega
    | ⟨1, _⟩ =>
      show win2_4.index last2 1 * win2_4.size 1 ≤ (i 1 : Nat) ∧ (i 1 : Nat) < win2_4.index last2 1 * win2_4.size 1 + win2_4.xsize (grid2.coords last2) 1
      rw [(block2_4 last2).2.1, (block2_4 last2).2.2]; omega

end Cert.KernelIdeal.HandV

end
-- ==== Proof.KIV.Host.lean ====
/-
  The host stretches of the kernel program, read at the ideal values.

  Before the first region the host forms, for each operand x, the squared row norms |x_i|² (the sum over the row of the
  squares, started at zero) as a column [8192, 1] and, transposed, as a row [1, 8192], and a copy of each operand in a
  narrower float format, which at the ideal values is the operand itself. A region changes its own (1,1) result only and
  the reshape after it writes one scalar only, so each region finds the operands and the norms as the first stretch left
  them. The closing arithmetic takes the three (1,1) results r0, r1, r2, recast to scalars, to
  (r0/N + r1/N) - (2·r2)/N.
-/
import proofs.«129238_j8907762171929_1_alg».proof.Proof.KI.Data
import proofs.«129238_j8907762171929_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HandV

open Idealize.ShloMosaic Idealize.ShloMosaic.TcCoe Idealize.SL.Sem Idealize.ShloMosaic.ValueIdx
open Cert.KernelIdeal Cert.KernelIdeal.Gen Cert.KernelIdeal.Hand

/-- An [8192, 512] array at the ideal values. -/
abbrev Arr : Type := FVec Ideal S8192x512 .f32

/-! ## The host's forms, over variables, read at an index -/

/-- The sum over a row of the squares, started at zero, is the specification's squared row norm. -/
theorem norms_apply (x : Arr) (i : Fin 8192) :
    Host.reduceAdd (F := Ideal) (mulf x x) (constant (F := Ideal) S_ .f32 0x00000000#32) reducesTo_S8192x512_S8192_d1 h_S_ (ix1 i)
      = Cert.Mmd.sqnorm x i := by
  simp only [Host.reduceAdd, Ideal.hostReduceAdd_def]
  rw [Ideal.hostReduceAdd_single reducesTo_S8192x512_S8192_d1 (by decide), constant_apply, Ideal.ofBits_zero_f32, zero_add]
  unfold Cert.Mmd.sqnorm
  refine Finset.sum_congr rfl fun k _ => ?_
  have e : (by decide : S8192x512.Reduces [1] S8192).lift (ix1 i) k = ix2 i k :=
    funext fun a => Fin.ext (by match a with | ⟨0, _⟩ => rfl | ⟨1, _⟩ => rfl)
  exact congrArg (fun z => x z * x z) e

/-- A vector spread to a column reads, at (i, 0), the vector at i. -/
theorem column_apply (v : FVec Ideal S8192 .f32) (i : Fin 8192) :
    broadcastInDim S8192x1 ![0] bcast_S8192_S8192x1_0 v (ix2 i 0) = v (ix1 i) :=
  broadcastInDim_apply _ bcast_S8192_S8192x1_0 v (ix2 i 0) (ix1 i) (fun a => match a with
    | ⟨0, _⟩ => by show i.val = if (8192 : Nat) = 1 then 0 else i.val; rw [if_neg (by decide)])

/-- A column transposed to a row reads, at (0, j), the column at (j, 0). -/
theorem row_apply (w : FVec Ideal S8192x1 .f32) (j : Fin 8192) :
    transpose S1x8192 [1, 0] w transposes_S8192x1_S1x8192_1_0 (ix2 0 j) = w (ix2 j 0) :=
  transpose_apply [1, 0] w transposes_S8192x1_S1x8192_1_0 (ix2 0 j) (ix2 j 0) (fun b => match b with
    | ⟨0, _⟩ => rfl
    | ⟨1, _⟩ => rfl)

/-- A (1,1) array recast to a scalar holds its one element. -/
theorem scalar_apply (v : FVec Ideal S1x1 .f32) : shapeCast S_ v shapeCasts_S1x1_S_ = fun _ => v (ix2 0 0) :=
  funext fun i => shapeCast_apply v shapeCasts_S1x1_S_ i (ix2 0 0) (by
    rw [Shape.rowMajor_val_two]
    exact (Shape.rowMajorPi_zero _ i).symm)

variable (m : (ℓ : Loc nD τ sig) → Buf (Elt Ideal) ℓ) (c : Dev nD)

/-! ## What the later items leave unchanged -/

/-- Region 0 changes its result buffer only. -/
theorem W2_of (r : Ref sig .tc) (h : r ∉ ([main_v10] : List (Ref sig .tc))) : W2 m c r = W1 m c r := by
  unfold W2
  exact Function.update_of_ne (StableHlo.devRef_ne_of_ne (List.ne_of_not_mem_cons h)) _ _
/-- Region 1 changes its result buffer only. -/
theorem W4_of (r : Ref sig .tc) (h : r ∉ ([main_v12] : List (Ref sig .tc))) : W4 m c r = W3 m c r := by
  unfold W4
  exact Function.update_of_ne (StableHlo.devRef_ne_of_ne (List.ne_of_not_mem_cons h)) _ _
/-- Region 2 changes its result buffer only. -/
theorem W6_of (r : Ref sig .tc) (h : r ∉ ([main_v14] : List (Ref sig .tc))) : W6 m c r = W5 m c r := by
  unfold W6
  exact Function.update_of_ne (StableHlo.devRef_ne_of_ne (List.ne_of_not_mem_cons h)) _ _

/-- From region 0's entry to region 1's: region 0 and the reshape of its result. -/
theorem U3_of (r : Ref sig .tc) (h1 : r ∉ Gen.hostOps1_W) (h0 : r ∉ ([main_v10] : List (Ref sig .tc))) : U3 m c r = U1 m c r :=
  (StableHlo.after_of_writes_sub (hostOps1 (F := Ideal)) _ Gen.hostOps1_writes h1).trans (W2_of m c r h0)
/-- From region 1's entry to region 2's: region 1 and the reshape of its result. -/
theorem U5_of (r : Ref sig .tc) (h1 : r ∉ Gen.hostOps2_W) (h0 : r ∉ ([main_v12] : List (Ref sig .tc))) : U5 m c r = U3 m c r :=
  (StableHlo.after_of_writes_sub (hostOps2 (F := Ideal)) _ Gen.hostOps2_writes h1).trans (W4_of m c r h0)

/-! ## The first host stretch: the operands, their squared norms as a column and as a row -/

theorem U1_arg0 : (U1 m c main_arg0 : S8192x512.Idx → EReal) = m ((c.tc : Thread nD τ).loc main_arg0) :=
  (Gen.V1_of m c main_arg0 (by decide)).trans rfl
theorem U1_arg1 : (U1 m c main_arg1 : S8192x512.Idx → EReal) = m ((c.tc : Thread nD τ).loc main_arg1) :=
  (Gen.V1_of m c main_arg1 (by decide)).trans rfl

theorem U1_v2 : (U1 m c main_v2 : S8192x1.Idx → EReal) = broadcastInDim S8192x1 ![0] bcast_S8192_S8192x1_0
    (Host.reduceAdd (F := Ideal) (mulf (m ((c.tc : Thread nD τ).loc main_arg0)) (m ((c.tc : Thread nD τ).loc main_arg0)))
      (constant (F := Ideal) S_ .f32 0x00000000#32) reducesTo_S8192x512_S8192_d1 h_S_) := by
  show StableHlo.after hostOps0 _ (Proc.devRef .tc main_v2) = _
  after_results
theorem U1_v5 : (U1 m c main_v5 : S8192x1.Idx → EReal) = broadcastInDim S8192x1 ![0] bcast_S8192_S8192x1_0
    (Host.reduceAdd (F := Ideal) (mulf (m ((c.tc : Thread nD τ).loc main_arg1)) (m ((c.tc : Thread nD τ).loc main_arg1)))
      (constant (F := Ideal) S_ .f32 0x00000000#32) reducesTo_S8192x512_S8192_d1 h_S_) := by
  show StableHlo.after hostOps0 _ (Proc.devRef .tc main_v5) = _
  after_results
theorem U1_v6 : (U1 m c main_v6 : S1x8192.Idx → EReal) = transpose S1x8192 [1, 0] (U1 m c main_v2 : S8192x1.Idx → EReal) transposes_S8192x1_S1x8192_1_0 := by
  show StableHlo.after hostOps0 _ (Proc.devRef .tc main_v6) = transpose S1x8192 [1, 0] (StableHlo.after hostOps0 _ (Proc.devRef .tc main_v2)) transposes_S8192x1_S1x8192_1_0
  after_results
theorem U1_v7 : (U1 m c main_v7 : S1x8192.Idx → EReal) = transpose S1x8192 [1, 0] (U1 m c main_v5 : S8192x1.Idx → EReal) transposes_S8192x1_S1x8192_1_0 := by
  show StableHlo.after hostOps0 _ (Proc.devRef .tc main_v7) = transpose S1x8192 [1, 0] (StableHlo.after hostOps0 _ (Proc.devRef .tc main_v5)) transposes_S8192x1_S1x8192_1_0
  after_results
theorem U1_v8 : (U1 m c main_v8 : S8192x512.Idx → EReal) = m ((c.tc : Thread nD τ).loc main_arg0) := by
  show StableHlo.after hostOps0 _ (Proc.devRef .tc main_v8) = _
  after_results
  rfl
theorem U1_v9 : (U1 m c main_v9 : S8192x512.Idx → EReal) = m ((c.tc : Thread nD τ).loc main_arg1) := by
  show StableHlo.after hostOps0 _ (Proc.devRef .tc main_v9) = _
  after_results
  rfl

/-! ## Region 0's entry -/

theorem U1_lhs : (U1 m c main_arg0 : S8192x512.Idx → EReal) = m ((c.tc : Thread nD τ).loc main_arg0) := U1_arg0 m c

theorem U1_lnorm (i : Fin 8192) :
    (U1 m c main_v2 : S8192x1.Idx → EReal) (ix2 i 0) = Cert.Mmd.sqnorm (m ((c.tc : Thread nD τ).loc main_arg0)) i := by
  rw [U1_v2, column_apply, norms_apply]

theorem U1_rnorm (j : Fin 8192) :
    (U1 m c main_v6 : S1x8192.Idx → EReal) (ix2 0 j) = Cert.Mmd.sqnorm (m ((c.tc : Thread nD τ).loc main_arg0)) j := by
  rw [U1_v6, row_apply]
  exact U1_lnorm m c j

/-- The second operand's squared norms, as the first stretch leaves them. -/
theorem U1_lnorm_second (i : Fin 8192) :
    (U1 m c main_v5 : S8192x1.Idx → EReal) (ix2 i 0) = Cert.Mmd.sqnorm (m ((c.tc : Thread nD τ).loc main_arg1)) i := by
  rw [U1_v5, column_apply, norms_apply]

theorem U1_rnorm_second (j : Fin 8192) :
    (U1 m c main_v7 : S1x8192.Idx → EReal) (ix2 0 j) = Cert.Mmd.sqnorm (m ((c.tc : Thread nD τ).loc main_arg1)) j := by
  rw [U1_v7, row_apply]
  exact U1_lnorm_second m c j

/-! ## Region 1's entry -/

theorem U3_lhs : (U3 m c main_arg1 : S8192x512.Idx → EReal) = m ((c.tc : Thread nD τ).loc main_arg1) :=
  (U3_of m c main_arg1 (by decide) (by decide)).trans (U1_arg1 m c)

theorem U3_lnorm (i : Fin 8192) :
    (U3 m c main_v5 : S8192x1.Idx → EReal) (ix2 i 0) = Cert.Mmd.sqnorm (m ((c.tc : Thread nD τ).loc main_arg1)) i := by
  rw [U3_of m c main_v5 (by decide) (by decide)]
  exact U1_lnorm_second m c i

theorem U3_rnorm (j : Fin 8192) :
    (U3 m c main_v7 : S1x8192.Idx → EReal) (ix2 0 j) = Cert.Mmd.sqnorm (m ((c.tc : Thread nD τ).loc main_arg1)) j := by
  rw [U3_of m c main_v7 (by decide) (by decide)]
  exact U1_rnorm_second m c j

/-! ## Region 2's entry: the narrowed copies are the operands (a change of float format is the identity here) -/

theorem U5_lhs : (U5 m c main_v8 : S8192x512.Idx → EReal) = m ((c.tc : Thread nD τ).loc main_arg0) :=
  (U5_of m c main_v8 (by decide) (by decide)).trans ((U3_of m c main_v8 (by decide) (by decide)).trans (U1_v8 m c))

theorem U5_rhs : (U5 m c main_v9 : S8192x512.Idx → EReal) = m ((c.tc : Thread nD τ).loc main_arg1) :=
  (U5_of m c main_v9 (by decide) (by decide)).trans ((U3_of m c main_v9 (by decide) (by decide)).trans (U1_v9 m c))

theorem U5_lnorm (i : Fin 8192) :
    (U5 m c main_v2 : S8192x1.Idx → EReal) (ix2 i 0) = Cert.Mmd.sqnorm (m ((c.tc : Thread nD τ).loc main_arg0)) i := by
  rw [U5_of m c main_v2 (by decide) (by decide), U3_of m c main_v2 (by decide) (by decide)]
  exact U1_lnorm m c i

theorem U5_rnorm (j : Fin 8192) :
    (U5 m c main_v7 : S1x8192.Idx → EReal) (ix2 0 j) = Cert.Mmd.sqnorm (m ((c.tc : Thread nD τ).loc main_arg1)) j := by
  rw [U5_of m c main_v7 (by decide) (by decide), U3_of m c main_v7 (by decide) (by decide)]
  exact U1_rnorm_second m c j

/-! ## The closing arithmetic over the three regions' results -/

/-- Region 0's result, recast to a scalar by the reshape after it, reaches the closing arithmetic. -/
theorem W6_v11 : (W6 m c main_v11 : S_.Idx → EReal) = fun _ => (o2 m c : S1x1.Idx → EReal) (ix2 0 0) := by
  have e6 : W6 m c main_v11 = W5 m c main_v11 := W6_of m c main_v11 (by decide)
  have e5 : W5 m c main_v11 = W4 m c main_v11 := StableHlo.after_of_writes_sub (hostOps2 (F := Ideal)) _ Gen.hostOps2_writes (by decide)
  have e4 : W4 m c main_v11 = W3 m c main_v11 := W4_of m c main_v11 (by decide)
  have e3 : (W3 m c main_v11 : S_.Idx → EReal) = shapeCast S_ (W2 m c main_v10 : S1x1.Idx → EReal) shapeCasts_S1x1_S_ := by
    show StableHlo.after hostOps1 _ (Proc.devRef .tc main_v11) = _
    after_results
    rfl
  have e2 : W2 m c main_v10 = o2 m c := by unfold W2; exact Function.update_self _ _ _
  rw [e6, e5, e4, e3, e2]
  exact scalar_apply _

/-- Region 1's likewise. -/
theorem W6_v13 : (W6 m c main_v13 : S_.Idx → EReal) = fun _ => (o4 m c : S1x1.Idx → EReal) (ix2 0 0) := by
  have e6 : W6 m c main_v13 = W5 m c main_v13 := W6_of m c main_v13 (by decide)
  have e5 : (W5 m c main_v13 : S_.Idx → EReal) = shapeCast S_ (W4 m c main_v12 : S1x1.Idx → EReal) shapeCasts_S1x1_S_ := by
    show StableHlo.after hostOps2 _ (Proc.devRef .tc main_v13) = _
    after_results
    rfl
  have e4 : W4 m c main_v12 = o4 m c := by unfold W4; exact Function.update_self _ _ _
  rw [e6, e5, e4]
  exact scalar_apply _

/-- Region 2's result as region 2 leaves it. -/
theorem W6_v14 : W6 m c main_v14 = o6 m c := by unfold W6; exact Function.update_self _ _ _

/-- The last stretch's result as its operations compose it. -/
theorem W7_v21 : (W7 m c main_v21 : S_.Idx → EReal) =
    subf (addf (Host.divf (W6 m c main_v11 : FVec Ideal S_ .f32) (constant (F := Ideal) S_ .f32 0x4C800000#32))
        (Host.divf (W6 m c main_v13 : FVec Ideal S_ .f32) (constant (F := Ideal) S_ .f32 0x4C800000#32)))
      (Host.divf (mulf (constant (F := Ideal) S_ .f32 0x40000000#32) (shapeCast S_ (W6 m c main_v14 : S1x1.Idx → EReal) shapeCasts_S1x1_S_))
        (constant (F := Ideal) S_ .f32 0x4C800000#32)) := by
  show StableHlo.after hostOps3 _ (Proc.devRef .tc main_v21) = _
  after_results
  rfl

theorem W7_result : (W7 m c main_v21 : S_.Idx → EReal) = fun _ =>
    (Ideal.div ((o2 m c : S1x1.Idx → EReal) (ix2 0 0)) Cert.Mmd.count + Ideal.div ((o4 m c : S1x1.Idx → EReal) (ix2 0 0)) Cert.Mmd.count)
      - Ideal.div (Cert.Mmd.two * (o6 m c : S1x1.Idx → EReal) (ix2 0 0)) Cert.Mmd.count := by
  rw [W7_v21, W6_v11, W6_v13, W6_v14, scalar_apply]
  rfl

end Cert.KernelIdeal.HandV

end
-- ==== Proof.KIV.Result.lean ====
/-
  The idealized kernel's result is the loss of the specification.

  Each region leaves the sum over its sixteen tiles of the pair weights read off its four input arrays; the host stretches
  before the regions make those arrays the arguments, their squared row norms as a column and as a row (and, for the cross
  term, the arguments' bf16 copies, which at the ideal instance are the arguments); so each region's result is the
  kernel's total of the specification for its pair of arguments, and the closing arithmetic is the kernel's spelling of
  the loss, which equals the reference's.
-/
import proofs.«129238_j8907762171929_1_alg».proof.Proof.KIV.Region0V
import proofs.«129238_j8907762171929_1_alg».proof.Proof.KIV.Region1V
import proofs.«129238_j8907762171929_1_alg».proof.Proof.KIV.Region2V
import proofs.«129238_j8907762171929_1_alg».proof.Proof.KIV.Host
import proofs.«129238_j8907762171929_1_alg».proof.Proof.Spec

noncomputable section

namespace Cert.KernelIdeal.HandV

open Cert.KernelIdeal Cert.KernelIdeal.Gen Cert.KernelIdeal.Hand Idealize.ShloMosaic Idealize.ShloMosaic.TcCoe Idealize.ShloMosaic.ValueIdx Idealize.SL.Sem

variable (m : (ℓ : Loc nD τ sig) → Buf (Elt Ideal) ℓ) (c : Dev nD)

/-! ## Each region's pair weight is the specification's, in the kernel's spelling -/

/-- Region 0: (source, source). -/
theorem pairW0_eq : pairW0 (U1 m) c = Cert.Mmd.rbfK (m ((c.tc : Thread nD τ).loc main_arg0)) (m ((c.tc : Thread nD τ).loc main_arg0)) := by
  funext i j
  unfold pairW0 weight0 Cert.Mmd.rbfK Cert.Mmd.dist Cert.Mmd.inner
  rw [U1_lnorm, U1_rnorm, U1_lhs]

/-- Region 1: (target, target). -/
theorem pairW1_eq : pairW1 (U3 m) c = Cert.Mmd.rbfK (m ((c.tc : Thread nD τ).loc main_arg1)) (m ((c.tc : Thread nD τ).loc main_arg1)) := by
  funext i j
  unfold pairW1 weight1 Cert.Mmd.rbfK Cert.Mmd.dist Cert.Mmd.inner
  rw [U3_lnorm, U3_rnorm, U3_lhs]

/-- Region 2: (source, target), read off the bf16 copies, which at the ideal instance are the arguments. -/
theorem pairW2_eq : pairW2 (U5 m) c = Cert.Mmd.rbfK (m ((c.tc : Thread nD τ).loc main_arg0)) (m ((c.tc : Thread nD τ).loc main_arg1)) := by
  funext i j
  unfold pairW2 weight2 Cert.Mmd.rbfK Cert.Mmd.dist Cert.Mmd.inner
  rw [U5_lnorm, U5_rnorm, U5_lhs, U5_rhs]

/-! ## Each region's result is the kernel's total for its pair -/

theorem o2_value : (o2 m c : S1x1.Idx → EReal) (ix2 0 0) = Cert.Mmd.totalK (m ((c.tc : Thread nD τ).loc main_arg0)) (m ((c.tc : Thread nD τ).loc main_arg0)) := by
  unfold o2
  rw [result0_value, pairW0_eq]
  rfl

theorem o4_value : (o4 m c : S1x1.Idx → EReal) (ix2 0 0) = Cert.Mmd.totalK (m ((c.tc : Thread nD τ).loc main_arg1)) (m ((c.tc : Thread nD τ).loc main_arg1)) := by
  unfold o4
  rw [result1_value, pairW1_eq]
  rfl

theorem o6_value : (o6 m c : S1x1.Idx → EReal) (ix2 0 0) = Cert.Mmd.totalK (m ((c.tc : Thread nD τ).loc main_arg0)) (m ((c.tc : Thread nD τ).loc main_arg1)) := by
  unfold o6
  rw [result2_value, pairW2_eq]
  rfl

/-! ## The result -/

/-- The last boundary's contents at the result buffer are the reference's spelling of the loss. -/
theorem result_value :
    (W7 m c main_v21 : S_.Idx → EReal) = fun _ => Cert.Mmd.mmd (m ((c.tc : Thread nD τ).loc main_arg0)) (m ((c.tc : Thread nD τ).loc main_arg1)) := by
  rw [W7_result]
  funext _
  rw [o2_value, o4_value, o6_value]
  exact Cert.Mmd.mmdK_eq_mmd _ _

end Cert.KernelIdeal.HandV

end
-- ==== Proof.RefValue.lean ====
/-
  The reference's result is the loss of the specification.

  The reference forms one Gaussian weight array three times, for the pairs (s, s), (t, t) and (s, t). Its stages for the
  pair (x, y), read at the index (i, j), are: the squared row norms |x_i|² and |y_j|² (each a sum of 512 squares started
  at zero, spread over the rows and, transposed, over the columns), the row product x_i·y_j (a contraction with the
  transposed array, 512 terms), the distance (|x_i|² + |y_j|²) - 2 x_i·y_j, and the weight exp((-d)/2): the
  specification's weight of the pair. The two equal-argument blocks are the mixed block at x = y, stage for stage. The
  sum over both axes started at zero is the double sum over rows and columns, and the closing arithmetic
  (S(s,s)/N + S(t,t)/N) - 2·(S(s,t)/N) is the specification's loss as it is spelled.
-/
import proofs.«129238_j8907762171929_1_alg».proof.Proof.Gen.ReferenceIdeal.Run
import proofs.«129238_j8907762171929_1_alg».proof.Proof.Gen.ReferenceIdeal.Read
import proofs.«129238_j8907762171929_1_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- An [8192, 512] argument array at the ideal values. -/
abbrev Arr : Type := FVec Ideal S8192x512 .f32

/-! ## Where the mixed block's stages read their operands, at the pair (i, j) -/

/-- The first operand's squared norm at (i, j) sums row i. -/
theorem idx_norm_left (i j : Fin 8192) (k : Fin 512) :
    idx_main_v39 (idx_main_v40 (idx_main_v45 (ix2 i j))) k = ix2 i k :=
  funext fun a => Fin.ext (by match a with | ⟨0, _⟩ => rfl | ⟨1, _⟩ => rfl)

/-- The second operand's squared norm at (i, j), through the transposition, sums row j. -/
theorem idx_norm_right (i j : Fin 8192) (k : Fin 512) :
    idx_main_v42 (idx_main_v43 (idx_main_v44 (idx_main_v46 (ix2 i j)))) k = ix2 j k :=
  funext fun a => Fin.ext (by match a with | ⟨0, _⟩ => rfl | ⟨1, _⟩ => rfl)

/-- The contraction's left factor at (i, j) runs over row i. -/
theorem idx_dot_left (i j : Fin 8192) (k : Fin 512) : lidx_main_v49 (ix2 i j) k = ix2 i k :=
  funext fun a => Fin.ext (by match a with | ⟨0, _⟩ => rfl | ⟨1, _⟩ => rfl)

/-- The contraction's right factor at (i, j), through the transposition, runs over row j. -/
theorem idx_dot_right (i j : Fin 8192) (k : Fin 512) : idx_main_v48 (ridx_main_v49 (ix2 i j) k) = ix2 j k :=
  funext fun a => Fin.ext (by match a with | ⟨0, _⟩ => rfl | ⟨1, _⟩ => rfl)

/-! ## The weight array of a pair of arguments -/

/-- The mixed block at the pair (i, j) is the specification's weight of rows i of x and j of y. -/
theorem weight_at (x y : Arr) (i j : Fin 8192) :
    val_main_v56 (F := Ideal) x y (ix2 i j) = Cert.Mmd.rbf x y i j := by
  rw [val_main_v56_apply, val_main_v55_apply, val_main_v53_apply, val_main_v52_apply, val_main_v47_apply,
    val_main_v45_apply, val_main_v40_apply, val_main_v39_apply, val_main_cst_7_apply,
    val_main_v46_apply, val_main_v44_apply, val_main_v43_apply, val_main_v42_apply, val_main_cst_8_apply,
    val_main_v51_apply, val_main_v50_apply, val_main_cst_9_apply, val_main_v49_apply,
    val_main_v54_apply, val_main_cst_10_apply]
  simp only [val_main_v38_apply, val_main_v41_apply, val_main_v48_apply,
    idx_norm_left, idx_norm_right, idx_dot_left, idx_dot_right,
    Ideal.hostUnary_exp_def, Ideal.hostDivf_def, Ideal.hostNegf_def, Ideal.negf_def, Ideal.subf_def, Ideal.addf_def,
    Ideal.mulf_def, Ideal.ofBits_def, Ideal.ofBits_zero_f32, zero_add]
  rfl

/-- The first equal-argument block is the mixed block at equal arguments, stage for stage. -/
theorem block_first (x : Arr) : val_main_v18 (F := Ideal) x = val_main_v56 (F := Ideal) x x := rfl

/-- The second equal-argument block likewise. -/
theorem block_second (x : Arr) : val_main_v37 (F := Ideal) x = val_main_v56 (F := Ideal) x x := rfl

/-! ## The sums over all pairs -/

/-- The sum of the mixed block over both axes, started at zero, is the specification's total. -/
theorem total_mixed (x y : Arr) (i : S_.Idx) : val_main_v62 (F := Ideal) x y i = Cert.Mmd.total x y := by
  rw [val_main_v62_apply, val_main_cst_15_apply, Ideal.ofBits_def, Ideal.ofBits_zero_f32, zero_add, sum_idx2]
  exact Finset.sum_congr rfl fun a _ => Finset.sum_congr rfl fun b _ => weight_at x y a b

theorem total_first (x : Arr) (i : S_.Idx) : val_main_v57 (F := Ideal) x i = Cert.Mmd.total x x := by
  rw [val_main_v57_apply, val_main_cst_11_apply, Ideal.ofBits_def, Ideal.ofBits_zero_f32, zero_add, sum_idx2, block_first]
  exact Finset.sum_congr rfl fun a _ => Finset.sum_congr rfl fun b _ => weight_at x x a b

theorem total_second (x : Arr) (i : S_.Idx) : val_main_v59 (F := Ideal) x i = Cert.Mmd.total x x := by
  rw [val_main_v59_apply, val_main_cst_13_apply, Ideal.ofBits_def, Ideal.ofBits_zero_f32, zero_add, sum_idx2, block_second]
  exact Finset.sum_congr rfl fun a _ => Finset.sum_congr rfl fun b _ => weight_at x x a b

/-! ## The loss -/

/-- The reference's last stage is the specification's loss of its two arguments. -/
theorem result_eq (s t : Arr) : val_main_v65 (F := Ideal) s t = fun _ => Cert.Mmd.mmd s t := by
  funext i
  rw [val_main_v65_apply, val_main_v61_apply, val_main_v58_apply, val_main_v60_apply, val_main_v64_apply,
    val_main_v63_apply, total_first, total_second, total_mixed, val_main_cst_12_apply, val_main_cst_14_apply,
    val_main_cst_16_apply, val_main_cst_17_apply]
  rfl

/-- Every weakly fair execution of the reference ends with its result at the specification's loss of the two argument
    arrays as the launch found them, and the arguments unchanged. -/
theorem run_spec (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ (fun r => ∀ c : Dev nD,
      r.2.mem ((c.tc : Thread nD τ).loc main_v65) = (fun _ => Cert.Mmd.mmd (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono
    (fun _ h c => ⟨(h c).1.trans ((val_main_v65_eq (F := Ideal) _ _).trans (result_eq _ _)), (h c).2⟩)
    (Cert.ReferenceIdeal.Value.run (F := Ideal) m ρ)

end Cert.ReferenceIdeal.RefValue

end
-- ==== Proof.lean ====
/-
  The certificate of the MMD-loss kernel against its jnp reference: the loss (S(s,s) + S(t,t) - 2 S(s,t)) / N over the
  Gaussian weights of all pairs of rows, the kernel taking each pair sum tile by tile in three launches of one kernel.

  Frames: each kernel program (word-level and idealized) runs its three regions over the library's several-region launch,
  each region a pipeline whose (1,1) scratch is carried from grid point to grid point in the region invariant; the
  reference is straight-line host code, whose frame is its generated run with the result dropped.
  Preserves: the ideal pass rewrote nothing.
  Algebraic: the idealized kernel ends at the specification's loss in the kernel's spelling, the reference at the
  reference's spelling; the two agree on every extended real (Spec.lean).
-/
import proofs.«129238_j8907762171929_1_alg».proof.Defs
import proofs.«129238_j8907762171929_1_alg».proof.Proof.Gen.Kernel
import proofs.«129238_j8907762171929_1_alg».proof.Proof.Gen.KernelIdeal
import proofs.«129238_j8907762171929_1_alg».proof.Proof.Gen.ReferenceIdeal
import proofs.«129238_j8907762171929_1_alg».proof.Proof.Gen.Pre_finite_inputs
import proofs.«129238_j8907762171929_1_alg».proof.Proof.K.Run
import proofs.«129238_j8907762171929_1_alg».proof.Proof.KI.Run
import proofs.«129238_j8907762171929_1_alg».proof.Proof.KIV.Result
import proofs.«129238_j8907762171929_1_alg».proof.Proof.RefValue

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the specification's loss of the (agreeing) arguments. -/
theorem algebraic : Cert.algebraic_KernelIdeal_ReferenceIdeal := by
  intro m ρ m' ρ' _ hagree
  refine ⟨fun c _ => Cert.Mmd.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.HandV.result_value m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.RefValue.run_spec m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
